-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_sqrt_d" .f32 0x3EB504F3#32 ((4194304 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : IVec S2x800000 32) (main_arg1 : FVec F S50000x128 .f32) (main_arg2 : FVec F S800000x64 .f32) (main_arg3 : FVec F S128x64 .f32) (main_arg4 : FVec F S64 .f32) (main_arg5 : FVec F S128x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S2x800000 : Shape := ⟨2, ![2, 800000]⟩
abbrev S50000x128 : Shape := ⟨2, ![50000, 128]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8x64 : Shape := ⟨2, ![8, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x8 : Shape := ⟨2, ![800000, 8]⟩
abbrev S2000x8 : Shape := ⟨2, ![2000, 8]⟩
abbrev S50000x8 : Shape := ⟨2, ![50000, 8]⟩
abbrev S50000 : Shape := ⟨1, ![50000]⟩
abbrev S50000x1 : Shape := ⟨2, ![50000, 1]⟩
abbrev S2000x1 : Shape := ⟨2, ![2000, 1]⟩
abbrev S800000x8x8 : Shape := ⟨3, ![800000, 8, 8]⟩
abbrev S50000x8x8 : Shape := ⟨3, ![50000, 8, 8]⟩

abbrev nBuf : Space → Nat
  | .hbm => 72
  | .vmem => 41
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x8, .f32⟩
  | .hbm, ⟨12, _⟩ => ⟨S8x64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S800000x8, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S_, .f32⟩
  | .hbm, ⟨59, _⟩ => ⟨S50000x8, .f32⟩
  | .hbm, ⟨60, _⟩ => ⟨S800000x1, .i32⟩
  | .hbm, ⟨61, _⟩ => ⟨S50000x8, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S800000x8x8, .f32⟩
  | .hbm, ⟨71, _⟩ => ⟨S50000x8x8, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x8, .f32⟩
  | .local _ .vmem, ⟨25, _⟩ => ⟨S8x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x8, .f32⟩
  | .local _ .vmem, ⟨31, _⟩ => ⟨S2000x8, .f32⟩
  | .local _ .vmem, ⟨32, _⟩ => ⟨S2000x64, .f32⟩
  | .local _ .vmem, ⟨33, _⟩ => ⟨S2000x64, .f32⟩
  | .local _ .vmem, ⟨34, _⟩ => ⟨S2000x8, .f32⟩
  | .local _ .vmem, ⟨35, _⟩ => ⟨S2000x8, .f32⟩
  | .local _ .vmem, ⟨36, _⟩ => ⟨S2000x1, .f32⟩
  | .local _ .vmem, ⟨37, _⟩ => ⟨S2000x1, .f32⟩
  | .local _ .vmem, ⟨38, _⟩ => ⟨S8x64, .f32⟩
  | .local _ .vmem, ⟨39, _⟩ => ⟨S2000x64, .f32⟩
  | .local _ .vmem, ⟨40, _⟩ => ⟨S2000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_v30_2 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg4_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem4_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  inb_S64x64_S64x64_0_0 : ∀ a, (![0, 0] : Fin 2 → Nat) a + S64x64.size a ≤ S64x64.size a
  h_S64x64 : 0 < S64x64.numel
  shapeCasts_S2000x64_S2000x64 : S2000x64.ShapeCasts S2000x64
  inb_S64x8_S64x8_0_0 : ∀ a, (![0, 0] : Fin 2 → Nat) a + S64x8.size a ≤ S64x8.size a
  h_S64x8 : 0 < S64x8.numel
  inb_S8x64_S8x64_0_0 : ∀ a, (![0, 0] : Fin 2 → Nat) a + S8x64.size a ≤ S8x64.size a
  h_S8x64 : 0 < S8x64.numel
  inb_S2000x8_S2000x8_0_0 : ∀ a, (![0, 0] : Fin 2 → Nat) a + S2000x8.size a ≤ S2000x8.size a
  h_S2000x8 : 0 < S2000x8.numel
  bcast_S_S50000x64 : S_.BroadcastsInDim S50000x64 (![] : Fin 0 → Fin S50000x64.rank)
  bcast_S_S50000x8 : S_.BroadcastsInDim S50000x8 (![] : Fin 0 → Fin S50000x8.rank)
  bcast_S_S50000 : S_.BroadcastsInDim S50000 (![] : Fin 0 → Fin S50000.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x8_S2000x8 : S2000x8.ShapeCasts S2000x8
  broadcasts_S2000x1_S2000x8 : S2000x1.Broadcasts S2000x8
  shapeCasts_S800000x64_S800000x8x8 : S800000x64.ShapeCasts S800000x8x8
  shapeCasts_S50000x64_S50000x8x8 : S50000x64.ShapeCasts S50000x8x8
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  dot_S2000x64_S64x64_S2000x64_1_0_0_1_n_n_wf : DotDims.WF S2000x64 S64x64 S2000x64 [1] [0] [0] [1] [] []
  dot_S2000x64_S64x8_S2000x8_1_0_0_1_n_n_wf : DotDims.WF S2000x64 S64x8 S2000x8 [1] [0] [0] [1] [] []
  dot_S2000x8_S8x64_S2000x64_1_0_0_1_n_n_wf : DotDims.WF S2000x8 S8x64 S2000x64 [1] [0] [0] [1] [] []
  scatter_S50000x64_S800000x1_S800000x64_1_0_0_1_wf : ScatterDims.WF S50000x64 S800000x1 S800000x64 [1] [0] [0] 1
  scatter_S50000x8_S800000x1_S800000x8_1_0_0_1_wf : ScatterDims.WF S50000x8 S800000x1 S800000x8 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S800000x64.size a
  hwx1_0 : ∀ i : grid1.Coords, EltTy.bits .f32 = 32 ∨ (Rect.block (s := S800000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S800000x64.size a
  hwx1_1 : ∀ i : grid1.Coords, EltTy.bits .f32 = 32 ∨ (Rect.block (s := S800000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S800000x64.size a
  hwx1_2 : ∀ i : grid1.Coords, EltTy.bits .f32 = 32 ∨ (Rect.block (s := S800000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S800000x64.size a
  hwx1_3 : ∀ i : grid1.Coords, EltTy.bits .f32 = 32 ∨ (Rect.block (s := S800000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x8.size a ≤ S64x8.size a
  hwx1_6 : ∀ i : grid1.Coords, EltTy.bits .f32 = 32 ∨ (Rect.block (s := S64x8) S64x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x64.size a ≤ S8x64.size a
  hwx1_7 : ∀ i : grid1.Coords, EltTy.bits .f32 = 32 ∨ (Rect.block (s := S8x64) S8x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S800000x64.size a
  hwx1_8 : ∀ i : grid1.Coords, EltTy.bits .f32 = 32 ∨ (Rect.block (s := S800000x64) S2000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S800000x64.size a
  hwx1_9 : ∀ i : grid1.Coords, EltTy.bits .f32 = 32 ∨ (Rect.block (s := S800000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x8.size a ≤ S800000x8.size a
  hwx1_10 : ∀ i : grid1.Coords, EltTy.bits .f32 = 32 ∨ (Rect.block (s := S800000x8) S2000x8.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x8.size a ≤ S50000x8.size a
  hwx2_1 : ∀ i : grid2.Coords, EltTy.bits .f32 = 32 ∨ (Rect.block (s := S50000x8) S2000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x64.size a ≤ S8x64.size a
  hwx2_3 : ∀ i : grid2.Coords, EltTy.bits .f32 = 32 ∨ (Rect.block (s := S8x64) S8x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def dot_S2000x8_S8x64_S2000x64_1_0_0_1_n_n : DotDims S2000x8 S8x64 S2000x64 where
  lhsContracting := [1]
  rhsContracting := [0]
  lhsNonContracting := [0]
  rhsNonContracting := [1]
  lhsBatch := []
  rhsBatch := []
  wf := dot_S2000x8_S8x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S2000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S2000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst) S64x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_cst_0) S8x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30_0) S2000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v30_1) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v30_2) S2000x8.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v33) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_cst_0) S8x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S1x64 : Shape := ⟨2, ![1, 64]⟩
abbrev S50000x8x8 : Shape := ⟨3, ![50000, 8, 8]⟩
abbrev S800000x8x8 : Shape := ⟨3, ![800000, 8, 8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩
abbrev S50000 : Shape := ⟨1, ![50000]⟩
abbrev S50000x1x1 : Shape := ⟨3, ![50000, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S50000x8x8, .f32⟩
  | .hbm, ⟨16, _⟩ => ⟨S50000x64, .f32⟩
  | .hbm, ⟨17, _⟩ => ⟨S1x64, .f32⟩
  | .hbm, ⟨18, _⟩ => ⟨S50000x64, .f32⟩
  | .hbm, ⟨19, _⟩ => ⟨S50000x64, .f32⟩
  | .hbm, ⟨20, _⟩ => ⟨S50000x8x8, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x8x8, .f32⟩
  | .hbm, ⟨26, _⟩ => ⟨S800000x64, .f32⟩
  | .hbm, ⟨27, _⟩ => ⟨S1x64, .f32⟩
  | .hbm, ⟨28, _⟩ => ⟨S800000x64, .f32⟩
  | .hbm, ⟨29, _⟩ => ⟨S800000x64, .f32⟩
  | .hbm, ⟨30, _⟩ => ⟨S800000x8x8, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x8x8, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x8x8, .f32⟩
  | .hbm, ⟨53, _⟩ => ⟨S800000x8x8, .f32⟩
  | .hbm, ⟨54, _⟩ => ⟨S_, .f32⟩
  | .hbm, ⟨55, _⟩ => ⟨S800000x8x8, .f32⟩
  | .hbm, ⟨56, _⟩ => ⟨S800000x8x8, .f32⟩
  | .hbm, ⟨57, _⟩ => ⟨S800000x8x8, .f32⟩
  | .hbm, ⟨58, _⟩ => ⟨S_, .f32⟩
  | .hbm, ⟨59, _⟩ => ⟨S800000x8, .f32⟩
  | .hbm, ⟨60, _⟩ => ⟨S800000x8x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S_, .f32⟩
  | .hbm, ⟨67, _⟩ => ⟨S800000x8x1, .f32⟩
  | .hbm, ⟨68, _⟩ => ⟨S800000x8x1, .f32⟩
  | .hbm, ⟨69, _⟩ => ⟨S800000x8x1, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x8x8, .f32⟩
  | .hbm, ⟨79, _⟩ => ⟨S800000x8x8, .f32⟩
  | .hbm, ⟨80, _⟩ => ⟨S800000x8x8, .f32⟩
  | .hbm, ⟨81, _⟩ => ⟨S_, .f32⟩
  | .hbm, ⟨82, _⟩ => ⟨S50000x8x8, .f32⟩
  | .hbm, ⟨83, _⟩ => ⟨S800000x1, .i32⟩
  | .hbm, ⟨84, _⟩ => ⟨S50000x8x8, .f32⟩
  | .hbm, ⟨85, _⟩ => ⟨S_, .f32⟩
  | .hbm, ⟨86, _⟩ => ⟨S50000x8x1, .f32⟩
  | .hbm, ⟨87, _⟩ => ⟨S800000x1, .i32⟩
  | .hbm, ⟨88, _⟩ => ⟨S50000x8x1, .f32⟩
  | .hbm, ⟨89, _⟩ => ⟨S_, .f32⟩
  | .hbm, ⟨90, _⟩ => ⟨S800000, .f32⟩
  | .hbm, ⟨91, _⟩ => ⟨S_, .f32⟩
  | .hbm, ⟨92, _⟩ => ⟨S50000, .f32⟩
  | .hbm, ⟨93, _⟩ => ⟨S800000x1, .i32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1x1, .f32⟩
  | .hbm, ⟨99, _⟩ => ⟨S50000x8x1, .f32⟩
  | .hbm, ⟨100, _⟩ => ⟨S50000x8x1, .f32⟩
  | .hbm, ⟨101, _⟩ => ⟨S_, .f32⟩
  | .hbm, ⟨102, _⟩ => ⟨S50000x8x1, .f32⟩
  | .hbm, ⟨103, _⟩ => ⟨S50000x8x1, .f32⟩
  | .hbm, ⟨104, _⟩ => ⟨S50000x8x8, .f32⟩
  | .hbm, ⟨105, _⟩ => ⟨S50000x8x8, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S50000x8x8 : S50000x64.ShapeCasts S50000x8x8
  bcast_S1x64_S800000x64_0_1 : S1x64.BroadcastsInDim S800000x64 (![0, 1] : Fin 2 → Fin S800000x64.rank)
  shapeCasts_S800000x64_S800000x8x8 : S800000x64.ShapeCasts S800000x8x8
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x8 : S_.BroadcastsInDim S800000x8x8 (![] : Fin 0 → Fin S800000x8x8.rank)
  reducesTo_S800000x8x8_S800000x8_d2 : S800000x8x8.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x8_0_1_2 : S800000x8x1.BroadcastsInDim S800000x8x8 (![0, 1, 2] : Fin 3 → Fin S800000x8x8.rank)
  bcast_S_S50000x8x8 : S_.BroadcastsInDim S50000x8x8 (![] : Fin 0 → Fin S50000x8x8.rank)
  bcast_S_S50000x8x1 : S_.BroadcastsInDim S50000x8x1 (![] : Fin 0 → Fin S50000x8x1.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x8x1_0_1_2 : S50000x1x1.BroadcastsInDim S50000x8x1 (![0, 1, 2] : Fin 3 → Fin S50000x8x1.rank)
  bcast_S50000x8x1_S50000x8x8_0_1_2 : S50000x8x1.BroadcastsInDim S50000x8x8 (![0, 1, 2] : Fin 3 → Fin S50000x8x8.rank)
  dot_S50000x128_S128x64_S50000x64_1_0_0_1_n_n_wf : DotDims.WF S50000x128 S128x64 S50000x64 [1] [0] [0] [1] [] []
  dot_S800000x64_S64x64_S800000x64_1_0_0_1_n_n_wf : DotDims.WF S800000x64 S64x64 S800000x64 [1] [0] [0] [1] [] []
  gather_S50000x8x8_S800000x1_S800000x8x8_12_0_n_n_0_1_188_wf : GatherDims.WF S50000x8x8 S800000x1 S800000x8x8 [1, 2] [0] [] [0] [] 1 ![1, 8, 8]
  scatter_S50000x8x8_S800000x1_S800000x8x8_12_0_0_1_wf : ScatterDims.WF S50000x8x8 S800000x1 S800000x8x8 [1, 2] [0] [0] 1
  scatter_S50000x8x1_S800000x1_S800000x8x1_12_0_0_1_wf : ScatterDims.WF S50000x8x1 S800000x1 S800000x8x1 [1, 2] [0] [0] 1
  scatter_S50000_S800000x1_S800000_n_0_0_1_wf : ScatterDims.WF S50000 S800000x1 S800000 [] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x8x8_S800000x1_S800000x8x8_12_0_n_n_0_1_188 : GatherDims S50000x8x8 S800000x1 S800000x8x8 where
  offsetDims := [1, 2]
  collapsedSliceDims := [0]
  operandBatchingDims := []
  startIndicesBatchingDims := []
  startIndexMap := [0]
  indexVectorDim := 1
  sliceSizes := ![1, 8, 8]
  wf := gather_S50000x8x8_S800000x1_S800000x8x8_12_0_n_n_0_1_188_wf
def scatter_S50000x8x8_S800000x1_S800000x8x8_12_0_0_1 : ScatterDims S50000x8x8 S800000x1 S800000x8x8 where
  updateWindowDims := [1, 2]
  insertedWindowDims := [0]
  scatterDimsToOperandDims := [0]
  indexVectorDim := 1
  wf := scatter_S50000x8x8_S800000x1_S800000x8x8_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.LibRowIdx.lean ====
/-
  Which row of a table a row-indexed host gather reads, and which row a row-indexed host scatter writes.

  A gather reads its start word as a signed integer and clamps it into the table, so every start word names a
  row: a negative word names row 0 and a word past the end names the last row. A scatter also reads the word as a
  signed integer but does not clamp it: an update whose word is negative or past the end is dropped, so the word
  lands on row `n` exactly when it is non-negative and its value is `n`.
-/
import Idealize.ShloMosaic.Lib.ValueIdx

namespace Cert.Lib.Row

/-- The row of an `N`-row table that a gather with start word `w` reads: `w` as a signed integer, clamped into
    `[0, N - 1]`. -/
def rowOf (N : Nat) (hN : 0 < N) (w : BitVec 32) : Fin N := ⟨min w.toInt.toNat (N - 1), by omega⟩

/-- A scatter update with start word `w` lands on row `n`: `w` read signed is non-negative and equals `n`. -/
def Lands {N : Nat} (w : BitVec 32) (n : Fin N) : Prop := 0 ≤ w.toInt ∧ w.toInt.toNat = n.val

instance {N : Nat} (w : BitVec 32) (n : Fin N) : Decidable (Lands w n) := by unfold Lands; infer_instance

end Cert.Lib.Row
-- ==== Proof.Spec.lean ====
/-
  The mathematics of one graph-attention layer, as functions of coordinates on the extended reals.

  Nodes carry 128 features and edges 64; there are 8 heads of 8 entries, laid out along a 64-wide row with entry
  `d` of head `hd` in column `8 * hd + d`. From the node features three 64-wide projections are formed (query, key,
  value) and one from the edge features. For an edge `e` from node `s` to node `t` the score row is
  `key s * query t / D + edge-projection e`, entry by entry, with `D` the word `11863283 / 4194304`; dividing by `D`
  is multiplying by its reciprocal. A head's weight is the exponential of its eight scores' sum clipped into
  `[-5, 5]`; the edge's message is its source's value row, each entry times its head's weight. Messages, weights
  and the constant one are summed over the edges that land on each node, and the node's output is its message sum
  divided, entry by entry, by (its head's mean weight plus a small constant), the mean taken over at least one edge.

  Everything here is stated over plain coordinates (`Fin`), so that sums are sums over `Fin`; the index words of
  the gathers and scatters are parameters (`gs`, `gd` for the gathers by source and by destination, `ss` for the
  scatters by source).
-/
import proofs.«113673_j42554535969392_1_alg».proof.Proof.LibRowIdx
import Idealize.ShloMosaic.Lib.ValueIdx
import Idealize.ShloMosaic.PureOps.Ideal.Laws

noncomputable section

namespace Cert.Spec

open Idealize.ShloMosaic Idealize.ShloMosaic.ValueIdx Cert.Lib.Row

/-- The reciprocal of the score divisor `11863283 / 4194304`. -/
abbrev invD : EReal := ((4194304 / 11863283 : ℝ) : EReal)
/-- The float words both programs carry, read at the ideal instance. -/
abbrev fzero : EReal := Ideal.ofBits .f32 0x00000000#32
abbrev fone : EReal := Ideal.ofBits .f32 0x3F800000#32
abbrev fpos5 : EReal := Ideal.ofBits .f32 0x40A00000#32
abbrev fneg5 : EReal := Ideal.ofBits .f32 0xC0A00000#32
abbrev feps : EReal := Ideal.ofBits .f32 0x358637BD#32

/-- Column `8 * hd + d` of a 64-wide row: entry `d` of head `hd`. -/
def hcol (hd d : Fin 8) : Fin 64 := ⟨8 * hd.val + d.val, by omega⟩
/-- The head a column of a 64-wide row belongs to. -/
def headOf (j : Fin 64) : Fin 8 := ⟨j.val / 8, by omega⟩

theorem headOf_hcol (hd d : Fin 8) : headOf (hcol hd d) = hd := by
  apply Fin.ext; simp only [headOf, hcol]; omega

/-- A rank-2 array as a function of its two coordinates, and a rank-1 array of its one. -/
def cur2 {α : Type} {A B : Nat} (x : (⟨2, ![A, B]⟩ : Shape).Idx → α) : Fin A → Fin B → α := fun p q => x (ix2 p q)
def cur1 {α : Type} {A : Nat} (x : (⟨1, ![A]⟩ : Shape).Idx → α) : Fin A → α := fun p => x (ix1 p)
/-- The one column of an `[A, 1]` array. -/
def col0 {α : Type} {A : Nat} (x : (⟨2, ![A, 1]⟩ : Shape).Idx → α) : Fin A → α := fun p => x (ix2 p 0)

/-- A linear projection with bias: row `p` of `x` against column `j` of `W`, plus `b j`. -/
def proj {M K C : Nat} (x : Fin M → Fin K → EReal) (W : Fin K → Fin C → EReal) (b : Fin C → EReal)
    (p : Fin M) (j : Fin C) : EReal :=
  (∑ a : Fin K, x p a * W a j) + b j

/-- The score row of edge `e`: its source's key times its destination's query, scaled, plus its edge projection. -/
def score (Kf Qf : Fin 50000 → Fin 64 → EReal) (pe : Fin 800000 → Fin 64 → EReal)
    (gs gd : Fin 800000 → BitVec 32) (e : Fin 800000) (j : Fin 64) : EReal :=
  Kf (rowOf 50000 (by decide) (gs e)) j * Qf (rowOf 50000 (by decide) (gd e)) j * invD + pe e j

/-- The weight of head `hd` on edge `e`: the exponential of the head's score sum clipped into `[-5, 5]`. -/
def att (sc : Fin 800000 → Fin 64 → EReal) (e : Fin 800000) (hd : Fin 8) : EReal :=
  Ideal.exp (min fpos5 (max fneg5 (∑ d : Fin 8, sc e (hcol hd d))))

/-- The message of edge `e`: its source's value row, each entry times its head's weight. -/
def message (Vf : Fin 50000 → Fin 64 → EReal) (a : Fin 800000 → Fin 8 → EReal) (gs : Fin 800000 → BitVec 32)
    (e : Fin 800000) (j : Fin 64) : EReal :=
  Vf (rowOf 50000 (by decide) (gs e)) j * a e (headOf j)

/-- The sum of `u` over the edges whose scatter word lands on node `n`, from the zero word. -/
def segsum (ss : Fin 800000 → BitVec 32) (u : Fin 800000 → EReal) (n : Fin 50000) : EReal :=
  fzero + ∑ e ∈ Finset.univ.filter (fun e : Fin 800000 => Lands (ss e) n), u e

/-- Node `n`'s output at column `j`: its message sum over (its head's mean weight plus the small constant). -/
def normalized (wV : Fin 50000 → Fin 64 → EReal) (zs : Fin 50000 → Fin 8 → EReal) (cnt : Fin 50000 → EReal)
    (n : Fin 50000) (j : Fin 64) : EReal :=
  Ideal.div (wV n j) (Ideal.div (zs n (headOf j)) (max (cnt n) fone) + feps)

/-! ## The two results from the inputs -/

section Whole
variable (gs gd ss : Fin 800000 → BitVec 32)
variable (h : (⟨2, ![50000, 128]⟩ : Shape).Idx → EReal) (ef : (⟨2, ![800000, 64]⟩ : Shape).Idx → EReal)
variable (WQ : (⟨2, ![128, 64]⟩ : Shape).Idx → EReal) (bQ : (⟨1, ![64]⟩ : Shape).Idx → EReal)
variable (WK : (⟨2, ![128, 64]⟩ : Shape).Idx → EReal) (bK : (⟨1, ![64]⟩ : Shape).Idx → EReal)
variable (WV : (⟨2, ![128, 64]⟩ : Shape).Idx → EReal) (bV : (⟨1, ![64]⟩ : Shape).Idx → EReal)
variable (We : (⟨2, ![64, 64]⟩ : Shape).Idx → EReal) (be : (⟨1, ![64]⟩ : Shape).Idx → EReal)

/-- The score rows of all edges. -/
def scoreC : Fin 800000 → Fin 64 → EReal :=
  score (proj (cur2 h) (cur2 WK) (cur1 bK)) (proj (cur2 h) (cur2 WQ) (cur1 bQ)) (proj (cur2 ef) (cur2 We) (cur1 be)) gs gd

/-- The head weights of all edges. -/
def attC : Fin 800000 → Fin 8 → EReal := att (scoreC gs gd h ef WQ bQ WK bK We be)

/-- The messages of all edges. -/
def messageC : Fin 800000 → Fin 64 → EReal :=
  message (proj (cur2 h) (cur2 WV) (cur1 bV)) (attC gs gd h ef WQ bQ WK bK We be) gs

/-- The node outputs. -/
def houtC : Fin 50000 → Fin 64 → EReal :=
  normalized (fun n j => segsum ss (fun e => messageC gs gd h ef WQ bQ WK bK WV bV We be e j) n)
    (fun n hd => segsum ss (fun e => attC gs gd h ef WQ bQ WK bK We be e hd) n)
    (segsum ss (fun _ => fone))

/-- The edge result as an `[800000, 8, 8]` array: entry `(e, hd, d)` is the score at column `8 * hd + d`. -/
def eoutArr : (⟨3, ![800000, 8, 8]⟩ : Shape).Idx → EReal := fun i =>
  scoreC gs gd h ef WQ bQ WK bK We be ⟨(i 0).val, (i 0).isLt⟩ (hcol ⟨(i 1).val, (i 1).isLt⟩ ⟨(i 2).val, (i 2).isLt⟩)

/-- The node result as a `[50000, 8, 8]` array. -/
def houtArr : (⟨3, ![50000, 8, 8]⟩ : Shape).Idx → EReal := fun i =>
  houtC gs gd ss h ef WQ bQ WK bK WV bV We be ⟨(i 0).val, (i 0).isLt⟩ (hcol ⟨(i 1).val, (i 1).isLt⟩ ⟨(i 2).val, (i 2).isLt⟩)

theorem eoutArr_ix3 (e : Fin 800000) (hd d : Fin 8) :
    eoutArr gs gd h ef WQ bQ WK bK We be (ix3 e hd d) = scoreC gs gd h ef WQ bQ WK bK We be e (hcol hd d) := rfl

theorem houtArr_ix3 (n : Fin 50000) (hd d : Fin 8) :
    houtArr gs gd ss h ef WQ bQ WK bK WV bV We be (ix3 n hd d) = houtC gs gd ss h ef WQ bQ WK bK WV bV We be n (hcol hd d) := rfl

end Whole

end Cert.Spec

end
-- ==== Proof.KReg2.lean ====
/-
  The normalising kernel: what it leaves in its output array.

  Each grid point takes 2000 nodes. A node's head weight sums are divided by its edge count, at least one; the
  quotients are copied to each head's eight columns by the product with the transposed 0/1 head matrix, the small
  constant is added, and the node's message sum is divided by the result entry by entry.

  The product with the head matrix is a sum of eight terms of which one survives: column `j` of the matrix is 1 in row
  `j / 8` and 0 elsewhere, and on the extended reals `x * 1 = x` and `x * 0 = 0` hold without any finiteness. So the
  body's result at row `p`, column `q` is the message sum over (the head `q / 8`'s weight sum over the count, plus the
  constant), which is the specification's normalised row. Grid point `t` reads and writes rows `2000 t … 2000 t + 1999`,
  the 25 points' blocks cover the 50000 rows, and so the array ends holding the normalised rows.
-/
import proofs.«113673_j42554535969392_1_alg».proof.Proof.Gen.KernelIdeal.Frame
import proofs.«113673_j42554535969392_1_alg».proof.Proof.LibDot2
import proofs.«113673_j42554535969392_1_alg».proof.Proof.Spec
import Idealize.ShloMosaic.Lib.Pipeline.Value

set_option maxRecDepth 16384

noncomputable section

namespace Cert.KernelIdeal.Reg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The body's arithmetic at an entry -/

/-- The product's dimension numbers, coordinate by coordinate: the left operand is read at the output's row and the
    contracted position, the right operand at the contracted position and the output's column. -/
theorem dotL0 (i : S2000x64.Idx) (q : dot_S2000x8_S8x64_S2000x64_1_0_0_1_n_n.contr.Idx) :
    (dot_S2000x8_S8x64_S2000x64_1_0_0_1_n_n.lhsIdx i q 0).val = (i 0).val := by
  unfold DotDims.lhsIdx
  rw [dif_neg (show ¬(0 : Fin S2000x8.rank) ∈ dot_S2000x8_S8x64_S2000x64_1_0_0_1_n_n.lhsBatch by decide), dif_pos (show (0 : Fin S2000x8.rank) ∈ dot_S2000x8_S8x64_S2000x64_1_0_0_1_n_n.lhsNonContracting by decide)]
  rfl
theorem dotL1 (i : S2000x64.Idx) (q : dot_S2000x8_S8x64_S2000x64_1_0_0_1_n_n.contr.Idx) :
    (dot_S2000x8_S8x64_S2000x64_1_0_0_1_n_n.lhsIdx i q 1).val = (q ⟨0, by decide⟩).val :=
  dot_S2000x8_S8x64_S2000x64_1_0_0_1_n_n.lhsIdx_val_of_single rfl i q
theorem dotR0 (i : S2000x64.Idx) (q : dot_S2000x8_S8x64_S2000x64_1_0_0_1_n_n.contr.Idx) :
    (dot_S2000x8_S8x64_S2000x64_1_0_0_1_n_n.rhsIdx i q 0).val = (q ⟨0, by decide⟩).val :=
  dot_S2000x8_S8x64_S2000x64_1_0_0_1_n_n.rhsIdx_val_of_single rfl i q
theorem dotR1 (i : S2000x64.Idx) (q : dot_S2000x8_S8x64_S2000x64_1_0_0_1_n_n.contr.Idx) :
    (dot_S2000x8_S8x64_S2000x64_1_0_0_1_n_n.rhsIdx i q 1).val = (i 1).val := by
  unfold DotDims.rhsIdx
  rw [dif_neg (show ¬(1 : Fin S8x64.rank) ∈ dot_S2000x8_S8x64_S2000x64_1_0_0_1_n_n.rhsBatch by decide), dif_pos (show (1 : Fin S8x64.rank) ∈ dot_S2000x8_S8x64_S2000x64_1_0_0_1_n_n.rhsNonContracting by decide)]
  rfl

/-- A column copied to eight columns: entry `(p, k)` of the copy is entry `(p, 0)` of the column. -/
theorem bcol (v : FVec Ideal S2000x1 .f32) (p : Fin 2000) (k : Fin 8) :
    broadcastTo S2000x8 v broadcasts_S2000x1_S2000x8 (ix2 p k) = v (ix2 p 0) :=
  broadcastTo_apply v broadcasts_S2000x1_S2000x8 (ix2 p k) (ix2 p 0) (fun a => match a with
    | ⟨0, _⟩ => by show p.val = if (2000 : Nat) = 1 then 0 else p.val; rw [if_neg (by decide)]
    | ⟨1, _⟩ => by show (0 : Nat) = if (1 : Nat) = 1 then 0 else k.val; rw [if_pos rfl])

/-- A sum against a row of the head matrix keeps the one term of the column's own head. -/
theorem sel_sum (z : Fin 8 → EReal) (q : Fin 64) :
    ∑ hd : Fin 8, z hd * (if q.val / 8 = hd.val then (1 : EReal) else 0) = z (Spec.headOf q) := by
  have e : ∀ hd : Fin 8, z hd * (if q.val / 8 = hd.val then (1 : EReal) else 0) = if Spec.headOf q = hd then z hd else 0 := by
    intro hd
    by_cases h : q.val / 8 = hd.val
    · rw [if_pos h, if_pos (Fin.ext h), mul_one]
    · rw [if_neg h, if_neg (fun e => h (congrArg Fin.val e)), mul_zero]
  rw [Finset.sum_congr rfl (fun hd _ => e hd), Finset.sum_ite_eq, if_pos (Finset.mem_univ _)]

/-- The body's result at row `p`, column `q`, from its four loaded blocks. -/
theorem pay_at (x2 : Vec Ideal S2000x1 .f32) (x1 : Vec Ideal S2000x8 .f32) (x3 : Vec Ideal S8x64 .f32) (x0 : Vec Ideal S2000x64 .f32)
    (hB : ∀ (hd : Fin 8) (j : Fin 64), (x3 : S8x64.Idx → EReal) (ix2 hd j) = if j.val / 8 = hd.val then (1 : EReal) else 0)
    (p : Fin 2000) (q : Fin 64) :
    (k2_pay1 (F := Ideal) x2 x1 x3 x0 : S2000x64.Idx → EReal) (ix2 p q)
      = Ideal.div (x0 (ix2 p q)) (Ideal.div (x1 (ix2 p (Spec.headOf q))) (max (x2 (ix2 p 0)) Spec.fone) + Spec.feps) := by
  unfold k2_pay1
  simp only [shapeCast_self]
  rw [divf_apply, addf_apply, broadcast_apply]
  rw [Cert.Lib.Dot2.matmul_zero_ix2 dot_S2000x8_S8x64_S2000x64_1_0_0_1_n_n (some .fp32) rfl rfl dotL0 dotL1 dotR0 dotR1]
  simp only [divf_apply, bcol, maximumf_apply, broadcast_apply, hB]
  exact congrArg (fun s : EReal => Ideal.div (x0 (ix2 p q)) (s + Spec.feps))
    (sel_sum (fun hd => Ideal.div (x1 (ix2 p hd)) (max (x2 (ix2 p 0)) Spec.fone)) q)

variable (V : (c : Dev nD) → (b : Ref sig .tc) → Buf (Elt Ideal) ((c : Thread nD τ).loc b))

/-- The transposed head-membership matrix, as this kernel's fourth window finds it. -/
def IsSelT (c : Dev nD) : Prop :=
  ∀ (hd : Fin 8) (j : Fin 64), (V c main_cst_0 : (⟨2, ![8, 64]⟩ : Shape).Idx → EReal) (ix2 hd j) = if j.val / 8 = hd.val then (1 : EReal) else 0

/-! ## From the blocks to the array -/

theorem hz : (![0, 0] : Fin 2 → Nat) = fun _ => 0 := funext fun a => by fin_cases a <;> rfl

/-- Where each window's block sits at grid point `t`: the three node-indexed inputs and the output take the `t`-th
    group of 2000 rows, the head matrix is read whole. Decided over the 25 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the message-sum block at point `t` is row `2000 t + p` of the message sums. -/
theorem blk0_at (c : Dev nD) (t : Fin cfg2.N) (p : Fin 2000) (q : Fin 64) (n : Fin 50000) (hn : n.val = 2000 * t.val + p.val) :
    (iblk2 (F := Ideal) V c 0 t : S2000x64.Idx → EReal) (ix2 p q) = (V c main_v33 : S50000x64.Idx → EReal) (ix2 n q) := by
  obtain ⟨e0, e1, -⟩ := idx_facts t
  unfold iblk2
  rw [View.read_apply]
  show (V c main_v33 : S50000x64.Idx → EReal) (((cfg2.win 0).blk t).view.emb (ix2 p q)) = _
  refine congrArg (V c main_v33 : S50000x64.Idx → EReal) (funext fun a => Fin.ext ?_)
  match a with
  | ⟨0, _⟩ => show win2_0.index t (0 : Fin 2) * 2000 + 1 * p.val = n.val; rw [e0, hn]; omega
  | ⟨1, _⟩ => show win2_0.index t (1 : Fin 2) * 64 + 1 * q.val = q.val; rw [e1]; omega

/-- Row `p` of the weight-sum block at point `t` is row `2000 t + p` of the head weight sums. -/
theorem blk1_at (c : Dev nD) (t : Fin cfg2.N) (p : Fin 2000) (h : Fin 8) (n : Fin 50000) (hn : n.val = 2000 * t.val + p.val) :
    (iblk2 (F := Ideal) V c 1 t : S2000x8.Idx → EReal) (ix2 p h) = (V c main_v36 : S50000x8.Idx → EReal) (ix2 n h) := by
  obtain ⟨-, -, e0, e1, -⟩ := idx_facts t
  unfold iblk2
  rw [View.read_apply]
  show (V c main_v36 : S50000x8.Idx → EReal) (((cfg2.win 1).blk t).view.emb (ix2 p h)) = _
  refine congrArg (V c main_v36 : S50000x8.Idx → EReal) (funext fun a => Fin.ext ?_)
  match a with
  | ⟨0, _⟩ => show win2_1.index t (0 : Fin 2) * 2000 + 1 * p.val = n.val; rw [e0, hn]; omega
  | ⟨1, _⟩ => show win2_1.index t (1 : Fin 2) * 8 + 1 * h.val = h.val; rw [e1]; omega

/-- Row `p` of the count block at point `t` is row `2000 t + p` of the count column. -/
theorem blk2_at (c : Dev nD) (t : Fin cfg2.N) (p : Fin 2000) (n : Fin 50000) (hn : n.val = 2000 * t.val + p.val) :
    (iblk2 (F := Ideal) V c 2 t : S2000x1.Idx → EReal) (ix2 p 0) = (V c main_v41 : S50000x1.Idx → EReal) (ix2 n 0) := by
  obtain ⟨-, -, -, -, e0, e1, -⟩ := idx_facts t
  unfold iblk2
  rw [View.read_apply]
  show (V c main_v41 : S50000x1.Idx → EReal) (((cfg2.win 2).blk t).view.emb (ix2 p 0)) = _
  refine congrArg (V c main_v41 : S50000x1.Idx → EReal) (funext fun a => Fin.ext ?_)
  match a with
  | ⟨0, _⟩ => show win2_2.index t (0 : Fin 2) * 2000 + 1 * p.val = n.val; rw [e0, hn]; omega
  | ⟨1, _⟩ => show win2_2.index t (1 : Fin 2) * 1 + 1 * 0 = 0; rw [e1]

/-- The head-matrix block at any point is the whole head matrix. -/
theorem blk3_at (c : Dev nD) (t : Fin cfg2.N) (hd : Fin 8) (j : Fin 64) :
    (iblk2 (F := Ideal) V c 3 t : S8x64.Idx → EReal) (ix2 hd j) = (V c main_cst_0 : S8x64.Idx → EReal) (ix2 hd j) := by
  obtain ⟨-, -, -, -, -, -, e0, e1, -⟩ := idx_facts t
  unfold iblk2
  rw [View.read_apply]
  show (V c main_cst_0 : S8x64.Idx → EReal) (((cfg2.win 3).blk t).view.emb (ix2 hd j)) = _
  refine congrArg (V c main_cst_0 : S8x64.Idx → EReal) (funext fun a => Fin.ext ?_)
  match a with
  | ⟨0, _⟩ => show win2_3.index t (0 : Fin 2) * 8 + 1 * hd.val = hd.val; rw [e0]; omega
  | ⟨1, _⟩ => show win2_3.index t (1 : Fin 2) * 64 + 1 * j.val = j.val; rw [e1]; omega

/-- The normalised node rows as one array of the three inputs. -/
def rowsOf (c : Dev nD) : S50000x64.Idx → EReal := fun i =>
  Spec.normalized (Spec.cur2 (V c main_v33 : (⟨2, ![50000, 64]⟩ : Shape).Idx → EReal)) (Spec.cur2 (V c main_v36 : (⟨2, ![50000, 8]⟩ : Shape).Idx → EReal))
    (Spec.col0 (V c main_v41 : (⟨2, ![50000, 1]⟩ : Shape).Idx → EReal)) ⟨(i 0).val, (i 0).isLt⟩ ⟨(i 1).val, (i 1).isLt⟩

/-- The body's result at point `t`, row `p`, column `q` is the normalised row `2000 t + p` at column `q`. -/
theorem out_at (c : Dev nD) (hB : IsSelT V c) (t : Fin cfg2.N) (p : Fin 2000) (q : Fin 64) (n : Fin 50000) (hn : n.val = 2000 * t.val + p.val) :
    (k2_pay1 (F := Ideal) (iblk2 V c 2 t) (iblk2 V c 1 t) (iblk2 V c 3 t) (iblk2 V c 0 t) : S2000x64.Idx → EReal) (ix2 p q)
      = rowsOf V c (ix2 n q) := by
  have hB' : ∀ (hd : Fin 8) (j : Fin 64), (iblk2 (F := Ideal) V c 3 t : S8x64.Idx → EReal) (ix2 hd j) = if j.val / 8 = hd.val then (1 : EReal) else 0 :=
    fun hd j => (blk3_at V c t hd j).trans (hB hd j)
  refine (pay_at (iblk2 V c 2 t) (iblk2 V c 1 t) (iblk2 V c 3 t) (iblk2 V c 0 t) hB' p q).trans ?_
  show _ = Ideal.div ((V c main_v33 : S50000x64.Idx → EReal) (ix2 n q))
      (Ideal.div ((V c main_v36 : S50000x8.Idx → EReal) (ix2 n (Spec.headOf q))) (max ((V c main_v41 : S50000x1.Idx → EReal) (ix2 n 0)) Spec.fone) + Spec.feps)
  rw [blk0_at V c t p q n hn, blk1_at V c t p (Spec.headOf q) n hn, blk2_at V c t p n hn]

/-- What grid point `t` writes back is its 2000 rows of the normalised array. -/
theorem flushed_eq (c : Dev nD) (hB : IsSelT V c) (t : Fin cfg2.N) :
    (dat2 (F := Ideal) V c).flushed 4 t = ((cfg2.win 4).blk t).view.read (Elt Ideal) (rowsOf V c) := by
  show (cfg2.win 4).cut (grid2.coords t) ((dat2 (F := Ideal) V c).after 4 t) = _
  rw [after2_4]
  unfold out2_4
  rw [View.canon_unit_zero hz]
  simp only [View.ld_unit_zero (S := S2000x64) hz, View.ld_unit_zero (S := S2000x8) hz, View.ld_unit_zero (S := S2000x1) hz, View.ld_unit_zero (S := S8x64) hz]
  funext y
  have hy0 : (y 0).val < 2000 := (y 0).isLt
  have hy1 : (y 1).val < 64 := (y 1).isLt
  have hN : cfg2.N = 25 := N_2
  have ht : t.val < 25 := by have := t.isLt; omega
  obtain ⟨-, -, -, -, -, -, -, -, e0, e1⟩ := idx_facts t
  have hemb : ((cfg2.win 4).blk t).view.emb y = (ix2 (⟨2000 * t.val + (y 0).val, by omega⟩ : Fin 50000) (⟨(y 1).val, hy1⟩ : Fin 64) : S50000x64.Idx) := by
    funext a; apply Fin.ext
    match a with
    | ⟨0, _⟩ => show win2_4.index t (0 : Fin 2) * 2000 + 1 * (y 0).val = 2000 * t.val + (y 0).val; rw [e0]; omega
    | ⟨1, _⟩ => show win2_4.index t (1 : Fin 2) * 64 + 1 * (y 1).val = (y 1).val; rw [e1]; omega
  have hy : y = (ix2 (⟨(y 0).val, hy0⟩ : Fin 2000) (⟨(y 1).val, hy1⟩ : Fin 64) : S2000x64.Idx) := by
    funext a; match a with | ⟨0, _⟩ => rfl | ⟨1, _⟩ => rfl
  show (k2_pay1 (F := Ideal) (iblk2 V c 2 t) (iblk2 V c 1 t) (iblk2 V c 3 t) (iblk2 V c 0 t) : S2000x64.Idx → EReal) y
      = rowsOf V c (((cfg2.win 4).blk t).view.emb y)
  refine Eq.trans ?_ (congrArg (rowsOf V c) hemb).symm
  refine Eq.trans (congrArg (k2_pay1 (F := Ideal) (iblk2 V c 2 t) (iblk2 V c 1 t) (iblk2 V c 3 t) (iblk2 V c 0 t) : S2000x64.Idx → EReal) hy) ?_
  exact out_at V c hB t ⟨(y 0).val, hy0⟩ ⟨(y 1).val, hy1⟩ ⟨2000 * t.val + (y 0).val, by omega⟩ rfl

/-- An index of the output array lies in point `t`'s block iff each coordinate is in the block's range. -/
theorem mem_blk (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v42).slice (win2_4.rect t)).set ↔ _
  rw [View.set_slice_whole, Rect.mem_set_unit]
  exact Iff.rfl

/-- Every row belongs to some point's block: row `r` to point `r / 2000`. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  have hlt : (i 0).val / 2000 < cfg2.N := by rw [hN]; omega
  obtain ⟨-, -, -, -, -, -, -, -, e0, e1⟩ := idx_facts ⟨(i 0).val / 2000, hlt⟩
  refine ⟨⟨(i 0).val / 2000, hlt⟩, flush2_4 _, ?_⟩
  rw [mem_blk]
  intro a
  match a with
  | ⟨0, _⟩ =>
    show win2_4.index ⟨(i 0).val / 2000, hlt⟩ (0 : Fin 2) * 2000 ≤ (i 0).val ∧ (i 0).val < win2_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, hlt⟩ (1 : Fin 2) * 64 ≤ (i 1).val ∧ (i 1).val < win2_4.index ⟨(i 0).val / 2000, hlt⟩ (1 : Fin 2) * 64 + 64
    rw [e1]; omega

/-- So the output array ends holding the normalised rows. -/
theorem arr_eq (c : Dev nD) (hB : IsSelT V c) : (dat2 (F := Ideal) V c).arrAt 4 cfg2.N = rowsOf V c :=
  (dat2 (F := Ideal) V c).arrAt_eq_of_cover 4 (rowsOf V c) (fun t _ => flushed_eq V c hB t) (cover)

/-- The output array holds the normalised node rows. -/
theorem hout_at (c : Dev nD) (hB : IsSelT V c) (n : Fin 50000) (j : Fin 64) :
    ((dat2 (F := Ideal) V c).arrAt 4 cfg2.N : (⟨2, ![50000, 64]⟩ : Shape).Idx → EReal) (ix2 n j)
      = Spec.normalized (Spec.cur2 (V c main_v33 : (⟨2, ![50000, 64]⟩ : Shape).Idx → EReal)) (Spec.cur2 (V c main_v36 : (⟨2, ![50000, 8]⟩ : Shape).Idx → EReal))
          (Spec.col0 (V c main_v41 : (⟨2, ![50000, 1]⟩ : Shape).Idx → EReal)) n j :=
  congrFun (arr_eq V c hB) (ix2 n j)

end Cert.KernelIdeal.Reg2

end
-- ==== Proof.KReg1.lean ====
/-
  The per-edge attention kernel: what it leaves in its three output arrays.

  Each grid point takes 2000 edges. An edge's score row is its gathered key row times its gathered query row, scaled
  by the named reciprocal, plus the edge features' projection. Summing a score row against the 0/1 matrix that has a
  one where column `j` belongs to head `hd` gives each head's eight scores' sum; clipping and exponentiating gives the
  head weights; multiplying the weights against the transposed 0/1 matrix copies each head's weight to its eight
  columns, which scale the gathered value row. So the three arrays hold the specification's score, message and
  weight of every edge, whatever the buffers held at entry, provided the two 0/1 matrices are what they are.
-/
import proofs.«113673_j42554535969392_1_alg».proof.Proof.Gen.KernelIdeal.Frame
import proofs.«113673_j42554535969392_1_alg».proof.Proof.LibDot2
import proofs.«113673_j42554535969392_1_alg».proof.Proof.Spec
import Idealize.ShloMosaic.Lib.Pipeline.Value
import Idealize.ShloMosaic.Lib.ValueLayout

set_option maxRecDepth 16384

noncomputable section

namespace Cert.KernelIdeal.Reg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## Which coordinate each factor of the three matrix products reads

Each product contracts the left factor's second axis with the right factor's first: the left factor is read at the
output's row and the contraction coordinate, the right factor at the contraction coordinate and the output's column. -/

theorem dotE_l0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem dotE_l1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem dotE_r0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem dotE_r1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem dotS_l0 (i : S2000x8.Idx) (q : dot_S2000x64_S64x8_S2000x8_1_0_0_1_n_n.contr.Idx) :
    (dot_S2000x64_S64x8_S2000x8_1_0_0_1_n_n.lhsIdx i q 0).val = (i 0).val := by
  unfold DotDims.lhsIdx
  rw [dif_neg (show ¬(0 : Fin S2000x64.rank) ∈ dot_S2000x64_S64x8_S2000x8_1_0_0_1_n_n.lhsBatch by decide), dif_pos (show (0 : Fin S2000x64.rank) ∈ dot_S2000x64_S64x8_S2000x8_1_0_0_1_n_n.lhsNonContracting by decide)]
  rfl
theorem dotS_l1 (i : S2000x8.Idx) (q : dot_S2000x64_S64x8_S2000x8_1_0_0_1_n_n.contr.Idx) :
    (dot_S2000x64_S64x8_S2000x8_1_0_0_1_n_n.lhsIdx i q 1).val = (q ⟨0, by decide⟩).val :=
  dot_S2000x64_S64x8_S2000x8_1_0_0_1_n_n.lhsIdx_val_of_single rfl i q
theorem dotS_r0 (i : S2000x8.Idx) (q : dot_S2000x64_S64x8_S2000x8_1_0_0_1_n_n.contr.Idx) :
    (dot_S2000x64_S64x8_S2000x8_1_0_0_1_n_n.rhsIdx i q 0).val = (q ⟨0, by decide⟩).val :=
  dot_S2000x64_S64x8_S2000x8_1_0_0_1_n_n.rhsIdx_val_of_single rfl i q
theorem dotS_r1 (i : S2000x8.Idx) (q : dot_S2000x64_S64x8_S2000x8_1_0_0_1_n_n.contr.Idx) :
    (dot_S2000x64_S64x8_S2000x8_1_0_0_1_n_n.rhsIdx i q 1).val = (i 1).val := by
  unfold DotDims.rhsIdx
  rw [dif_neg (show ¬(1 : Fin S64x8.rank) ∈ dot_S2000x64_S64x8_S2000x8_1_0_0_1_n_n.rhsBatch by decide), dif_pos (show (1 : Fin S64x8.rank) ∈ dot_S2000x64_S64x8_S2000x8_1_0_0_1_n_n.rhsNonContracting by decide)]
  rfl

theorem dotT_l0 (i : S2000x64.Idx) (q : dot_S2000x8_S8x64_S2000x64_1_0_0_1_n_n.contr.Idx) :
    (dot_S2000x8_S8x64_S2000x64_1_0_0_1_n_n.lhsIdx i q 0).val = (i 0).val := by
  unfold DotDims.lhsIdx
  rw [dif_neg (show ¬(0 : Fin S2000x8.rank) ∈ dot_S2000x8_S8x64_S2000x64_1_0_0_1_n_n.lhsBatch by decide), dif_pos (show (0 : Fin S2000x8.rank) ∈ dot_S2000x8_S8x64_S2000x64_1_0_0_1_n_n.lhsNonContracting by decide)]
  rfl
theorem dotT_l1 (i : S2000x64.Idx) (q : dot_S2000x8_S8x64_S2000x64_1_0_0_1_n_n.contr.Idx) :
    (dot_S2000x8_S8x64_S2000x64_1_0_0_1_n_n.lhsIdx i q 1).val = (q ⟨0, by decide⟩).val :=
  dot_S2000x8_S8x64_S2000x64_1_0_0_1_n_n.lhsIdx_val_of_single rfl i q
theorem dotT_r0 (i : S2000x64.Idx) (q : dot_S2000x8_S8x64_S2000x64_1_0_0_1_n_n.contr.Idx) :
    (dot_S2000x8_S8x64_S2000x64_1_0_0_1_n_n.rhsIdx i q 0).val = (q ⟨0, by decide⟩).val :=
  dot_S2000x8_S8x64_S2000x64_1_0_0_1_n_n.rhsIdx_val_of_single rfl i q
theorem dotT_r1 (i : S2000x64.Idx) (q : dot_S2000x8_S8x64_S2000x64_1_0_0_1_n_n.contr.Idx) :
    (dot_S2000x8_S8x64_S2000x64_1_0_0_1_n_n.rhsIdx i q 1).val = (i 1).val := by
  unfold DotDims.rhsIdx
  rw [dif_neg (show ¬(1 : Fin S8x64.rank) ∈ dot_S2000x8_S8x64_S2000x64_1_0_0_1_n_n.rhsBatch by decide), dif_pos (show (1 : Fin S8x64.rank) ∈ dot_S2000x8_S8x64_S2000x64_1_0_0_1_n_n.rhsNonContracting by decide)]
  rfl

/-! ## Two sums against the 0/1 head matrix -/

/-- Summing a 64-wide row against column `hd` of the head-membership matrix keeps head `hd`'s eight entries. -/
theorem sum_sel (s : Fin 64 → EReal) (hd : Fin 8) :
    ∑ j : Fin 64, s j * (if j.val / 8 = hd.val then (1 : EReal) else 0) = ∑ d : Fin 8, s (Spec.hcol hd d) := by
  simp only [mul_ite, mul_one, mul_zero]
  rw [← Finset.sum_filter]
  symm
  refine Finset.sum_bij (fun d _ => Spec.hcol hd d) ?_ ?_ ?_ ?_
  · intro d _
    rw [Finset.mem_filter]
    refine ⟨Finset.mem_univ _, ?_⟩
    show (8 * hd.val + d.val) / 8 = hd.val
    omega
  · intro d1 _ d2 _ h
    have h' : 8 * hd.val + d1.val = 8 * hd.val + d2.val := congrArg Fin.val h
    exact Fin.ext (by omega)
  · intro j hj
    rw [Finset.mem_filter] at hj
    refine ⟨⟨j.val % 8, Nat.mod_lt _ (by decide)⟩, Finset.mem_univ _, ?_⟩
    apply Fin.ext
    show 8 * hd.val + j.val % 8 = j.val
    have := hj.2
    omega
  · intro d _; rfl

/-- Summing eight head values against column `j` of the transposed matrix keeps the value of `j`'s head. -/
theorem sum_selT (a : Fin 8 → EReal) (j : Fin 64) :
    ∑ hd : Fin 8, a hd * (if j.val / 8 = hd.val then (1 : EReal) else 0) = a (Spec.headOf j) := by
  simp only [mul_ite, mul_one, mul_zero]
  have h : ∀ hd : Fin 8, (j.val / 8 = hd.val) ↔ (Spec.headOf j = hd) := fun hd => by
    rw [Fin.ext_iff]; rfl
  simp only [h, Finset.sum_ite_eq, Finset.mem_univ, if_true]

/-! ## The three payloads read at an entry -/

/-- The named scale is the reciprocal of the score divisor. -/
theorem inv_d : Named.named (F := Ideal) Cert.KernelIdeal.κ "inv_sqrt_d" (φ := .f32) 0x3EB504F3#32 = Spec.invD :=
  IdealRules.named_const.ideal_named_scalar _ _ _ _ rfl

/-- The score payload at row `p`, column `j`: the two gathered rows' product scaled, plus the edge features' row
    against column `j` of the weights, plus the bias. -/
theorem pay1_at (v0 : FVec Ideal S2000x64 .f32) (v2 : FVec Ideal S64x64 .f32) (v5 : FVec Ideal S1x64 .f32)
    (v9 v11 : FVec Ideal S2000x64 .f32) (p : Fin 2000) (j : Fin 64) :
    (k1_pay1 (F := Ideal) v0 v2 v5 v9 v11) (ix2 p j)
      = v9 (ix2 p j) * v11 (ix2 p j) * Spec.invD + ((∑ a : Fin 64, v0 (ix2 p a) * v2 (ix2 a j)) + v5 (ix2 0 j)) := by
  unfold k1_pay1
  rw [shapeCast_self, shapeCast_self, shapeCast_self]
  show (v9 (ix2 p j) * v11 (ix2 p j) * Named.named (F := Ideal) Cert.KernelIdeal.κ "inv_sqrt_d" (φ := .f32) 0x3EB504F3#32)
    + (matmul dot_S2000x64_S64x64_S2000x64_1_0_0_1_n_n none (truncf .bf16 v0 bitsLt_bf16_f32) (truncf .bf16 v2 bitsLt_bf16_f32) (constant (F := Ideal) S2000x64 .f32 0x00000000#32) (ix2 p j)
       + broadcastTo S2000x64 v5 broadcasts_S1x64_S2000x64 (ix2 p j)) = _
  rw [inv_d, Cert.Lib.Dot2.matmul_zero_ix2 dot_S2000x64_S64x64_S2000x64_1_0_0_1_n_n none rfl rfl dotE_l0 dotE_l1 dotE_r0 dotE_r1, broadcastTo_1b_ab_apply]
  rfl

/-- The weight payload at row `p`, head `hd`: the exponential of the score row against column `hd` of the 64 by 8
    matrix, clipped into [-5, 5]. -/
theorem pay2_at (v0 : FVec Ideal S2000x64 .f32) (v2 : FVec Ideal S64x64 .f32) (v5 : FVec Ideal S1x64 .f32)
    (v9 v11 : FVec Ideal S2000x64 .f32) (v18 : FVec Ideal S64x8 .f32) (p : Fin 2000) (hd : Fin 8) :
    (k1_pay2 (F := Ideal) v0 v2 v5 v9 v11 v18) (ix2 p hd)
      = Ideal.exp (min Spec.fpos5 (max Spec.fneg5
          (∑ a : Fin 64, k1_pay1 (F := Ideal) v0 v2 v5 v9 v11 (ix2 p a) * v18 (ix2 a hd)))) := by
  unfold k1_pay2
  show Ideal.exp (min (Ideal.ofBits .f32 0x40A00000#32) (max (Ideal.ofBits .f32 0xC0A00000#32)
      (matmul dot_S2000x64_S64x8_S2000x8_1_0_0_1_n_n (some .fp32) (k1_pay1 (F := Ideal) v0 v2 v5 v9 v11) v18 (constant (F := Ideal) S2000x8 .f32 0x00000000#32) (ix2 p hd)))) = _
  rw [Cert.Lib.Dot2.matmul_zero_ix2 dot_S2000x64_S64x8_S2000x8_1_0_0_1_n_n (some .fp32) rfl rfl dotS_l0 dotS_l1 dotS_r0 dotS_r1]

/-- The message payload at row `p`, column `j`: the gathered value entry times the weight row against column `j` of
    the 8 by 64 matrix. -/
theorem pay3_at (v0 : FVec Ideal S2000x64 .f32) (v2 : FVec Ideal S64x64 .f32) (v5 : FVec Ideal S1x64 .f32)
    (v9 v11 : FVec Ideal S2000x64 .f32) (v18 : FVec Ideal S64x8 .f32) (v25 : FVec Ideal S8x64 .f32)
    (v27 : FVec Ideal S2000x64 .f32) (p : Fin 2000) (j : Fin 64) :
    (k1_pay3 (F := Ideal) v0 v2 v5 v9 v11 v18 v25 v27) (ix2 p j)
      = v27 (ix2 p j) * ∑ a : Fin 8, k1_pay2 (F := Ideal) v0 v2 v5 v9 v11 v18 (ix2 p a) * v25 (ix2 a j) := by
  unfold k1_pay3
  rw [shapeCast_self]
  show v27 (ix2 p j) * matmul dot_S2000x8_S8x64_S2000x64_1_0_0_1_n_n (some .fp32) (k1_pay2 (F := Ideal) v0 v2 v5 v9 v11 v18) v25 (constant (F := Ideal) S2000x64 .f32 0x00000000#32) (ix2 p j) = _
  rw [Cert.Lib.Dot2.matmul_zero_ix2 dot_S2000x8_S8x64_S2000x64_1_0_0_1_n_n (some .fp32) rfl rfl dotT_l0 dotT_l1 dotT_r0 dotT_r1]

variable (V : (c : Dev nD) → (b : Ref sig .tc) → Buf (Elt Ideal) ((c : Thread nD τ).loc b))

/-- The score rows over the arrays the kernel is entered with: gathered key times gathered query, scaled, plus the
    edge features' projection. -/
def scoreV (c : Dev nD) : Fin 800000 → Fin 64 → EReal := fun e j =>
  Spec.cur2 (α := EReal) (A := 800000) (B := 64) (V c main_v14) e j * Spec.cur2 (α := EReal) (A := 800000) (B := 64) (V c main_v21) e j * Spec.invD
    + Spec.proj (Spec.cur2 (V c main_arg2 : (⟨2, ![800000, 64]⟩ : Shape).Idx → EReal)) (Spec.cur2 (V c main_arg9 : (⟨2, ![64, 64]⟩ : Shape).Idx → EReal))
        (fun j => (V c main_v29 : (⟨2, ![1, 64]⟩ : Shape).Idx → EReal) (ix2 0 j)) e j

/-- The head-membership matrix: a one where column `j` of a 64-wide row belongs to head `hd`. -/
def IsSel (c : Dev nD) : Prop :=
  ∀ (j : Fin 64) (hd : Fin 8), (V c main_cst : (⟨2, ![64, 8]⟩ : Shape).Idx → EReal) (ix2 j hd) = if j.val / 8 = hd.val then (1 : EReal) else 0
/-- Its transpose. -/
def IsSelT (c : Dev nD) : Prop :=
  ∀ (hd : Fin 8) (j : Fin 64), (V c main_cst_0 : (⟨2, ![8, 64]⟩ : Shape).Idx → EReal) (ix2 hd j) = if j.val / 8 = hd.val then (1 : EReal) else 0

/-! ## The index maps at each of the 400 points

Windows 0 to 3 and 8 to 10 take row block `t` at point `t`; windows 4 to 7 always take their whole array. -/

theorem hz : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx1_3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
theorem idx1_9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
theorem idx1_10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-! ## The input blocks at a point, at their literal types

Window 0 holds the edge features' rows, 1 the gathered key rows, 2 the gathered query rows, 3 the gathered value
rows, 4 the edge projection's weights, 5 its bias row, 6 the head-membership matrix, 7 its transpose. -/
abbrev featB (c : Dev nD) (t : Fin cfg1.N) : FVec Ideal S2000x64 .f32 := iblk1 (F := Ideal) V c 0 t
abbrev keyB (c : Dev nD) (t : Fin cfg1.N) : FVec Ideal S2000x64 .f32 := iblk1 (F := Ideal) V c 1 t
abbrev qryB (c : Dev nD) (t : Fin cfg1.N) : FVec Ideal S2000x64 .f32 := iblk1 (F := Ideal) V c 2 t
abbrev valB (c : Dev nD) (t : Fin cfg1.N) : FVec Ideal S2000x64 .f32 := iblk1 (F := Ideal) V c 3 t
abbrev wB (c : Dev nD) (t : Fin cfg1.N) : FVec Ideal S64x64 .f32 := iblk1 (F := Ideal) V c 4 t
abbrev biasB (c : Dev nD) (t : Fin cfg1.N) : FVec Ideal S1x64 .f32 := iblk1 (F := Ideal) V c 5 t
abbrev selB (c : Dev nD) (t : Fin cfg1.N) : FVec Ideal S64x8 .f32 := iblk1 (F := Ideal) V c 6 t
abbrev selTB (c : Dev nD) (t : Fin cfg1.N) : FVec Ideal S8x64 .f32 := iblk1 (F := Ideal) V c 7 t

/-! ## The input blocks as entries of their arrays

Row `p` of a row-blocked input's block at point `t` is row `2000 t + p` of its array; a constant window's block is
its whole array at every point. -/

theorem featB_at (c : Dev nD) (t : Fin cfg1.N) (p : Fin 2000) (q : Fin 64) (e : Fin 800000) (he : e.val = 2000 * t.val + p.val) :
    featB V c t (ix2 p q) = (V c main_arg2 : S800000x64.Idx → EReal) (ix2 e q) := by
  obtain ⟨h0, h1⟩ := idx1_0 t
  show (V c main_arg2 : S800000x64.Idx → EReal) (((cfg1.win 0).blk t).view.emb (ix2 p q)) = _
  refine congrArg _ (funext fun a => Fin.ext ?_)
  match a with
  | ⟨0, _⟩ => show win1_0.index t (0 : Fin 2) * 2000 + 1 * p.val = e.val; rw [h0, he]; omega
  | ⟨1, _⟩ => show win1_0.index t (1 : Fin 2) * 64 + 1 * q.val = q.val; rw [h1]; omega

theorem keyB_at (c : Dev nD) (t : Fin cfg1.N) (p : Fin 2000) (q : Fin 64) (e : Fin 800000) (he : e.val = 2000 * t.val + p.val) :
    keyB V c t (ix2 p q) = (V c main_v14 : S800000x64.Idx → EReal) (ix2 e q) := by
  obtain ⟨h0, h1⟩ := idx1_1 t
  show (V c main_v14 : S800000x64.Idx → EReal) (((cfg1.win 1).blk t).view.emb (ix2 p q)) = _
  refine congrArg _ (funext fun a => Fin.ext ?_)
  match a with
  | ⟨0, _⟩ => show win1_1.index t (0 : Fin 2) * 2000 + 1 * p.val = e.val; rw [h0, he]; omega
  | ⟨1, _⟩ => show win1_1.index t (1 : Fin 2) * 64 + 1 * q.val = q.val; rw [h1]; omega

theorem qryB_at (c : Dev nD) (t : Fin cfg1.N) (p : Fin 2000) (q : Fin 64) (e : Fin 800000) (he : e.val = 2000 * t.val + p.val) :
    qryB V c t (ix2 p q) = (V c main_v21 : S800000x64.Idx → EReal) (ix2 e q) := by
  obtain ⟨h0, h1⟩ := idx1_2 t
  show (V c main_v21 : S800000x64.Idx → EReal) (((cfg1.win 2).blk t).view.emb (ix2 p q)) = _
  refine congrArg _ (funext fun a => Fin.ext ?_)
  match a with
  | ⟨0, _⟩ => show win1_2.index t (0 : Fin 2) * 2000 + 1 * p.val = e.val; rw [h0, he]; omega
  | ⟨1, _⟩ => show win1_2.index t (1 : Fin 2) * 64 + 1 * q.val = q.val; rw [h1]; omega

theorem valB_at (c : Dev nD) (t : Fin cfg1.N) (p : Fin 2000) (q : Fin 64) (e : Fin 800000) (he : e.val = 2000 * t.val + p.val) :
    valB V c t (ix2 p q) = (V c main_v28 : S800000x64.Idx → EReal) (ix2 e q) := by
  obtain ⟨h0, h1⟩ := idx1_3 t
  show (V c main_v28 : S800000x64.Idx → EReal) (((cfg1.win 3).blk t).view.emb (ix2 p q)) = _
  refine congrArg _ (funext fun a => Fin.ext ?_)
  match a with
  | ⟨0, _⟩ => show win1_3.index t (0 : Fin 2) * 2000 + 1 * p.val = e.val; rw [h0, he]; omega
  | ⟨1, _⟩ => show win1_3.index t (1 : Fin 2) * 64 + 1 * q.val = q.val; rw [h1]; omega

theorem wB_at (c : Dev nD) (t : Fin cfg1.N) (a : Fin 64) (q : Fin 64) :
    wB V c t (ix2 a q) = (V c main_arg9 : S64x64.Idx → EReal) (ix2 a q) := by
  obtain ⟨h0, h1⟩ := idx1_4 t
  show (V c main_arg9 : S64x64.Idx → EReal) (((cfg1.win 4).blk t).view.emb (ix2 a q)) = _
  refine congrArg _ (funext fun d => Fin.ext ?_)
  match d with
  | ⟨0, _⟩ => show win1_4.index t (0 : Fin 2) * 64 + 1 * a.val = a.val; rw [h0]; omega
  | ⟨1, _⟩ => show win1_4.index t (1 : Fin 2) * 64 + 1 * q.val = q.val; rw [h1]; omega

theorem biasB_at (c : Dev nD) (t : Fin cfg1.N) (a : Fin 1) (q : Fin 64) :
    biasB V c t (ix2 a q) = (V c main_v29 : S1x64.Idx → EReal) (ix2 a q) := by
  obtain ⟨h0, h1⟩ := idx1_5 t
  show (V c main_v29 : S1x64.Idx → EReal) (((cfg1.win 5).blk t).view.emb (ix2 a q)) = _
  refine congrArg _ (funext fun d => Fin.ext ?_)
  match d with
  | ⟨0, _⟩ => show win1_5.index t (0 : Fin 2) * 1 + 1 * a.val = a.val; rw [h0]; omega
  | ⟨1, _⟩ => show win1_5.index t (1 : Fin 2) * 64 + 1 * q.val = q.val; rw [h1]; omega

theorem selB_at (c : Dev nD) (t : Fin cfg1.N) (a : Fin 64) (q : Fin 8) :
    selB V c t (ix2 a q) = (V c main_cst : S64x8.Idx → EReal) (ix2 a q) := by
  obtain ⟨h0, h1⟩ := idx1_6 t
  show (V c main_cst : S64x8.Idx → EReal) (((cfg1.win 6).blk t).view.emb (ix2 a q)) = _
  refine congrArg _ (funext fun d => Fin.ext ?_)
  match d with
  | ⟨0, _⟩ => show win1_6.index t (0 : Fin 2) * 64 + 1 * a.val = a.val; rw [h0]; omega
  | ⟨1, _⟩ => show win1_6.index t (1 : Fin 2) * 8 + 1 * q.val = q.val; rw [h1]; omega

theorem selTB_at (c : Dev nD) (t : Fin cfg1.N) (a : Fin 8) (q : Fin 64) :
    selTB V c t (ix2 a q) = (V c main_cst_0 : S8x64.Idx → EReal) (ix2 a q) := by
  obtain ⟨h0, h1⟩ := idx1_7 t
  show (V c main_cst_0 : S8x64.Idx → EReal) (((cfg1.win 7).blk t).view.emb (ix2 a q)) = _
  refine congrArg _ (funext fun d => Fin.ext ?_)
  match d with
  | ⟨0, _⟩ => show win1_7.index t (0 : Fin 2) * 8 + 1 * a.val = a.val; rw [h0]; omega
  | ⟨1, _⟩ => show win1_7.index t (1 : Fin 2) * 64 + 1 * q.val = q.val; rw [h1]; omega

/-! ## What point `t` computes at row `p`, in terms of the arrays -/

/-- The score payload over the blocks at point `t` is the score row of edge `2000 t + p`. -/
theorem score_blk (c : Dev nD) (t : Fin cfg1.N) (p : Fin 2000) (j : Fin 64) (e : Fin 800000) (he : e.val = 2000 * t.val + p.val) :
    k1_pay1 (F := Ideal) (featB V c t) (wB V c t) (biasB V c t) (keyB V c t) (qryB V c t) (ix2 p j) = scoreV V c e j := by
  refine (pay1_at (featB V c t) (wB V c t) (biasB V c t) (keyB V c t) (qryB V c t) p j).trans ?_
  have hs : (∑ a : Fin 64, featB V c t (ix2 p a) * wB V c t (ix2 a j))
      = ∑ a : Fin 64, Spec.cur2 (α := EReal) (A := 800000) (B := 64) (V c main_arg2) e a * Spec.cur2 (α := EReal) (A := 64) (B := 64) (V c main_arg9) a j :=
    Finset.sum_congr rfl fun a _ => by rw [featB_at V c t p a e he, wB_at V c t a j]; rfl
  rw [keyB_at V c t p j e he, qryB_at V c t p j e he, biasB_at V c t 0 j, hs]
  rfl

/-- The weight payload over the blocks at point `t` is the head weight of edge `2000 t + p`. -/
theorem att_blk (c : Dev nD) (hS : IsSel V c) (t : Fin cfg1.N) (p : Fin 2000) (hd : Fin 8) (e : Fin 800000) (he : e.val = 2000 * t.val + p.val) :
    k1_pay2 (F := Ideal) (featB V c t) (wB V c t) (biasB V c t) (keyB V c t) (qryB V c t) (selB V c t) (ix2 p hd) = Spec.att (scoreV V c) e hd := by
  refine (pay2_at (featB V c t) (wB V c t) (biasB V c t) (keyB V c t) (qryB V c t) (selB V c t) p hd).trans ?_
  have hs : (∑ a : Fin 64, k1_pay1 (F := Ideal) (featB V c t) (wB V c t) (biasB V c t) (keyB V c t) (qryB V c t) (ix2 p a) * selB V c t (ix2 a hd))
      = ∑ d : Fin 8, scoreV V c e (Spec.hcol hd d) :=
    (Finset.sum_congr rfl fun a _ => by rw [score_blk V c t p a e he, selB_at V c t a hd, hS a hd]).trans
      (sum_sel (fun a => scoreV V c e a) hd)
  rw [hs]
  rfl

/-- The message payload over the blocks at point `t` is the message of edge `2000 t + p`. -/
theorem msg_blk (c : Dev nD) (hS : IsSel V c) (hB : IsSelT V c) (t : Fin cfg1.N) (p : Fin 2000) (j : Fin 64) (e : Fin 800000) (he : e.val = 2000 * t.val + p.val) :
    k1_pay3 (F := Ideal) (featB V c t) (wB V c t) (biasB V c t) (keyB V c t) (qryB V c t) (selB V c t) (selTB V c t) (valB V c t) (ix2 p j)
      = Spec.cur2 (α := EReal) (A := 800000) (B := 64) (V c main_v28) e j * Spec.att (scoreV V c) e (Spec.headOf j) := by
  refine (pay3_at (featB V c t) (wB V c t) (biasB V c t) (keyB V c t) (qryB V c t) (selB V c t) (selTB V c t) (valB V c t) p j).trans ?_
  have hs : (∑ a : Fin 8, k1_pay2 (F := Ideal) (featB V c t) (wB V c t) (biasB V c t) (keyB V c t) (qryB V c t) (selB V c t) (ix2 p a) * selTB V c t (ix2 a j))
      = Spec.att (scoreV V c) e (Spec.headOf j) :=
    (Finset.sum_congr rfl fun a _ => by rw [att_blk V c hS t p a e he, selTB_at V c t a j, hB a j]).trans
      (sum_selT (fun hd => Spec.att (scoreV V c) e hd) j)
  rw [hs, valB_at V c t p j e he]
  rfl

/-! ## The three output arrays as functions of their coordinates -/

/-- The score rows, the head weights and the messages, each as one array. -/
def scoreArr (c : Dev nD) : S800000x64.Idx → EReal := fun i =>
  scoreV V c ⟨(i 0).val, (i 0).isLt⟩ ⟨(i 1).val, (i 1).isLt⟩
def attArr (c : Dev nD) : S800000x8.Idx → EReal := fun i =>
  Spec.att (scoreV V c) ⟨(i 0).val, (i 0).isLt⟩ ⟨(i 1).val, (i 1).isLt⟩
def msgArr (c : Dev nD) : S800000x64.Idx → EReal := fun i =>
  Spec.cur2 (α := EReal) (A := 800000) (B := 64) (V c main_v28) ⟨(i 0).val, (i 0).isLt⟩ ⟨(i 1).val, (i 1).isLt⟩
    * Spec.att (scoreV V c) ⟨(i 0).val, (i 0).isLt⟩ (Spec.headOf ⟨(i 1).val, (i 1).isLt⟩)

/-! ## From blocks to arrays

Each output's blocks tile its array by rows: point `t` writes rows `2000 t` to `2000 t + 1999`, and what it writes is
those rows of one function of the coordinates, so the array ends holding that function. -/

/-- What point `t` writes back to window 8's array is block `t` of `scoreArr`. -/
theorem flushed8_eq (c : Dev nD) (t : Fin cfg1.N) :
    (dat1 (F := Ideal) V c).flushed 8 t = ((cfg1.win 8).blk t).view.read (Elt Ideal) (scoreArr V c) := by
  show (cfg1.win 8).cut (grid1.coords t) ((dat1 (F := Ideal) V c).after 8 t) = _
  rw [after1_8]
  unfold out1_8
  rw [View.canon_unit_zero hz]
  simp only [View.ld_unit_zero (S := S2000x64) hz, View.ld_unit_zero (S := S64x64) hz, View.ld_unit_zero (S := S1x64) hz]
  show (k1_pay1 (F := Ideal) (iblk1 (F := Ideal) V c 0 t) (iblk1 (F := Ideal) V c 4 t) (iblk1 (F := Ideal) V c 5 t) (iblk1 (F := Ideal) V c 1 t) (iblk1 (F := Ideal) V c 2 t) : S2000x64.Idx → EReal) = fun y : S2000x64.Idx => scoreArr V c (((cfg1.win 8).blk t).view.emb y)
  funext y
  obtain ⟨p, q, rfl⟩ : ∃ (p : Fin 2000) (q : Fin 64), y = ix2 p q := ⟨y 0, y 1, eq_ix2 y⟩
  obtain ⟨h0, h1⟩ := idx1_8 t
  have ht : t.val < 400 := lt_of_lt_of_eq t.isLt N_1
  refine (score_blk V c t p q ⟨2000 * t.val + p.val, by omega⟩ rfl).trans ?_
  unfold scoreArr
  have e0 : (⟨2000 * t.val + p.val, by omega⟩ : Fin 800000)
      = ⟨((((cfg1.win 8).blk t).view.emb (ix2 p q) : S800000x64.Idx) 0).val, ((((cfg1.win 8).blk t).view.emb (ix2 p q) : S800000x64.Idx) 0).isLt⟩ :=
    Fin.ext (by show 2000 * t.val + p.val = win1_8.index t (0 : Fin 2) * 2000 + 1 * p.val; rw [h0]; omega)
  have e1 : q
      = ⟨((((cfg1.win 8).blk t).view.emb (ix2 p q) : S800000x64.Idx) 1).val, ((((cfg1.win 8).blk t).view.emb (ix2 p q) : S800000x64.Idx) 1).isLt⟩ :=
    Fin.ext (by show q.val = win1_8.index t (1 : Fin 2) * 64 + 1 * q.val; rw [h1]; omega)
  rw [← e0, ← e1]

/-- An index of window 8's array is in point `t`'s block iff each coordinate is in the block's range. -/
theorem mem_blk8 (t : Fin cfg1.N) (i : S800000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v30_0).slice (win1_8.rect t)).set ↔ _
  rw [View.set_slice_whole, Rect.mem_set_unit]
  exact Iff.rfl

/-- Row `r` of window 8's array is in the block of point `r / 2000`. -/
theorem cover8 (i : S800000x64.Idx) : ∃ t : Fin cfg1.N, (cfg1.win 8).flush t = true ∧ i ∈ ((cfg1.win 8).blk t).view.set := by
  have hi0 : (i 0).val < 800000 := (i 0).isLt
  have hi1 : (i 1).val < 64 := (i 1).isLt
  have hN : (i 0).val / 2000 < cfg1.N := lt_of_lt_of_eq (by omega : (i 0).val / 2000 < 400) N_1.symm
  obtain ⟨h0, h1⟩ := idx1_8 ⟨(i 0).val / 2000, hN⟩
  refine ⟨⟨(i 0).val / 2000, hN⟩, flush1_8 _, ?_⟩
  rw [mem_blk8]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [h0]; show (i 0).val / 2000 * 2000 ≤ (i 0).val ∧ (i 0).val < (i 0).val / 2000 * 2000 + 2000; omega
  | ⟨1, _⟩ =>
    show win1_8.index ⟨(i 0).val / 2000, hN⟩ (1 : Fin 2) * 64 ≤ (i 1).val ∧ (i 1).val < win1_8.index ⟨(i 0).val / 2000, hN⟩ (1 : Fin 2) * 64 + 64
    rw [h1]; omega

/-- Window 8's array after the run is `scoreArr`. -/
theorem arr8 (c : Dev nD) : (dat1 (F := Ideal) V c).arrAt 8 cfg1.N = scoreArr V c :=
  (dat1 (F := Ideal) V c).arrAt_eq_of_cover 8 (scoreArr V c) (fun t _ => flushed8_eq V c t) (cover8)

/-- What point `t` writes back to window 10's array is block `t` of `attArr`. -/
theorem flushed10_eq (c : Dev nD) (hS : IsSel V c) (t : Fin cfg1.N) :
    (dat1 (F := Ideal) V c).flushed 10 t = ((cfg1.win 10).blk t).view.read (Elt Ideal) (attArr V c) := by
  show (cfg1.win 10).cut (grid1.coords t) ((dat1 (F := Ideal) V c).after 10 t) = _
  rw [after1_10]
  unfold out1_10
  rw [View.canon_unit_zero hz]
  simp only [View.ld_unit_zero (S := S2000x64) hz, View.ld_unit_zero (S := S64x64) hz, View.ld_unit_zero (S := S1x64) hz, View.ld_unit_zero (S := S64x8) hz]
  show (k1_pay2 (F := Ideal) (iblk1 (F := Ideal) V c 0 t) (iblk1 (F := Ideal) V c 4 t) (iblk1 (F := Ideal) V c 5 t) (iblk1 (F := Ideal) V c 1 t) (iblk1 (F := Ideal) V c 2 t) (iblk1 (F := Ideal) V c 6 t) : S2000x8.Idx → EReal) = fun y : S2000x8.Idx => attArr V c (((cfg1.win 10).blk t).view.emb y)
  funext y
  obtain ⟨p, q, rfl⟩ : ∃ (p : Fin 2000) (q : Fin 8), y = ix2 p q := ⟨y 0, y 1, eq_ix2 y⟩
  obtain ⟨h0, h1⟩ := idx1_10 t
  have ht : t.val < 400 := lt_of_lt_of_eq t.isLt N_1
  refine (att_blk V c hS t p q ⟨2000 * t.val + p.val, by omega⟩ rfl).trans ?_
  unfold attArr
  have e0 : (⟨2000 * t.val + p.val, by omega⟩ : Fin 800000)
      = ⟨((((cfg1.win 10).blk t).view.emb (ix2 p q) : S800000x8.Idx) 0).val, ((((cfg1.win 10).blk t).view.emb (ix2 p q) : S800000x8.Idx) 0).isLt⟩ :=
    Fin.ext (by show 2000 * t.val + p.val = win1_10.index t (0 : Fin 2) * 2000 + 1 * p.val; rw [h0]; omega)
  have e1 : q
      = ⟨((((cfg1.win 10).blk t).view.emb (ix2 p q) : S800000x8.Idx) 1).val, ((((cfg1.win 10).blk t).view.emb (ix2 p q) : S800000x8.Idx) 1).isLt⟩ :=
    Fin.ext (by show q.val = win1_10.index t (1 : Fin 2) * 8 + 1 * q.val; rw [h1]; omega)
  rw [← e0, ← e1]

/-- An index of window 10's array is in point `t`'s block iff each coordinate is in the block's range. -/
theorem mem_blk10 (t : Fin cfg1.N) (i : S800000x8.Idx) :
    i ∈ ((cfg1.win 10).blk t).view.set ↔ ∀ a : Fin 2, win1_10.index t a * S2000x8.size a ≤ (i a).val ∧ (i a).val < win1_10.index t a * S2000x8.size a + S2000x8.size a := by
  show i ∈ ((View.whole main_v30_2).slice (win1_10.rect t)).set ↔ _
  rw [View.set_slice_whole, Rect.mem_set_unit]
  exact Iff.rfl

/-- Row `r` of window 10's array is in the block of point `r / 2000`. -/
theorem cover10 (i : S800000x8.Idx) : ∃ t : Fin cfg1.N, (cfg1.win 10).flush t = true ∧ i ∈ ((cfg1.win 10).blk t).view.set := by
  have hi0 : (i 0).val < 800000 := (i 0).isLt
  have hi1 : (i 1).val < 8 := (i 1).isLt
  have hN : (i 0).val / 2000 < cfg1.N := lt_of_lt_of_eq (by omega : (i 0).val / 2000 < 400) N_1.symm
  obtain ⟨h0, h1⟩ := idx1_10 ⟨(i 0).val / 2000, hN⟩
  refine ⟨⟨(i 0).val / 2000, hN⟩, flush1_10 _, ?_⟩
  rw [mem_blk10]
  intro a
  match a with
  | ⟨0, _⟩ =>
    show win1_10.index ⟨(i 0).val / 2000, hN⟩ (0 : Fin 2) * 2000 ≤ (i 0).val ∧ (i 0).val < win1_10.index ⟨(i 0).val / 2000, hN⟩ (0 : Fin 2) * 2000 + 2000
    rw [h0]; show (i 0).val / 2000 * 2000 ≤ (i 0).val ∧ (i 0).val < (i 0).val / 2000 * 2000 + 2000; omega
  | ⟨1, _⟩ =>
    show win1_10.index ⟨(i 0).val / 2000, hN⟩ (1 : Fin 2) * 8 ≤ (i 1).val ∧ (i 1).val < win1_10.index ⟨(i 0).val / 2000, hN⟩ (1 : Fin 2) * 8 + 8
    rw [h1]; omega

/-- Window 10's array after the run is `attArr`. -/
theorem arr10 (c : Dev nD) (hS : IsSel V c) : (dat1 (F := Ideal) V c).arrAt 10 cfg1.N = attArr V c :=
  (dat1 (F := Ideal) V c).arrAt_eq_of_cover 10 (attArr V c) (fun t _ => flushed10_eq V c hS t) (cover10)

/-- What point `t` writes back to window 9's array is block `t` of `msgArr`. -/
theorem flushed9_eq (c : Dev nD) (hS : IsSel V c) (hB : IsSelT V c) (t : Fin cfg1.N) :
    (dat1 (F := Ideal) V c).flushed 9 t = ((cfg1.win 9).blk t).view.read (Elt Ideal) (msgArr V c) := by
  show (cfg1.win 9).cut (grid1.coords t) ((dat1 (F := Ideal) V c).after 9 t) = _
  rw [after1_9]
  unfold out1_9
  rw [View.canon_unit_zero hz]
  simp only [View.ld_unit_zero (S := S2000x64) hz, View.ld_unit_zero (S := S64x64) hz, View.ld_unit_zero (S := S1x64) hz, View.ld_unit_zero (S := S64x8) hz, View.ld_unit_zero (S := S8x64) hz]
  show (k1_pay3 (F := Ideal) (iblk1 (F := Ideal) V c 0 t) (iblk1 (F := Ideal) V c 4 t) (iblk1 (F := Ideal) V c 5 t) (iblk1 (F := Ideal) V c 1 t) (iblk1 (F := Ideal) V c 2 t) (iblk1 (F := Ideal) V c 6 t) (iblk1 (F := Ideal) V c 7 t) (iblk1 (F := Ideal) V c 3 t) : S2000x64.Idx → EReal) = fun y : S2000x64.Idx => msgArr V c (((cfg1.win 9).blk t).view.emb y)
  funext y
  obtain ⟨p, q, rfl⟩ : ∃ (p : Fin 2000) (q : Fin 64), y = ix2 p q := ⟨y 0, y 1, eq_ix2 y⟩
  obtain ⟨h0, h1⟩ := idx1_9 t
  have ht : t.val < 400 := lt_of_lt_of_eq t.isLt N_1
  refine (msg_blk V c hS hB t p q ⟨2000 * t.val + p.val, by omega⟩ rfl).trans ?_
  unfold msgArr
  have e0 : (⟨2000 * t.val + p.val, by omega⟩ : Fin 800000)
      = ⟨((((cfg1.win 9).blk t).view.emb (ix2 p q) : S800000x64.Idx) 0).val, ((((cfg1.win 9).blk t).view.emb (ix2 p q) : S800000x64.Idx) 0).isLt⟩ :=
    Fin.ext (by show 2000 * t.val + p.val = win1_9.index t (0 : Fin 2) * 2000 + 1 * p.val; rw [h0]; omega)
  have e1 : q
      = ⟨((((cfg1.win 9).blk t).view.emb (ix2 p q) : S800000x64.Idx) 1).val, ((((cfg1.win 9).blk t).view.emb (ix2 p q) : S800000x64.Idx) 1).isLt⟩ :=
    Fin.ext (by show q.val = win1_9.index t (1 : Fin 2) * 64 + 1 * q.val; rw [h1]; omega)
  rw [← e0, ← e1]

/-- An index of window 9's array is in point `t`'s block iff each coordinate is in the block's range. -/
theorem mem_blk9 (t : Fin cfg1.N) (i : S800000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v30_1).slice (win1_9.rect t)).set ↔ _
  rw [View.set_slice_whole, Rect.mem_set_unit]
  exact Iff.rfl

/-- Row `r` of window 9's array is in the block of point `r / 2000`. -/
theorem cover9 (i : S800000x64.Idx) : ∃ t : Fin cfg1.N, (cfg1.win 9).flush t = true ∧ i ∈ ((cfg1.win 9).blk t).view.set := by
  have hi0 : (i 0).val < 800000 := (i 0).isLt
  have hi1 : (i 1).val < 64 := (i 1).isLt
  have hN : (i 0).val / 2000 < cfg1.N := lt_of_lt_of_eq (by omega : (i 0).val / 2000 < 400) N_1.symm
  obtain ⟨h0, h1⟩ := idx1_9 ⟨(i 0).val / 2000, hN⟩
  refine ⟨⟨(i 0).val / 2000, hN⟩, flush1_9 _, ?_⟩
  rw [mem_blk9]
  intro a
  match a with
  | ⟨0, _⟩ =>
    show win1_9.index ⟨(i 0).val / 2000, hN⟩ (0 : Fin 2) * 2000 ≤ (i 0).val ∧ (i 0).val < win1_9.index ⟨(i 0).val / 2000, hN⟩ (0 : Fin 2) * 2000 + 2000
    rw [h0]; show (i 0).val / 2000 * 2000 ≤ (i 0).val ∧ (i 0).val < (i 0).val / 2000 * 2000 + 2000; omega
  | ⟨1, _⟩ =>
    show win1_9.index ⟨(i 0).val / 2000, hN⟩ (1 : Fin 2) * 64 ≤ (i 1).val ∧ (i 1).val < win1_9.index ⟨(i 0).val / 2000, hN⟩ (1 : Fin 2) * 64 + 64
    rw [h1]; omega

/-- Window 9's array after the run is `msgArr`. -/
theorem arr9 (c : Dev nD) (hS : IsSel V c) (hB : IsSelT V c) : (dat1 (F := Ideal) V c).arrAt 9 cfg1.N = msgArr V c :=
  (dat1 (F := Ideal) V c).arrAt_eq_of_cover 9 (msgArr V c) (fun t _ => flushed9_eq V c hS hB t) (cover9)

/-- The first output array holds the score rows. -/
theorem score_at (c : Dev nD) (e : Fin 800000) (j : Fin 64) :
    ((dat1 (F := Ideal) V c).arrAt 8 cfg1.N : (⟨2, ![800000, 64]⟩ : Shape).Idx → EReal) (ix2 e j) = scoreV V c e j :=
  (congrFun (arr8 V c) (ix2 e j)).trans rfl

/-- The third output array holds the head weights. -/
theorem att_at (c : Dev nD) (hS : IsSel V c) (e : Fin 800000) (hd : Fin 8) :
    ((dat1 (F := Ideal) V c).arrAt 10 cfg1.N : (⟨2, ![800000, 8]⟩ : Shape).Idx → EReal) (ix2 e hd) = Spec.att (scoreV V c) e hd :=
  (congrFun (arr10 V c hS) (ix2 e hd)).trans rfl

/-- The second output array holds the messages: the gathered value row scaled by its heads' weights. -/
theorem message_at (c : Dev nD) (hS : IsSel V c) (hB : IsSelT V c) (e : Fin 800000) (j : Fin 64) :
    ((dat1 (F := Ideal) V c).arrAt 9 cfg1.N : (⟨2, ![800000, 64]⟩ : Shape).Idx → EReal) (ix2 e j)
      = Spec.cur2 (α := EReal) (A := 800000) (B := 64) (V c main_v28) e j * Spec.att (scoreV V c) e (Spec.headOf j) :=
  (congrFun (arr9 V c hS hB) (ix2 e j)).trans rfl

end Cert.KernelIdeal.Reg1

end
-- ==== Proof.KReg0.lean ====
/-
  The node projections: what the first kernel leaves in its three output arrays.

  Each grid point takes 2000 rows of the node features and writes, for each of the three weight matrices, those rows
  times the matrix plus the bias row. Row `p` of an output array is therefore row `p` of the features against the
  matrix, plus the bias: the projection of the specification, whatever the buffers held when the kernel was entered.
-/
import proofs.«113673_j42554535969392_1_alg».proof.Proof.Gen.KernelIdeal.Frame
import proofs.«113673_j42554535969392_1_alg».proof.Proof.LibDot2
import proofs.«113673_j42554535969392_1_alg».proof.Proof.Spec
import Idealize.ShloMosaic.Lib.Pipeline.Value
import Idealize.ShloMosaic.Lib.ValueLayout

set_option maxRecDepth 16384

noncomputable section

namespace Cert.KernelIdeal.Reg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The product's dimension numbers, coordinate by coordinate -/

theorem lhs_dot_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_dot_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_dot_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_dot_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One projection's arithmetic on a block: the rows against the matrix into a zero accumulator, plus the bias row
    repeated down the rows. -/
def blockProj (x : Vec Ideal S2000x128 .f32) (w : Vec Ideal S128x64 .f32) (b : Vec Ideal S1x64 .f32) : FVec Ideal S2000x64 .f32 :=
  addf (matmul dot_S2000x128_S128x64_S2000x64_1_0_0_1_n_n none (truncf .bf16 x bitsLt_bf16_f32) (truncf .bf16 w bitsLt_bf16_f32) (constant (F := Ideal) S2000x64 .f32 0x00000000#32))
    (broadcastTo S2000x64 (shapeCast S1x64 b shapeCasts_S1x64_S1x64) broadcasts_S1x64_S2000x64)

theorem pay2_eq (x : Vec Ideal S2000x128 .f32) (w : Vec Ideal S128x64 .f32) (b : Vec Ideal S1x64 .f32) : k0_pay2 x w b = blockProj x w b := rfl
theorem pay3_eq (x : Vec Ideal S2000x128 .f32) (w : Vec Ideal S128x64 .f32) (b : Vec Ideal S1x64 .f32) : k0_pay3 x w b = blockProj x w b := rfl
theorem pay4_eq (x : Vec Ideal S2000x128 .f32) (w : Vec Ideal S128x64 .f32) (b : Vec Ideal S1x64 .f32) : k0_pay4 x w b = blockProj x w b := rfl

/-- The block's arithmetic at row `p`, column `j`: the row against the column, plus the bias at `j`. -/
theorem blockProj_at (x : Vec Ideal S2000x128 .f32) (w : Vec Ideal S128x64 .f32) (b : Vec Ideal S1x64 .f32) (p : Fin 2000) (j : Fin 64) :
    blockProj x w b (ix2 p j) = (∑ a : Fin 128, x (ix2 p a) * w (ix2 a j)) + b (ix2 0 j) := by
  unfold blockProj
  rw [addf_apply]
  congr 1
  · exact Cert.Lib.Dot2.matmul_zero_ix2 dot_S2000x128_S128x64_S2000x64_1_0_0_1_n_n none rfl rfl lhs_dot_0 lhs_dot_1 rhs_dot_0 rhs_dot_1 (truncf .bf16 x bitsLt_bf16_f32) (truncf .bf16 w bitsLt_bf16_f32) p j
  · rw [shapeCast_self]
    exact broadcastTo_1b_ab_apply b broadcasts_S1x64_S2000x64 p j

/-! ## A projection as one array, and a block of it -/

/-- The projection of the node features by one matrix and bias row, as an array over `[50000, 64]`. -/
def projArr (h : S50000x128.Idx → EReal) (W : S128x64.Idx → EReal) (b : S1x64.Idx → EReal) : S50000x64.Idx → EReal :=
  fun i => Spec.proj (Spec.cur2 h) (Spec.cur2 W) (fun j => b (ix2 0 j)) ⟨(i 0).val, (i 0).isLt⟩ ⟨(i 1).val, (i 1).isLt⟩

theorem projArr_ix2 (h : S50000x128.Idx → EReal) (W : S128x64.Idx → EReal) (b : S1x64.Idx → EReal) (p : Fin 50000) (j : Fin 64) :
    projArr h W b (ix2 p j) = Spec.proj (Spec.cur2 h) (Spec.cur2 W) (fun j => b (ix2 0 j)) p j := rfl

/-- The block arithmetic on rows `2000 * n ..` of the features, the whole matrix and the whole bias row, at an entry of
    the block, is the projection array at the entry's place in the whole: row `2000 * n + ` the row inside the block. -/
theorem blockProj_entry (x : Vec Ideal S2000x128 .f32) (w : Vec Ideal S128x64 .f32) (b : Vec Ideal S1x64 .f32)
    (h : S50000x128.Idx → EReal) (W : S128x64.Idx → EReal) (bb : S1x64.Idx → EReal) (n : Nat)
    (hx : ∀ (u : S2000x128.Idx) (k : S50000x128.Idx), (k 0).val = 2000 * n + (u 0).val → (k 1).val = (u 1).val → x u = h k)
    (hw : ∀ u, w u = W u) (hb : ∀ u, b u = bb u)
    (y : S2000x64.Idx) (i : S50000x64.Idx) (hi0 : (i 0).val = 2000 * n + (y 0).val) (hi1 : (i 1).val = (y 1).val) :
    blockProj x w b y = projArr h W bb i := by
  obtain ⟨p, j, rfl⟩ : ∃ (p : Fin 2000) (j : Fin 64), y = ix2 p j := ⟨y 0, y 1, eq_ix2 y⟩
  obtain ⟨r, q, rfl⟩ : ∃ (r : Fin 50000) (q : Fin 64), i = ix2 r q := ⟨i 0, i 1, eq_ix2 i⟩
  have hq : q = j := Fin.ext hi1
  subst hq
  rw [blockProj_at, projArr_ix2]
  unfold Spec.proj Spec.cur2
  rw [hb]
  congr 1
  refine Finset.sum_congr rfl fun a _ => ?_
  rw [hx (ix2 p a) (ix2 r a) hi0 rfl, hw]

/-! ## The blocks the grid points read and write -/

theorem hz : (![0, 0] : Fin 2 → Nat) = fun _ => 0 := funext fun a => by fin_cases a <;> rfl

/-- The printed index maps over the 25 grid points: the features and the three outputs move with the point along the
    rows; the matrices and bias rows stay at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The features' block at point `t` is rows `2000 * t ..` of the features. -/
theorem feat_block (c : Dev nD) (t : Fin cfg0.N) (u : S2000x128.Idx) (k : S50000x128.Idx)
    (hk0 : (k 0).val = 2000 * t.val + (u 0).val) (hk1 : (k 1).val = (u 1).val) :
    (iblk0 V c 0 t : Vec Ideal S2000x128 .f32) u = (V c main_arg1 : S50000x128.Idx → EReal) k := by
  have hi := (idx_facts t).1
  unfold iblk0
  rw [View.read_apply]
  show V c main_arg1 _ = V c main_arg1 _
  congr 1
  funext a
  apply Fin.ext
  match a with
  | ⟨0, _⟩ => show win0_0.index t 0 * 2000 + 1 * (u 0).val = (k 0).val; rw [hi.1, hk0]; omega
  | ⟨1, _⟩ => show win0_0.index t 1 * 128 + 1 * (u 1).val = (k 1).val; rw [hi.2, hk1]; omega

/-- A matrix's or bias row's block at any point is the whole array. -/
theorem whole_block1 (c : Dev nD) (t : Fin cfg0.N) (u : S128x64.Idx) :
    (iblk0 V c 1 t : Vec Ideal S128x64 .f32) u = (V c main_arg3 : S128x64.Idx → EReal) u := by
  have hi := (idx_facts t).2.1
  unfold iblk0
  rw [View.read_apply]
  show V c main_arg3 _ = V c main_arg3 _
  congr 1
  funext a
  apply Fin.ext
  match a with
  | ⟨0, _⟩ => show win0_1.index t 0 * 128 + 1 * (u 0).val = (u 0).val; rw [hi.1]; omega
  | ⟨1, _⟩ => show win0_1.index t 1 * 64 + 1 * (u 1).val = (u 1).val; rw [hi.2]; omega

theorem whole_block2 (c : Dev nD) (t : Fin cfg0.N) (u : S1x64.Idx) :
    (iblk0 V c 2 t : Vec Ideal S1x64 .f32) u = (V c main_v4 : S1x64.Idx → EReal) u := by
  have hi := (idx_facts t).2.2.1
  unfold iblk0
  rw [View.read_apply]
  show V c main_v4 _ = V c main_v4 _
  congr 1
  funext a
  apply Fin.ext
  match a with
  | ⟨0, _⟩ => show win0_2.index t 0 * 1 + 1 * (u 0).val = (u 0).val; rw [hi.1]; omega
  | ⟨1, _⟩ => show win0_2.index t 1 * 64 + 1 * (u 1).val = (u 1).val; rw [hi.2]; omega

theorem whole_block3 (c : Dev nD) (t : Fin cfg0.N) (u : S128x64.Idx) :
    (iblk0 V c 3 t : Vec Ideal S128x64 .f32) u = (V c main_arg5 : S128x64.Idx → EReal) u := by
  have hi := (idx_facts t).2.2.2.1
  unfold iblk0
  rw [View.read_apply]
  show V c main_arg5 _ = V c main_arg5 _
  congr 1
  funext a
  apply Fin.ext
  match a with
  | ⟨0, _⟩ => show win0_3.index t 0 * 128 + 1 * (u 0).val = (u 0).val; rw [hi.1]; omega
  | ⟨1, _⟩ => show win0_3.index t 1 * 64 + 1 * (u 1).val = (u 1).val; rw [hi.2]; omega

theorem whole_block4 (c : Dev nD) (t : Fin cfg0.N) (u : S1x64.Idx) :
    (iblk0 V c 4 t : Vec Ideal S1x64 .f32) u = (V c main_v5 : S1x64.Idx → EReal) u := by
  have hi := (idx_facts t).2.2.2.2.1
  unfold iblk0
  rw [View.read_apply]
  show V c main_v5 _ = V c main_v5 _
  congr 1
  funext a
  apply Fin.ext
  match a with
  | ⟨0, _⟩ => show win0_4.index t 0 * 1 + 1 * (u 0).val = (u 0).val; rw [hi.1]; omega
  | ⟨1, _⟩ => show win0_4.index t 1 * 64 + 1 * (u 1).val = (u 1).val; rw [hi.2]; omega

theorem whole_block5 (c : Dev nD) (t : Fin cfg0.N) (u : S128x64.Idx) :
    (iblk0 V c 5 t : Vec Ideal S128x64 .f32) u = (V c main_arg7 : S128x64.Idx → EReal) u := by
  have hi := (idx_facts t).2.2.2.2.2.1
  unfold iblk0
  rw [View.read_apply]
  show V c main_arg7 _ = V c main_arg7 _
  congr 1
  funext a
  apply Fin.ext
  match a with
  | ⟨0, _⟩ => show win0_5.index t 0 * 128 + 1 * (u 0).val = (u 0).val; rw [hi.1]; omega
  | ⟨1, _⟩ => show win0_5.index t 1 * 64 + 1 * (u 1).val = (u 1).val; rw [hi.2]; omega

theorem whole_block6 (c : Dev nD) (t : Fin cfg0.N) (u : S1x64.Idx) :
    (iblk0 V c 6 t : Vec Ideal S1x64 .f32) u = (V c main_v6 : S1x64.Idx → EReal) u := by
  have hi := (idx_facts t).2.2.2.2.2.2.1
  unfold iblk0
  rw [View.read_apply]
  show V c main_v6 _ = V c main_v6 _
  congr 1
  funext a
  apply Fin.ext
  match a with
  | ⟨0, _⟩ => show win0_6.index t 0 * 1 + 1 * (u 0).val = (u 0).val; rw [hi.1]; omega
  | ⟨1, _⟩ => show win0_6.index t 1 * 64 + 1 * (u 1).val = (u 1).val; rw [hi.2]; omega

/-! ## Output 1: the query array -/

/-- Point `t` writes back block `t` of the projection array by the first matrix and bias. -/
theorem flushed7_eq (c : Dev nD) (t : Fin cfg0.N) :
    (dat0 (F := Ideal) V c).flushed 7 t
      = ((cfg0.win 7).blk t).view.read (Elt Ideal) (projArr (V c main_arg1) (V c main_arg3) (V c main_v4)) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x64) hz, View.ld_unit_zero (S := S1x64) hz]
  rw [pay2_eq]
  have hi := (idx_facts t).2.2.2.2.2.2.2.1
  funext y
  show blockProj (iblk0 V c 0 t) (iblk0 V c 1 t) (iblk0 V c 2 t) y = projArr (V c main_arg1) (V c main_arg3) (V c main_v4) (((cfg0.win 7).blk t).view.emb y)
  refine blockProj_entry (iblk0 V c 0 t) (iblk0 V c 1 t) (iblk0 V c 2 t) (V c main_arg1) (V c main_arg3) (V c main_v4) t.val
    (feat_block V c t) (whole_block1 V c t) (whole_block2 V c t) y (((cfg0.win 7).blk t).view.emb y) ?_ ?_
  · show win0_7.index t 0 * 2000 + 1 * (y 0).val = 2000 * t.val + (y 0).val; rw [hi.1]; omega
  · show win0_7.index t 1 * 64 + 1 * (y 1).val = (y 1).val; rw [hi.2]; omega

/-- An index of the array is in point `t`'s block iff each coordinate is in the block's range on its axis. -/
theorem mem_blk7 (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v7_0).slice (win0_7.rect t)).set ↔ _
  rw [View.set_slice_whole, Rect.mem_set_unit]
  exact Iff.rfl

/-- Row `r` is in the block of point `r / 2000`: the 25 blocks of 2000 rows cover the 50000 rows. -/
theorem cover7 (i : S50000x64.Idx) : ∃ t : Fin cfg0.N, (cfg0.win 7).flush t = true ∧ i ∈ ((cfg0.win 7).blk t).view.set := by
  have h0 : (i 0).val < 50000 := (i 0).isLt
  have h1 : (i 1).val < 64 := (i 1).isLt
  have hN : cfg0.N = 25 := N_0
  let t : Fin cfg0.N := ⟨(i 0).val / 2000, by rw [hN]; omega⟩
  have hi := (idx_facts t).2.2.2.2.2.2.2.1
  refine ⟨t, flush0_7 t, ?_⟩
  rw [mem_blk7]
  intro a
  match a with
  | ⟨0, _⟩ => show win0_7.index t 0 * 2000 ≤ (i 0).val ∧ (i 0).val < win0_7.index t 0 * 2000 + 2000; rw [hi.1]; show (i 0).val / 2000 * 2000 ≤ (i 0).val ∧ (i 0).val < (i 0).val / 2000 * 2000 + 2000; omega
  | ⟨1, _⟩ => show win0_7.index t 1 * 64 ≤ (i 1).val ∧ (i 1).val < win0_7.index t 1 * 64 + 64; rw [hi.2]; omega

/-- The array after the last point is the projection array by the first matrix and bias. -/
theorem final7 (c : Dev nD) :
    (dat0 (F := Ideal) V c).arrAt 7 cfg0.N = projArr (V c main_arg1) (V c main_arg3) (V c main_v4) :=
  (dat0 (F := Ideal) V c).arrAt_eq_of_cover 7 (projArr (V c main_arg1) (V c main_arg3) (V c main_v4))
    (fun t _ => flushed7_eq V c t) cover7

/-- The query array after the kernel: the features' projection by the first matrix and bias. -/
theorem query_at (c : Dev nD) (p : Fin 50000) (j : Fin 64) :
    ((dat0 (F := Ideal) V c).arrAt 7 cfg0.N : (⟨2, ![50000, 64]⟩ : Shape).Idx → EReal) (ix2 p j)
      = Spec.proj (Spec.cur2 (V c main_arg1 : (⟨2, ![50000, 128]⟩ : Shape).Idx → EReal))
          (Spec.cur2 (V c main_arg3 : (⟨2, ![128, 64]⟩ : Shape).Idx → EReal))
          (fun j => (V c main_v4 : (⟨2, ![1, 64]⟩ : Shape).Idx → EReal) (ix2 0 j)) p j := by
  rw [final7]
  rfl

/-! ## Output 2: the key array -/

/-- Point `t` writes back block `t` of the projection array by the second matrix and bias. -/
theorem flushed8_eq (c : Dev nD) (t : Fin cfg0.N) :
    (dat0 (F := Ideal) V c).flushed 8 t
      = ((cfg0.win 8).blk t).view.read (Elt Ideal) (projArr (V c main_arg1) (V c main_arg5) (V c main_v5)) := by
  show (cfg0.win 8).cut (grid0.coords t) ((dat0 V c).after 8 t) = _
  rw [after0_8]
  unfold out0_8
  rw [View.canon_unit_zero hz]
  simp only [View.ld_unit_zero (S := S2000x128) hz, View.ld_unit_zero (S := S128x64) hz, View.ld_unit_zero (S := S1x64) hz]
  rw [pay3_eq]
  have hi := (idx_facts t).2.2.2.2.2.2.2.2.1
  funext y
  show blockProj (iblk0 V c 0 t) (iblk0 V c 3 t) (iblk0 V c 4 t) y = projArr (V c main_arg1) (V c main_arg5) (V c main_v5) (((cfg0.win 8).blk t).view.emb y)
  refine blockProj_entry (iblk0 V c 0 t) (iblk0 V c 3 t) (iblk0 V c 4 t) (V c main_arg1) (V c main_arg5) (V c main_v5) t.val
    (feat_block V c t) (whole_block3 V c t) (whole_block4 V c t) y (((cfg0.win 8).blk t).view.emb y) ?_ ?_
  · show win0_8.index t 0 * 2000 + 1 * (y 0).val = 2000 * t.val + (y 0).val; rw [hi.1]; omega
  · show win0_8.index t 1 * 64 + 1 * (y 1).val = (y 1).val; rw [hi.2]; omega

/-- An index of the array is in point `t`'s block iff each coordinate is in the block's range on its axis. -/
theorem mem_blk8 (t : Fin cfg0.N) (i : S50000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v7_1).slice (win0_8.rect t)).set ↔ _
  rw [View.set_slice_whole, Rect.mem_set_unit]
  exact Iff.rfl

/-- Row `r` is in the block of point `r / 2000`: the 25 blocks of 2000 rows cover the 50000 rows. -/
theorem cover8 (i : S50000x64.Idx) : ∃ t : Fin cfg0.N, (cfg0.win 8).flush t = true ∧ i ∈ ((cfg0.win 8).blk t).view.set := by
  have h0 : (i 0).val < 50000 := (i 0).isLt
  have h1 : (i 1).val < 64 := (i 1).isLt
  have hN : cfg0.N = 25 := N_0
  let t : Fin cfg0.N := ⟨(i 0).val / 2000, by rw [hN]; omega⟩
  have hi := (idx_facts t).2.2.2.2.2.2.2.2.1
  refine ⟨t, flush0_8 t, ?_⟩
  rw [mem_blk8]
  intro a
  match a with
  | ⟨0, _⟩ => show win0_8.index t 0 * 2000 ≤ (i 0).val ∧ (i 0).val < win0_8.index t 0 * 2000 + 2000; rw [hi.1]; show (i 0).val / 2000 * 2000 ≤ (i 0).val ∧ (i 0).val < (i 0).val / 2000 * 2000 + 2000; omega
  | ⟨1, _⟩ => show win0_8.index t 1 * 64 ≤ (i 1).val ∧ (i 1).val < win0_8.index t 1 * 64 + 64; rw [hi.2]; omega

/-- The array after the last point is the projection array by the second matrix and bias. -/
theorem final8 (c : Dev nD) :
    (dat0 (F := Ideal) V c).arrAt 8 cfg0.N = projArr (V c main_arg1) (V c main_arg5) (V c main_v5) :=
  (dat0 (F := Ideal) V c).arrAt_eq_of_cover 8 (projArr (V c main_arg1) (V c main_arg5) (V c main_v5))
    (fun t _ => flushed8_eq V c t) cover8

/-- The key array after the kernel: the projection by the second matrix and bias. -/
theorem key_at (c : Dev nD) (p : Fin 50000) (j : Fin 64) :
    ((dat0 (F := Ideal) V c).arrAt 8 cfg0.N : (⟨2, ![50000, 64]⟩ : Shape).Idx → EReal) (ix2 p j)
      = Spec.proj (Spec.cur2 (V c main_arg1 : (⟨2, ![50000, 128]⟩ : Shape).Idx → EReal))
          (Spec.cur2 (V c main_arg5 : (⟨2, ![128, 64]⟩ : Shape).Idx → EReal))
          (fun j => (V c main_v5 : (⟨2, ![1, 64]⟩ : Shape).Idx → EReal) (ix2 0 j)) p j := by
  rw [final8]
  rfl

/-! ## Output 3: the value array -/

/-- Point `t` writes back block `t` of the projection array by the third matrix and bias. -/
theorem flushed9_eq (c : Dev nD) (t : Fin cfg0.N) :
    (dat0 (F := Ideal) V c).flushed 9 t
      = ((cfg0.win 9).blk t).view.read (Elt Ideal) (projArr (V c main_arg1) (V c main_arg7) (V c main_v6)) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x64) hz, View.ld_unit_zero (S := S1x64) hz]
  rw [pay4_eq]
  have hi := (idx_facts t).2.2.2.2.2.2.2.2.2
  funext y
  show blockProj (iblk0 V c 0 t) (iblk0 V c 5 t) (iblk0 V c 6 t) y = projArr (V c main_arg1) (V c main_arg7) (V c main_v6) (((cfg0.win 9).blk t).view.emb y)
  refine blockProj_entry (iblk0 V c 0 t) (iblk0 V c 5 t) (iblk0 V c 6 t) (V c main_arg1) (V c main_arg7) (V c main_v6) t.val
    (feat_block V c t) (whole_block5 V c t) (whole_block6 V c t) y (((cfg0.win 9).blk t).view.emb y) ?_ ?_
  · show win0_9.index t 0 * 2000 + 1 * (y 0).val = 2000 * t.val + (y 0).val; rw [hi.1]; omega
  · show win0_9.index t 1 * 64 + 1 * (y 1).val = (y 1).val; rw [hi.2]; omega

/-- An index of the array is in point `t`'s block iff each coordinate is in the block's range on its axis. -/
theorem mem_blk9 (t : Fin cfg0.N) (i : S50000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v7_2).slice (win0_9.rect t)).set ↔ _
  rw [View.set_slice_whole, Rect.mem_set_unit]
  exact Iff.rfl

/-- Row `r` is in the block of point `r / 2000`: the 25 blocks of 2000 rows cover the 50000 rows. -/
theorem cover9 (i : S50000x64.Idx) : ∃ t : Fin cfg0.N, (cfg0.win 9).flush t = true ∧ i ∈ ((cfg0.win 9).blk t).view.set := by
  have h0 : (i 0).val < 50000 := (i 0).isLt
  have h1 : (i 1).val < 64 := (i 1).isLt
  have hN : cfg0.N = 25 := N_0
  let t : Fin cfg0.N := ⟨(i 0).val / 2000, by rw [hN]; omega⟩
  have hi := (idx_facts t).2.2.2.2.2.2.2.2.2
  refine ⟨t, flush0_9 t, ?_⟩
  rw [mem_blk9]
  intro a
  match a with
  | ⟨0, _⟩ => show win0_9.index t 0 * 2000 ≤ (i 0).val ∧ (i 0).val < win0_9.index t 0 * 2000 + 2000; rw [hi.1]; show (i 0).val / 2000 * 2000 ≤ (i 0).val ∧ (i 0).val < (i 0).val / 2000 * 2000 + 2000; omega
  | ⟨1, _⟩ => show win0_9.index t 1 * 64 ≤ (i 1).val ∧ (i 1).val < win0_9.index t 1 * 64 + 64; rw [hi.2]; omega

/-- The array after the last point is the projection array by the third matrix and bias. -/
theorem final9 (c : Dev nD) :
    (dat0 (F := Ideal) V c).arrAt 9 cfg0.N = projArr (V c main_arg1) (V c main_arg7) (V c main_v6) :=
  (dat0 (F := Ideal) V c).arrAt_eq_of_cover 9 (projArr (V c main_arg1) (V c main_arg7) (V c main_v6))
    (fun t _ => flushed9_eq V c t) cover9

/-- The value array after the kernel: the projection by the third matrix and bias. -/
theorem value_at (c : Dev nD) (p : Fin 50000) (j : Fin 64) :
    ((dat0 (F := Ideal) V c).arrAt 9 cfg0.N : (⟨2, ![50000, 64]⟩ : Shape).Idx → EReal) (ix2 p j)
      = Spec.proj (Spec.cur2 (V c main_arg1 : (⟨2, ![50000, 128]⟩ : Shape).Idx → EReal))
          (Spec.cur2 (V c main_arg7 : (⟨2, ![128, 64]⟩ : Shape).Idx → EReal))
          (fun j => (V c main_v6 : (⟨2, ![1, 64]⟩ : Shape).Idx → EReal) (ix2 0 j)) p j := by
  rw [final9]
  rfl

end Cert.KernelIdeal.Reg0

end
-- ==== Proof.LibRowGather.lean ====
/-
  A host gather of whole rows, read at an entry.

  The operand is a table of `N` rows (each a row of `C` entries, or an `A` by `B` block); the start indices are an
  `[E, 1]` array of words, one per result row; the dimension numbers collapse the row axis and keep the others as
  offsets. Result row `e` is then the table's row named by word `e` (read signed and clamped into the table), entry
  for entry. The dimension numbers enter through their seven fields, which a caller states by `rfl` for its record.
-/
import proofs.«113673_j42554535969392_1_alg».proof.Proof.LibRowIdx
import Idealize.ShloMosaic.Lib.ValueIdx

namespace Cert.Lib.Row

open Idealize.ShloMosaic Idealize.ShloMosaic.ValueIdx

/-- Rows of `C` entries. -/
theorem gather_row2 {α : Type} {N E C : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ 32) (e : Fin E) (j : Fin C) :
    Host.gather d x idx (ix2 e j) = x (ix2 (rowOf N hN (idx (ix2 e 0))) j) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, h0⟩ =>
    -- the collapsed row axis: no batching and no offset there, only the clamped start word
    show GatherDims.start _ (ix2 e j) idx ⟨0, h0⟩ + GatherDims.batchCoord _ (ix2 e j) ⟨0, h0⟩
        + GatherDims.offCoord _ (ix2 e j) ⟨0, h0⟩ = min (idx (ix2 e 0)).toInt.toNat (N - 1)
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    have hm : (⟨0, h0⟩ : Fin (⟨2, ![N, C]⟩ : Shape).rank) ∈ ([0] : List (Fin (⟨2, ![N, C]⟩ : Shape).rank)) :=
      List.mem_singleton.mpr rfl
    rw [dif_pos hm]
    -- the start word is read at `[e, 0]`: the result's row coordinate, and component 0 on the index vector's axis
    refine congrArg (fun v => min (idx v).toInt.toNat (N - 1)) ?_
    funext b
    refine Fin.ext ?_
    match b with
    | ⟨0, _⟩ => rfl
    | ⟨1, _⟩ => rfl
  | ⟨1, h1⟩ =>
    -- the entry axis: not in the start index map, not batching; the offset is the result's entry coordinate
    show GatherDims.start _ (ix2 e j) idx ⟨1, h1⟩ + GatherDims.batchCoord _ (ix2 e j) ⟨1, h1⟩
        + GatherDims.offCoord _ (ix2 e j) ⟨1, h1⟩ = j.val
    rw [GatherDims.batchCoord_eq_zero _ _ _ List.not_mem_nil]
    unfold GatherDims.start
    have hnm : ¬ (⟨1, h1⟩ : Fin (⟨2, ![N, C]⟩ : Shape).rank) ∈ ([0] : List (Fin (⟨2, ![N, C]⟩ : Shape).rank)) :=
      fun h => absurd (congrArg Fin.val (List.mem_singleton.mp h)) Nat.one_ne_zero
    rw [dif_neg hnm]
    simp only [Nat.add_zero, Nat.zero_add]
    rfl

/-- Rows that are `A` by `B` blocks. -/
theorem gather_row3 {α : Type} {N E A B : Nat} (hN : 0 < N)
    (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![E, 1]⟩ 32) (e : Fin E) (a : Fin A) (b : Fin B) :
    Host.gather d x idx (ix3 e a b) = x (ix3 (rowOf N hN (idx (ix2 e 0))) a b) := by
  obtain ⟨od, cs, ob, sb, sim, ivd, ss, wf⟩ := d
  simp only at h1 h2 h3 h4 h5 h6 h7
  subst h1 h2 h3 h4 h5 h6 h7
  unfold Host.gather
  congr 1
  funext c
  refine Fin.ext ?_
  match c with
  | ⟨0, h0⟩ =>
    -- the collapsed row axis: no batching and no offset there, only the clamped start word
    show GatherDims.start _ (ix3 e a b) idx ⟨0, h0⟩ + GatherDims.batchCoord _ (ix3 e a b) ⟨0, h0⟩
        + GatherDims.offCoord _ (ix3 e a b) ⟨0, h0⟩ = min (idx (ix2 e 0)).toInt.toNat (N - 1)
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    have hm : (⟨0, h0⟩ : Fin (⟨3, ![N, A, B]⟩ : Shape).rank) ∈ ([0] : List (Fin (⟨3, ![N, A, B]⟩ : Shape).rank)) :=
      List.mem_singleton.mpr rfl
    rw [dif_pos hm]
    -- the start word is read at `[e, 0]`: the result's row coordinate, and component 0 on the index vector's axis
    refine congrArg (fun v => min (idx v).toInt.toNat (N - 1)) ?_
    funext q
    refine Fin.ext ?_
    match q with
    | ⟨0, _⟩ => rfl
    | ⟨1, _⟩ => rfl
  | ⟨1, h1⟩ =>
    -- the block's first axis: not in the start index map, not batching; the offset is the result's second coordinate
    show GatherDims.start _ (ix3 e a b) idx ⟨1, h1⟩ + GatherDims.batchCoord _ (ix3 e a b) ⟨1, h1⟩
        + GatherDims.offCoord _ (ix3 e a b) ⟨1, h1⟩ = a.val
    rw [GatherDims.batchCoord_eq_zero _ _ _ List.not_mem_nil]
    unfold GatherDims.start
    have hnm : ¬ (⟨1, h1⟩ : Fin (⟨3, ![N, A, B]⟩ : Shape).rank) ∈ ([0] : List (Fin (⟨3, ![N, A, B]⟩ : Shape).rank)) :=
      fun h => absurd (congrArg Fin.val (List.mem_singleton.mp h)) Nat.one_ne_zero
    rw [dif_neg hnm]
    simp only [Nat.add_zero, Nat.zero_add]
    rfl
  | ⟨2, h2⟩ =>
    -- the block's second axis, likewise: the offset is the result's third coordinate
    show GatherDims.start _ (ix3 e a b) idx ⟨2, h2⟩ + GatherDims.batchCoord _ (ix3 e a b) ⟨2, h2⟩
        + GatherDims.offCoord _ (ix3 e a b) ⟨2, h2⟩ = b.val
    rw [GatherDims.batchCoord_eq_zero _ _ _ List.not_mem_nil]
    unfold GatherDims.start
    have hnm : ¬ (⟨2, h2⟩ : Fin (⟨3, ![N, A, B]⟩ : Shape).rank) ∈ ([0] : List (Fin (⟨3, ![N, A, B]⟩ : Shape).rank)) :=
      fun h => absurd (congrArg Fin.val (List.mem_singleton.mp h)) (show (2 : Nat) ≠ 0 by decide)
    rw [dif_neg hnm]
    simp only [Nat.add_zero, Nat.zero_add]
    rfl

end Cert.Lib.Row
-- ==== Proof.KHost0.lean ====
/-
  What the attention kernel is entered with, as functions of the program's inputs.

  Before the first kernel the host only regroups: it cuts the edge list into its source and destination rows and
  lays each bias out as a one-row matrix, and it writes the two 0/1 head matrices. The first kernel leaves the three
  node projections. Between the kernels the host wraps negative index words once by the table length and gathers the
  key and value rows by source and the query rows by destination. So at the attention kernel's entry the three
  gathered arrays hold the projections' rows named by the index words, the edge features and their weights are the
  inputs untouched, and the head matrices hold a one exactly where a column belongs to a head.
-/
import proofs.«113673_j42554535969392_1_alg».proof.Proof.Gen.KernelIdeal.Frame
import proofs.«113673_j42554535969392_1_alg».proof.Proof.KReg0
import proofs.«113673_j42554535969392_1_alg».proof.Proof.KReg1
import proofs.«113673_j42554535969392_1_alg».proof.Proof.LibRowGather
import proofs.«113673_j42554535969392_1_alg».proof.Proof.Spec
import Idealize.ShloMosaic.Lib.ValueLayout

set_option maxRecDepth 16384

noncomputable section

namespace Cert.KernelIdeal.Host0

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.Row

/-- The source words and the destination words of the edge list, one per edge. -/
def srcW (a0 : (⟨S2x800000, .i32⟩ : BufTy).Contents (Elt Ideal)) : (⟨S800000, .i32⟩ : BufTy).Contents (Elt Ideal) :=
  shapeCast _ (extractStridedSlice S1x800000 ![0, 0] a0 slices_S2x800000_S1x800000_0_0) shapeCasts_S1x800000_S800000
def dstW (a0 : (⟨S2x800000, .i32⟩ : BufTy).Contents (Elt Ideal)) : (⟨S800000, .i32⟩ : BufTy).Contents (Elt Ideal) :=
  shapeCast _ (extractStridedSlice S1x800000 ![1, 0] a0 slices_S2x800000_S1x800000_1_0) shapeCasts_S1x800000_S800000
/-- A word per edge, a negative word wrapped once by the table length, laid out as a column: what a gather is given. -/
def wrapCol (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A word per edge laid out as a column, unchanged: what a scatter is given. -/
def rawCol (v : (⟨S800000, .i32⟩ : BufTy).Contents (Elt Ideal)) : (⟨S800000x1, .i32⟩ : BufTy).Contents (Elt Ideal) :=
  broadcastInDim S800000x1 ![0] bcast_S800000_S800000x1_0 v

variable (m : (ℓ : Loc nD τ sig) → Buf (Elt Ideal) ℓ) (ρ : Dev nD → PrngReg)

/-- The gather words by source and by destination, and the scatter words by source, as functions of the edge. -/
abbrev gsK (c : Dev nD) : Fin 800000 → BitVec 32 := Spec.col0 (wrapCol (srcW (m ((c : Thread nD τ).loc main_arg0))))
abbrev gdK (c : Dev nD) : Fin 800000 → BitVec 32 := Spec.col0 (wrapCol (dstW (m ((c : Thread nD τ).loc main_arg0))))
abbrev ssK (c : Dev nD) : Fin 800000 → BitVec 32 := Spec.col0 (rawCol (srcW (m ((c : Thread nD τ).loc main_arg0))))

/-! ## What each stretch keeps and writes -/

/-- A stretch of host operations keeps a buffer none of them writes. -/
local macro "host_keeps" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.reshape_writes, Finset.mem_singleton]
  repeat' apply And.intro
  all_goals exact StableHlo.devRef_ne_of_ne (by decide)))

/-- The source and destination words as the first stretch writes them. -/
theorem W1_v1 (c : Dev nD) : (W1 m ρ c (Proc.devRef .tc main_v1) : (⟨S800000, .i32⟩ : BufTy).Contents (Elt Ideal)) = srcW (m ((c : Thread nD τ).loc main_arg0)) := by
  show StableHlo.after hostOps0 (W0 m ρ c) (Proc.devRef .tc main_v1) = _
  after_results
  rfl
theorem W1_v3 (c : Dev nD) : (W1 m ρ c (Proc.devRef .tc main_v3) : (⟨S800000, .i32⟩ : BufTy).Contents (Elt Ideal)) = dstW (m ((c : Thread nD τ).loc main_arg0)) := by
  show StableHlo.after hostOps0 (W0 m ρ c) (Proc.devRef .tc main_v3) = _
  after_results
  rfl
theorem W2_v1 (c : Dev nD) : (W2 m ρ c (Proc.devRef .tc main_v1) : (⟨S800000, .i32⟩ : BufTy).Contents (Elt Ideal)) = srcW (m ((c : Thread nD τ).loc main_arg0)) :=
  (W2_of_ne m ρ c main_v1 (by decide)).trans (W1_v1 m ρ c)
theorem W2_v3 (c : Dev nD) : (W2 m ρ c (Proc.devRef .tc main_v3) : (⟨S800000, .i32⟩ : BufTy).Contents (Elt Ideal)) = dstW (m ((c : Thread nD τ).loc main_arg0)) :=
  (W2_of_ne m ρ c main_v3 (by decide)).trans (W1_v3 m ρ c)

/-- The inputs the first kernel reads are, at its entry, the program's inputs. -/
theorem V1_arg1 (c : Dev nD) : V1 m ρ c main_arg1 = m ((c : Thread nD τ).loc main_arg1) := by
  show StableHlo.after hostOps0 (W0 m ρ c) (Proc.devRef .tc main_arg1) = W0 m ρ c (Proc.devRef .tc main_arg1)
  host_keeps hostOps0
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  host_keeps hostOps0
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  host_keeps hostOps0
theorem V1_arg7 (c : Dev nD) : V1 m ρ c main_arg7 = m ((c : Thread nD τ).loc main_arg7) := by
  show StableHlo.after hostOps0 (W0 m ρ c) (Proc.devRef .tc main_arg7) = W0 m ρ c (Proc.devRef .tc main_arg7)
  host_keeps hostOps0

/-- A bias laid out as a one-row matrix reads, at column `j` of its row, the bias at `j`. -/
theorem V1_v4 (c : Dev nD) (j : Fin 64) :
    (V1 m ρ c main_v4 : (⟨2, ![1, 64]⟩ : Shape).Idx → EReal) (ix2 0 j) = Spec.cur1 (m ((c : Thread nD τ).loc main_arg4)) j := by
  have e : (W1 m ρ c (Proc.devRef .tc main_v4) : (⟨S1x64, .f32⟩ : BufTy).Contents (Elt Ideal))
      = shapeCast _ (W0 m ρ c (Proc.devRef .tc main_arg4)) shapeCasts_S64_S1x64 := by
    show StableHlo.after hostOps0 (W0 m ρ c) (Proc.devRef .tc main_v4) = _
    after_results
    rfl
  show (W1 m ρ c (Proc.devRef .tc main_v4) : (⟨2, ![1, 64]⟩ : Shape).Idx → EReal) (ix2 0 j) = _
  rw [e]
  exact shapeCast_a_1a_apply _ _ 0 j

theorem V1_v5 (c : Dev nD) (j : Fin 64) :
    (V1 m ρ c main_v5 : (⟨2, ![1, 64]⟩ : Shape).Idx → EReal) (ix2 0 j) = Spec.cur1 (m ((c : Thread nD τ).loc main_arg6)) j := by
  have e : (W1 m ρ c (Proc.devRef .tc main_v5) : (⟨S1x64, .f32⟩ : BufTy).Contents (Elt Ideal))
      = shapeCast _ (W0 m ρ c (Proc.devRef .tc main_arg6)) shapeCasts_S64_S1x64 := by
    show StableHlo.after hostOps0 (W0 m ρ c) (Proc.devRef .tc main_v5) = _
    after_results
    rfl
  show (W1 m ρ c (Proc.devRef .tc main_v5) : (⟨2, ![1, 64]⟩ : Shape).Idx → EReal) (ix2 0 j) = _
  rw [e]
  exact shapeCast_a_1a_apply _ _ 0 j
theorem V1_v6 (c : Dev nD) (j : Fin 64) :
    (V1 m ρ c main_v6 : (⟨2, ![1, 64]⟩ : Shape).Idx → EReal) (ix2 0 j) = Spec.cur1 (m ((c : Thread nD τ).loc main_arg8)) j := by
  have e : (W1 m ρ c (Proc.devRef .tc main_v6) : (⟨S1x64, .f32⟩ : BufTy).Contents (Elt Ideal))
      = shapeCast _ (W0 m ρ c (Proc.devRef .tc main_arg8)) shapeCasts_S64_S1x64 := by
    show StableHlo.after hostOps0 (W0 m ρ c) (Proc.devRef .tc main_v6) = _
    after_results
    rfl
  show (W1 m ρ c (Proc.devRef .tc main_v6) : (⟨2, ![1, 64]⟩ : Shape).Idx → EReal) (ix2 0 j) = _
  rw [e]
  exact shapeCast_a_1a_apply _ _ 0 j

/-! ## The gathers -/

/-- What the second stretch leaves in the three gathered arrays: a gather of one of the first kernel's tables by the
    wrapped words. -/
theorem W3_v14 (c : Dev nD) : (W3 m ρ c (Proc.devRef .tc main_v14) : (⟨S800000x64, .f32⟩ : BufTy).Contents (Elt Ideal))
    = Host.gather gather_S50000x64_S800000x1_S800000x64_1_0_n_n_0_1_164 (W2 m ρ c (Proc.devRef .tc main_v7_1))
        (wrapCol (W2 m ρ c (Proc.devRef .tc main_v1))) := by
  show StableHlo.after hostOps1 (W2 m ρ c) (Proc.devRef .tc main_v14) = _
  after_results
  rfl
theorem W3_v21 (c : Dev nD) : (W3 m ρ c (Proc.devRef .tc main_v21) : (⟨S800000x64, .f32⟩ : BufTy).Contents (Elt Ideal))
    = Host.gather gather_S50000x64_S800000x1_S800000x64_1_0_n_n_0_1_164 (W2 m ρ c (Proc.devRef .tc main_v7_0))
        (wrapCol (W2 m ρ c (Proc.devRef .tc main_v3))) := by
  show StableHlo.after hostOps1 (W2 m ρ c) (Proc.devRef .tc main_v21) = _
  after_results_simp
  rfl
theorem W3_v28 (c : Dev nD) : (W3 m ρ c (Proc.devRef .tc main_v28) : (⟨S800000x64, .f32⟩ : BufTy).Contents (Elt Ideal))
    = Host.gather gather_S50000x64_S800000x1_S800000x64_1_0_n_n_0_1_164 (W2 m ρ c (Proc.devRef .tc main_v7_2))
        (wrapCol (W2 m ρ c (Proc.devRef .tc main_v1))) := by
  show StableHlo.after hostOps1 (W2 m ρ c) (Proc.devRef .tc main_v28) = _
  after_results_simp
  rfl

/-- The first kernel's three tables at its exit are what its pipeline leaves. -/
theorem W2_query (c : Dev nD) : W2 m ρ c (Proc.devRef .tc main_v7_0) = (dat0 (V1 m ρ) c).arrAt 7 cfg0.N := W2_arr m ρ c 7
theorem W2_key (c : Dev nD) : W2 m ρ c (Proc.devRef .tc main_v7_1) = (dat0 (V1 m ρ) c).arrAt 8 cfg0.N := W2_arr m ρ c 8
theorem W2_value (c : Dev nD) : W2 m ρ c (Proc.devRef .tc main_v7_2) = (dat0 (V1 m ρ) c).arrAt 9 cfg0.N := W2_arr m ρ c 9

/-! ## The two head matrices -/

/-- The two tables of words: a one's word exactly where the column belongs to the head. -/
theorem lit0_eq : ∀ i : Fin 512, lit0 i = if (i.val / 8) / 8 = i.val % 8 then 0x3F800000#32 else 0x00000000#32 := by
  decide +kernel
theorem lit1_eq : ∀ i : Fin 512, lit1 i = if (i.val % 64) / 8 = i.val / 64 then 0x3F800000#32 else 0x00000000#32 := by
  decide +kernel

/-- The word of one. -/
theorem ofBits_one_f32 : Ideal.ofBits .f32 0x3F800000#32 = 1 := by
  simp [Ideal.ofBits, Ideal.ieee, -EReal.coe_mul]; norm_num

/-- The first table at row-major position `8 * a + b`, the second at `64 * a + b`, as extended reals. -/
theorem lit0_at (w : Fin 512) (a b : Nat) (hb : b < 8) (h : w.val = a * 8 + b) :
    Ideal.ofBits .f32 (lit0 w) = if a / 8 = b then (1 : EReal) else 0 := by
  rw [lit0_eq, h]
  have h1 : (a * 8 + b) / 8 = a := by omega
  have h2 : (a * 8 + b) % 8 = b := by omega
  rw [h1, h2]
  by_cases hh : a / 8 = b
  · rw [if_pos hh, if_pos hh, ofBits_one_f32]
  · rw [if_neg hh, if_neg hh, Ideal.ofBits_zero_f32]
theorem lit1_at (w : Fin 512) (a b : Nat) (hb : b < 64) (h : w.val = a * 64 + b) :
    Ideal.ofBits .f32 (lit1 w) = if b / 8 = a then (1 : EReal) else 0 := by
  rw [lit1_eq, h]
  have h1 : (a * 64 + b) % 64 = b := by omega
  have h2 : (a * 64 + b) / 64 = a := by omega
  rw [h1, h2]
  by_cases hh : b / 8 = a
  · rw [if_pos hh, if_pos hh, ofBits_one_f32]
  · rw [if_neg hh, if_neg hh, Ideal.ofBits_zero_f32]

/-- The two head matrices at the attention kernel's entry are as the first stretch writes them. -/
theorem W3_cst (c : Dev nD) : (W3 m ρ c (Proc.devRef .tc main_cst) : (⟨S64x8, .f32⟩ : BufTy).Contents (Elt Ideal))
    = fun i => Ideal.ofBits .f32 (lit0 (S64x8.rowMajor i)) :=
  calc W3 m ρ c (Proc.devRef .tc main_cst)
    _ = W2 m ρ c (Proc.devRef .tc main_cst) := by host_keeps hostOps1
    _ = W1 m ρ c (Proc.devRef .tc main_cst) := W2_of_ne m ρ c main_cst (by decide)
    _ = fun i => Ideal.ofBits .f32 (lit0 (S64x8.rowMajor i)) := by
          show StableHlo.after hostOps0 (W0 m ρ c) (Proc.devRef .tc main_cst) = _
          after_results <;> rfl
theorem W3_cst_0 (c : Dev nD) : (W3 m ρ c (Proc.devRef .tc main_cst_0) : (⟨S8x64, .f32⟩ : BufTy).Contents (Elt Ideal))
    = fun i => Ideal.ofBits .f32 (lit1 (S8x64.rowMajor i)) :=
  calc W3 m ρ c (Proc.devRef .tc main_cst_0)
    _ = W2 m ρ c (Proc.devRef .tc main_cst_0) := by host_keeps hostOps1
    _ = W1 m ρ c (Proc.devRef .tc main_cst_0) := W2_of_ne m ρ c main_cst_0 (by decide)
    _ = fun i => Ideal.ofBits .f32 (lit1 (S8x64.rowMajor i)) := by
          show StableHlo.after hostOps0 (W0 m ρ c) (Proc.devRef .tc main_cst_0) = _
          after_results <;> rfl

/-! ## What the attention kernel is entered with -/

/-- The source words survive to the attention kernel's entry. -/
theorem src_eq (c : Dev nD) : (W3 m ρ c (Proc.devRef .tc main_v1) : (⟨S800000, .i32⟩ : BufTy).Contents (Elt Ideal)) = srcW (m ((c : Thread nD τ).loc main_arg0)) :=
  calc W3 m ρ c (Proc.devRef .tc main_v1)
    _ = W2 m ρ c (Proc.devRef .tc main_v1) := by host_keeps hostOps1
    _ = srcW (m ((c : Thread nD τ).loc main_arg0)) := W2_v1 m ρ c

/-- The gathered key rows: the key projection's row named by the edge's source word. -/
theorem keyG_at (c : Dev nD) (e : Fin 800000) (j : Fin 64) :
    (V3 m ρ c main_v14 : (⟨2, ![800000, 64]⟩ : Shape).Idx → EReal) (ix2 e j)
      = Spec.proj (Spec.cur2 (m ((c : Thread nD τ).loc main_arg1))) (Spec.cur2 (m ((c : Thread nD τ).loc main_arg5))) (Spec.cur1 (m ((c : Thread nD τ).loc main_arg6))) (rowOf 50000 (by decide) (gsK m c e)) j := by
  show (W3 m ρ c (Proc.devRef .tc main_v14) : (⟨2, ![800000, 64]⟩ : Shape).Idx → EReal) (ix2 e j) = _
  rw [W3_v14, W2_v1, W2_key]
  refine (gather_row2 (by decide) gather_S50000x64_S800000x1_S800000x64_1_0_n_n_0_1_164 rfl rfl rfl rfl rfl rfl rfl _ _ e j).trans ?_
  refine (Reg0.key_at (V1 m ρ) c _ j).trans ?_
  rw [V1_arg1, V1_arg5, show (fun j => (V1 m ρ c main_v5 : (⟨2, ![1, 64]⟩ : Shape).Idx → EReal) (ix2 0 j)) = Spec.cur1 (m ((c : Thread nD τ).loc main_arg6)) from funext (V1_v5 m ρ c)]
  rfl

/-- The gathered query rows: the query projection's row named by the edge's destination word. -/
theorem queryG_at (c : Dev nD) (e : Fin 800000) (j : Fin 64) :
    (V3 m ρ c main_v21 : (⟨2, ![800000, 64]⟩ : Shape).Idx → EReal) (ix2 e j)
      = Spec.proj (Spec.cur2 (m ((c : Thread nD τ).loc main_arg1))) (Spec.cur2 (m ((c : Thread nD τ).loc main_arg3))) (Spec.cur1 (m ((c : Thread nD τ).loc main_arg4))) (rowOf 50000 (by decide) (gdK m c e)) j := by
  show (W3 m ρ c (Proc.devRef .tc main_v21) : (⟨2, ![800000, 64]⟩ : Shape).Idx → EReal) (ix2 e j) = _
  rw [W3_v21, W2_v3, W2_query]
  refine (gather_row2 (by decide) gather_S50000x64_S800000x1_S800000x64_1_0_n_n_0_1_164 rfl rfl rfl rfl rfl rfl rfl _ _ e j).trans ?_
  refine (Reg0.query_at (V1 m ρ) c _ j).trans ?_
  rw [V1_arg1, V1_arg3, show (fun j => (V1 m ρ c main_v4 : (⟨2, ![1, 64]⟩ : Shape).Idx → EReal) (ix2 0 j)) = Spec.cur1 (m ((c : Thread nD τ).loc main_arg4)) from funext (V1_v4 m ρ c)]
  rfl

/-- The gathered value rows: the value projection's row named by the edge's source word. -/
theorem valueG_at (c : Dev nD) (e : Fin 800000) (j : Fin 64) :
    (V3 m ρ c main_v28 : (⟨2, ![800000, 64]⟩ : Shape).Idx → EReal) (ix2 e j)
      = Spec.proj (Spec.cur2 (m ((c : Thread nD τ).loc main_arg1))) (Spec.cur2 (m ((c : Thread nD τ).loc main_arg7))) (Spec.cur1 (m ((c : Thread nD τ).loc main_arg8))) (rowOf 50000 (by decide) (gsK m c e)) j := by
  show (W3 m ρ c (Proc.devRef .tc main_v28) : (⟨2, ![800000, 64]⟩ : Shape).Idx → EReal) (ix2 e j) = _
  rw [W3_v28, W2_v1, W2_value]
  refine (gather_row2 (by decide) gather_S50000x64_S800000x1_S800000x64_1_0_n_n_0_1_164 rfl rfl rfl rfl rfl rfl rfl _ _ e j).trans ?_
  refine (Reg0.value_at (V1 m ρ) c _ j).trans ?_
  rw [V1_arg1, V1_arg7, show (fun j => (V1 m ρ c main_v6 : (⟨2, ![1, 64]⟩ : Shape).Idx → EReal) (ix2 0 j)) = Spec.cur1 (m ((c : Thread nD τ).loc main_arg8)) from funext (V1_v6 m ρ c)]
  rfl

/-- The edge features and their weight matrix are the inputs untouched; the edge bias is the input laid out as a row. -/
theorem edge_eq (c : Dev nD) : V3 m ρ c main_arg2 = (m ((c : Thread nD τ).loc main_arg2)) :=
  calc W3 m ρ c (Proc.devRef .tc main_arg2)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl
theorem We_eq (c : Dev nD) : V3 m ρ c main_arg9 = (m ((c : Thread nD τ).loc main_arg9)) :=
  calc W3 m ρ c (Proc.devRef .tc main_arg9)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl
theorem be_at (c : Dev nD) (j : Fin 64) :
    (V3 m ρ c main_v29 : (⟨2, ![1, 64]⟩ : Shape).Idx → EReal) (ix2 0 j) = Spec.cur1 (m ((c : Thread nD τ).loc main_arg10)) j := by
  have e : (W3 m ρ c (Proc.devRef .tc main_v29) : (⟨S1x64, .f32⟩ : BufTy).Contents (Elt Ideal))
      = shapeCast _ (W2 m ρ c (Proc.devRef .tc main_arg10)) shapeCasts_S64_S1x64 := by
    show StableHlo.after hostOps1 (W2 m ρ c) (Proc.devRef .tc main_v29) = _
    after_results
    rfl
  have a : W2 m ρ c (Proc.devRef .tc main_arg10) = m ((c : Thread nD τ).loc main_arg10) :=
    calc W2 m ρ c (Proc.devRef .tc main_arg10)
      _ = W1 m ρ c (Proc.devRef .tc main_arg10) := W2_of_ne m ρ c main_arg10 (by decide)
      _ = W0 m ρ c (Proc.devRef .tc main_arg10) := by host_keeps hostOps0
      _ = m ((c : Thread nD τ).loc main_arg10) := rfl
  show (W3 m ρ c (Proc.devRef .tc main_v29) : (⟨2, ![1, 64]⟩ : Shape).Idx → EReal) (ix2 0 j) = _
  rw [e, a]
  exact shapeCast_a_1a_apply _ _ 0 j

/-- The two head matrices hold a one exactly where a column belongs to a head. -/
theorem sel (c : Dev nD) : Reg1.IsSel (V3 m ρ) c := by
  intro j hd
  show (W3 m ρ c (Proc.devRef .tc main_cst) : (⟨2, ![64, 8]⟩ : Shape).Idx → EReal) (ix2 j hd) = _
  rw [W3_cst]
  exact lit0_at _ j.val hd.val hd.isLt (Shape.rowMajor_val_two _)
theorem selT (c : Dev nD) : Reg1.IsSelT (V3 m ρ) c := by
  intro hd j
  show (W3 m ρ c (Proc.devRef .tc main_cst_0) : (⟨2, ![8, 64]⟩ : Shape).Idx → EReal) (ix2 hd j) = _
  rw [W3_cst_0]
  exact lit1_at _ hd.val j.val j.isLt (Shape.rowMajor_val_two _)

end Cert.KernelIdeal.Host0

end
-- ==== Proof.KHostA.lean ====
/-
  What the attention kernel leaves, as functions of the program's inputs.

  Entered with the gathered projection rows, the edge features and the head matrices, the kernel's three output
  arrays hold the specification's score, message and head weight of every edge; the source words and the
  transposed head matrix pass through it untouched.
-/
import proofs.«113673_j42554535969392_1_alg».proof.Proof.Gen.KernelIdeal.Frame
import proofs.«113673_j42554535969392_1_alg».proof.Proof.KReg1
import proofs.«113673_j42554535969392_1_alg».proof.Proof.KHost0
import proofs.«113673_j42554535969392_1_alg».proof.Proof.Spec

set_option maxRecDepth 16384

noncomputable section

namespace Cert.KernelIdeal.HostA

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.Row Cert.KernelIdeal.Host0

variable (m : (ℓ : Loc nD τ sig) → Buf (Elt Ideal) ℓ) (ρ : Dev nD → PrngReg)

/-- The score rows the kernel forms from what it is entered with are the specification's: the gathered key and
    query rows are the projections' rows named by the index words, the edge projection is over the inputs. -/
theorem scoreV_eq (c : Dev nD) :
    Reg1.scoreV (V3 m ρ) c = Spec.scoreC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  funext e j
  unfold Reg1.scoreV Spec.scoreC Spec.score
  have hk : Spec.cur2 (α := EReal) (A := 800000) (B := 64) (V3 m ρ c main_v14) e j
      = Spec.proj (Spec.cur2 (m ((c : Thread nD τ).loc main_arg1))) (Spec.cur2 (m ((c : Thread nD τ).loc main_arg5))) (Spec.cur1 (m ((c : Thread nD τ).loc main_arg6))) (rowOf 50000 (by decide) (gsK m c e)) j :=
    keyG_at m ρ c e j
  have hq : Spec.cur2 (α := EReal) (A := 800000) (B := 64) (V3 m ρ c main_v21) e j
      = Spec.proj (Spec.cur2 (m ((c : Thread nD τ).loc main_arg1))) (Spec.cur2 (m ((c : Thread nD τ).loc main_arg3))) (Spec.cur1 (m ((c : Thread nD τ).loc main_arg4))) (rowOf 50000 (by decide) (gdK m c e)) j :=
    queryG_at m ρ c e j
  have hb : (fun j : Fin 64 => (V3 m ρ c main_v29 : (⟨2, ![1, 64]⟩ : Shape).Idx → EReal) (ix2 0 j)) = Spec.cur1 (m ((c : Thread nD τ).loc main_arg10)) :=
    funext fun j => be_at m ρ c j
  rw [hk, hq, hb, edge_eq m ρ c, We_eq m ρ c]

/-- The kernel's first output array: the score rows. -/
theorem score_at (c : Dev nD) (e : Fin 800000) (j : Fin 64) :
    (W4 m ρ c (Proc.devRef .tc main_v30_0) : (⟨2, ![800000, 64]⟩ : Shape).Idx → EReal) (ix2 e j)
      = Spec.scoreC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) e j := by
  refine (congrFun (W4_arr m ρ c 8) (ix2 e j)).trans ?_
  refine (Reg1.score_at (V3 m ρ) c e j).trans ?_
  rw [scoreV_eq m ρ c]

/-- The kernel's third output array: the head weights. -/
theorem att_at (c : Dev nD) (e : Fin 800000) (hd : Fin 8) :
    (W4 m ρ c (Proc.devRef .tc main_v30_2) : (⟨2, ![800000, 8]⟩ : Shape).Idx → EReal) (ix2 e hd)
      = Spec.attC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) e hd := by
  refine (congrFun (W4_arr m ρ c 10) (ix2 e hd)).trans ?_
  refine (Reg1.att_at (V3 m ρ) c (sel m ρ c) e hd).trans ?_
  rw [scoreV_eq m ρ c]
  rfl

/-- The kernel's second output array: the messages. -/
theorem message_at (c : Dev nD) (e : Fin 800000) (j : Fin 64) :
    (W4 m ρ c (Proc.devRef .tc main_v30_1) : (⟨2, ![800000, 64]⟩ : Shape).Idx → EReal) (ix2 e j)
      = Spec.messageC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e j := by
  refine (congrFun (W4_arr m ρ c 9) (ix2 e j)).trans ?_
  refine (Reg1.message_at (V3 m ρ) c (sel m ρ c) (selT m ρ c) e j).trans ?_
  rw [scoreV_eq m ρ c]
  have hv : Spec.cur2 (α := EReal) (A := 800000) (B := 64) (V3 m ρ c main_v28) e j
      = Spec.proj (Spec.cur2 (m ((c : Thread nD τ).loc main_arg1))) (Spec.cur2 (m ((c : Thread nD τ).loc main_arg7))) (Spec.cur1 (m ((c : Thread nD τ).loc main_arg8))) (rowOf 50000 (by decide) (gsK m c e)) j :=
    valueG_at m ρ c e j
  rw [hv]
  rfl

/-- The source words after the kernel. -/
theorem src_eq (c : Dev nD) : (W4 m ρ c (Proc.devRef .tc main_v1) : (⟨S800000, .i32⟩ : BufTy).Contents (Elt Ideal)) = srcW (m ((c : Thread nD τ).loc main_arg0)) :=
  (W4_of_ne m ρ c main_v1 (by decide)).trans (Host0.src_eq m ρ c)

/-- The transposed head matrix after the kernel: it is one of the kernel's input windows. -/
theorem selT_at (c : Dev nD) (hd : Fin 8) (j : Fin 64) :
    (W4 m ρ c (Proc.devRef .tc main_cst_0) : (⟨2, ![8, 64]⟩ : Shape).Idx → EReal) (ix2 hd j) = if j.val / 8 = hd.val then (1 : EReal) else 0 := by
  have h : W4 m ρ c (Proc.devRef .tc main_cst_0) = V3 m ρ c main_cst_0 :=
    (W4_arr m ρ c 7).trans (((dat1 (V3 m ρ) c).arrAt_in 7 rfl _).trans (A_eq1 (V3 m ρ) c 7))
  rw [h]
  exact selT m ρ c hd j

end Cert.KernelIdeal.HostA

end
-- ==== Proof.LibRowScatter.lean ====
/-
  A host scatter-add of whole rows at the ideal instance, read at an entry.

  The operand is a table of `N` rows; the updates are `E` rows of the same width; the scatter indices are an
  `[E, 1]` array of words, one per update row. At the ideal instance the result at an entry of row `n` is the
  operand's entry plus the exact sum, over the update rows whose word lands on `n` (read signed, not clamped:
  an update whose word is negative or past the table is dropped), of the update's entry in the same column.
  The dimension numbers enter through their four fields, which a caller states by `rfl` for its record.
-/
import proofs.«113673_j42554535969392_1_alg».proof.Proof.LibRowIdx
import Idealize.ShloMosaic.Lib.ValueIdx
import Idealize.ShloMosaic.PureOps.Ideal.Laws

noncomputable section

namespace Cert.Lib.Row

open Idealize.ShloMosaic Idealize.ShloMosaic.ValueIdx

/-- Rank 1: update index `j` lands on entry `n` exactly when the word of its row, read signed, is non-negative
    and equals `n`. The only operand axis is the scattered one: its start is the word and it has no window
    coordinate. -/
private theorem resultIdx1 {N E : Nat}
    (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (n : Fin N) :
    (⟨[], [0], [0], 1, wf⟩ : ScatterDims ⟨1, ![N]⟩ ⟨2, ![E, 1]⟩ ⟨1, ![E]⟩).resultIdx? j idx = some (ix1 n)
      ↔ Lands (idx (ix2 (j 0) 0)) n := by
  have hst : (⟨[], [0], [0], 1, wf⟩ : ScatterDims ⟨1, ![N]⟩ ⟨2, ![E, 1]⟩ ⟨1, ![E]⟩).start j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw : (⟨[], [0], [0], 1, wf⟩ : ScatterDims ⟨1, ![N]⟩ ⟨2, ![E, 1]⟩ ⟨1, ![E]⟩).window j 0 = 0 := by
    unfold ScatterDims.window
    rw [dif_neg]
    show ¬ ((0 : Fin 1) ∈ (List.finRange 1).filter (fun a => a ∉ [(0 : Fin 1)]))
    decide
  generalize (⟨[], [0], [0], 1, wf⟩ : ScatterDims ⟨1, ![N]⟩ ⟨2, ![E, 1]⟩ ⟨1, ![E]⟩) = d at hst hw ⊢
  have key : ∀ a : Fin 1, d.start j idx a + d.window j a = (idx (ix2 (j 0) 0)).toInt := by
    intro a; obtain rfl : a = 0 := Subsingleton.elim _ _
    rw [hst, hw]; simp
  unfold Lands ScatterDims.resultIdx?
  constructor
  · intro h
    split at h
    · rename_i hc
      have h0 := congrArg Fin.val (congrFun (Option.some.inj h) 0)
      change (d.start j idx 0 + d.window j 0).toNat = n.val at h0
      have hc0 := hc 0
      rw [key] at h0 hc0
      exact ⟨hc0.1, h0⟩
    · exact absurd h (by simp)
  · rintro ⟨h0, h1⟩
    have hc : ∀ a : Fin 1, 0 ≤ d.start j idx a + d.window j a ∧ d.start j idx a + d.window j a < (⟨1, ![N]⟩ : Shape).size a := by
      intro a; rw [key]; obtain rfl : a = 0 := Subsingleton.elim _ _
      refine ⟨h0, ?_⟩
      change _ < (N : Int)
      have := n.isLt; omega
    rw [dif_pos hc]
    congr 1
    funext a; obtain rfl : a = 0 := Subsingleton.elim _ _
    refine Fin.ext ?_
    change (d.start j idx 0 + d.window j 0).toNat = n.val
    rw [key]; exact h1

/-- Rows of one entry: the table is a vector. -/
theorem scatterAdd_row1 {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ 32) (u : FVec Ideal ⟨1, ![E]⟩ .f32) (n : Fin N) :
    Host.scatterAdd d x idx u (ix1 n)
      = x (ix1 n) + ∑ e ∈ Finset.univ.filter (fun e : Fin E => Lands (idx (ix2 e 0)) n), u (ix1 e) := by
  obtain ⟨uw, iw, sd, ivd, wf⟩ := d
  simp only at h1 h2 h3 h4
  subst h1 h2 h3 h4
  show x (ix1 n) + ∑ j ∈ Finset.univ.filter (fun j => ScatterDims.resultIdx? _ j idx = some (ix1 n)), u j = _
  congr 1
  refine Finset.sum_nbij' (fun j => j 0) (fun e => ix1 e) ?_ ?_ ?_ ?_ ?_
  · intro j hj
    exact Finset.mem_filter.mpr ⟨Finset.mem_univ _, (resultIdx1 wf idx j n).mp (Finset.mem_filter.mp hj).2⟩
  · intro e he
    exact Finset.mem_filter.mpr ⟨Finset.mem_univ _, (resultIdx1 wf idx (ix1 e) n).mpr (Finset.mem_filter.mp he).2⟩
  · intro j _; exact (eq_ix1 j).symm
  · intro e _; rfl
  · intro j _; exact congrArg u (eq_ix1 j)

/-- Rank 2: update index `j` lands on entry `(n, c)` exactly when its row's word lands on `n` and its column is
    `c`. Axis 0 is the scattered one (start the word, no window coordinate); axis 1 is a window axis (start 0,
    window coordinate the update's column). -/
private theorem resultIdx2 {N E C : Nat}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) (n : Fin N) (c : Fin C) :
    (⟨[1], [0], [0], 1, wf⟩ : ScatterDims ⟨2, ![N, C]⟩ ⟨2, ![E, 1]⟩ ⟨2, ![E, C]⟩).resultIdx? j idx = some (ix2 n c)
      ↔ Lands (idx (ix2 (j 0) 0)) n ∧ (j 1).val = c.val := by
  have hst0 : (⟨[1], [0], [0], 1, wf⟩ : ScatterDims ⟨2, ![N, C]⟩ ⟨2, ![E, 1]⟩ ⟨2, ![E, C]⟩).start j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hst1 : (⟨[1], [0], [0], 1, wf⟩ : ScatterDims ⟨2, ![N, C]⟩ ⟨2, ![E, 1]⟩ ⟨2, ![E, C]⟩).start j idx 1 = 0 := by
    unfold ScatterDims.start
    rw [dif_neg]
    show ¬ ((1 : Fin 2) ∈ [(0 : Fin 2)])
    decide
  have hw0 : (⟨[1], [0], [0], 1, wf⟩ : ScatterDims ⟨2, ![N, C]⟩ ⟨2, ![E, 1]⟩ ⟨2, ![E, C]⟩).window j 0 = 0 := by
    unfold ScatterDims.window
    rw [dif_neg]
    show ¬ ((0 : Fin 2) ∈ (List.finRange 2).filter (fun a => a ∉ [(0 : Fin 2)]))
    decide
  have hw1 : (⟨[1], [0], [0], 1, wf⟩ : ScatterDims ⟨2, ![N, C]⟩ ⟨2, ![E, 1]⟩ ⟨2, ![E, C]⟩).window j 1 = (j 1).val := by
    unfold ScatterDims.window
    rw [dif_pos]
    · rfl
    · show (1 : Fin 2) ∈ (List.finRange 2).filter (fun a => a ∉ [(0 : Fin 2)])
      decide
  generalize (⟨[1], [0], [0], 1, wf⟩ : ScatterDims ⟨2, ![N, C]⟩ ⟨2, ![E, 1]⟩ ⟨2, ![E, C]⟩) = d at hst0 hst1 hw0 hw1 ⊢
  have key0 : d.start j idx 0 + d.window j 0 = (idx (ix2 (j 0) 0)).toInt := by
    rw [hst0, hw0]; simp
  have key1 : d.start j idx 1 + d.window j 1 = ((j 1).val : Int) := by
    rw [hst1, hw1]; simp
  unfold Lands ScatterDims.resultIdx?
  constructor
  · intro h
    split at h
    · rename_i hc
      have he := Option.some.inj h
      have h0 := congrArg Fin.val (congrFun he 0)
      have h1 := congrArg Fin.val (congrFun he 1)
      change (d.start j idx 0 + d.window j 0).toNat = n.val at h0
      change (d.start j idx 1 + d.window j 1).toNat = c.val at h1
      have hc0 := hc 0
      rw [key0] at h0 hc0
      rw [key1] at h1
      exact ⟨⟨hc0.1, h0⟩, by simpa using h1⟩
    · exact absurd h (by simp)
  · rintro ⟨⟨h0, h1⟩, h2⟩
    have hc : ∀ a : Fin 2, 0 ≤ d.start j idx a + d.window j a ∧
        d.start j idx a + d.window j a < (⟨2, ![N, C]⟩ : Shape).size a := by
      intro a
      match a with
      | ⟨0, _⟩ =>
        change 0 ≤ d.start j idx 0 + d.window j 0 ∧ d.start j idx 0 + d.window j 0 < (N : Int)
        rw [key0]; have := n.isLt; omega
      | ⟨1, _⟩ =>
        change 0 ≤ d.start j idx 1 + d.window j 1 ∧ d.start j idx 1 + d.window j 1 < (C : Int)
        rw [key1]; have := c.isLt; omega
    rw [dif_pos hc]
    congr 1
    funext a
    refine Fin.ext ?_
    match a with
    | ⟨0, _⟩ =>
      change (d.start j idx 0 + d.window j 0).toNat = n.val
      rw [key0]; exact h1
    | ⟨1, _⟩ =>
      change (d.start j idx 1 + d.window j 1).toNat = c.val
      rw [key1, ← h2]; simp

/-- Rows of `C` entries. -/
theorem scatterAdd_row2 {N E C : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ 32) (u : FVec Ideal ⟨2, ![E, C]⟩ .f32)
    (n : Fin N) (j : Fin C) :
    Host.scatterAdd d x idx u (ix2 n j)
      = x (ix2 n j) + ∑ e ∈ Finset.univ.filter (fun e : Fin E => Lands (idx (ix2 e 0)) n), u (ix2 e j) := by
  obtain ⟨uw, iw, sd, ivd, wf⟩ := d
  simp only at h1 h2 h3 h4
  subst h1 h2 h3 h4
  show x (ix2 n j) + ∑ k ∈ Finset.univ.filter (fun k => ScatterDims.resultIdx? _ k idx = some (ix2 n j)), u k = _
  congr 1
  have hk : ∀ k : (⟨2, ![E, C]⟩ : Shape).Idx, (k 1).val = j.val → ix2 (k 0) j = k := by
    intro k hk
    funext a
    match a with
    | ⟨0, _⟩ => rfl
    | ⟨1, _⟩ => exact Fin.ext hk.symm
  refine Finset.sum_nbij' (fun k => k 0) (fun e => ix2 e j) ?_ ?_ ?_ ?_ ?_
  · intro k hk'
    exact Finset.mem_filter.mpr ⟨Finset.mem_univ _, ((resultIdx2 wf idx k n j).mp (Finset.mem_filter.mp hk').2).1⟩
  · intro e he
    exact Finset.mem_filter.mpr ⟨Finset.mem_univ _, (resultIdx2 wf idx (ix2 e j) n j).mpr ⟨(Finset.mem_filter.mp he).2, rfl⟩⟩
  · intro k hk'
    exact hk k ((resultIdx2 wf idx k n j).mp (Finset.mem_filter.mp hk').2).2
  · intro e _; rfl
  · intro k hk'
    exact congrArg u (hk k ((resultIdx2 wf idx k n j).mp (Finset.mem_filter.mp hk').2).2).symm

/-- Rank 3: update index `j` lands on entry `(n, a, b)` exactly when its row's word lands on `n` and its two
    block coordinates are `a` and `b`. Axis 0 is the scattered one; axes 1 and 2 are window axes. -/
private theorem resultIdx3 {N E A B : Nat}
    (wf : ScatterDims.WF ⟨3, ![N, A, B]⟩ ⟨2, ![E, 1]⟩ ⟨3, ![E, A, B]⟩ [1, 2] [0] [0] 1)
    (idx : IVec ⟨2, ![E, 1]⟩ 32) (j : (⟨3, ![E, A, B]⟩ : Shape).Idx) (n : Fin N) (a : Fin A) (b : Fin B) :
    (⟨[1, 2], [0], [0], 1, wf⟩ : ScatterDims ⟨3, ![N, A, B]⟩ ⟨2, ![E, 1]⟩ ⟨3, ![E, A, B]⟩).resultIdx? j idx = some (ix3 n a b)
      ↔ Lands (idx (ix2 (j 0) 0)) n ∧ (j 1).val = a.val ∧ (j 2).val = b.val := by
  have hst0 : (⟨[1, 2], [0], [0], 1, wf⟩ : ScatterDims ⟨3, ![N, A, B]⟩ ⟨2, ![E, 1]⟩ ⟨3, ![E, A, B]⟩).start j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hst1 : (⟨[1, 2], [0], [0], 1, wf⟩ : ScatterDims ⟨3, ![N, A, B]⟩ ⟨2, ![E, 1]⟩ ⟨3, ![E, A, B]⟩).start j idx 1 = 0 := by
    unfold ScatterDims.start
    rw [dif_neg]
    show ¬ ((1 : Fin 3) ∈ [(0 : Fin 3)])
    decide
  have hst2 : (⟨[1, 2], [0], [0], 1, wf⟩ : ScatterDims ⟨3, ![N, A, B]⟩ ⟨2, ![E, 1]⟩ ⟨3, ![E, A, B]⟩).start j idx 2 = 0 := by
    unfold ScatterDims.start
    rw [dif_neg]
    show ¬ ((2 : Fin 3) ∈ [(0 : Fin 3)])
    decide
  have hw0 : (⟨[1, 2], [0], [0], 1, wf⟩ : ScatterDims ⟨3, ![N, A, B]⟩ ⟨2, ![E, 1]⟩ ⟨3, ![E, A, B]⟩).window j 0 = 0 := by
    unfold ScatterDims.window
    rw [dif_neg]
    show ¬ ((0 : Fin 3) ∈ (List.finRange 3).filter (fun a => a ∉ [(0 : Fin 3)]))
    decide
  have hw1 : (⟨[1, 2], [0], [0], 1, wf⟩ : ScatterDims ⟨3, ![N, A, B]⟩ ⟨2, ![E, 1]⟩ ⟨3, ![E, A, B]⟩).window j 1 = (j 1).val := by
    unfold ScatterDims.window
    rw [dif_pos]
    · rfl
    · show (1 : Fin 3) ∈ (List.finRange 3).filter (fun a => a ∉ [(0 : Fin 3)])
      decide
  have hw2 : (⟨[1, 2], [0], [0], 1, wf⟩ : ScatterDims ⟨3, ![N, A, B]⟩ ⟨2, ![E, 1]⟩ ⟨3, ![E, A, B]⟩).window j 2 = (j 2).val := by
    unfold ScatterDims.window
    rw [dif_pos]
    · rfl
    · show (2 : Fin 3) ∈ (List.finRange 3).filter (fun a => a ∉ [(0 : Fin 3)])
      decide
  generalize (⟨[1, 2], [0], [0], 1, wf⟩ : ScatterDims ⟨3, ![N, A, B]⟩ ⟨2, ![E, 1]⟩ ⟨3, ![E, A, B]⟩) = d at hst0 hst1 hst2 hw0 hw1 hw2 ⊢
  have key0 : d.start j idx 0 + d.window j 0 = (idx (ix2 (j 0) 0)).toInt := by
    rw [hst0, hw0]; simp
  have key1 : d.start j idx 1 + d.window j 1 = ((j 1).val : Int) := by
    rw [hst1, hw1]; simp
  have key2 : d.start j idx 2 + d.window j 2 = ((j 2).val : Int) := by
    rw [hst2, hw2]; simp
  unfold Lands ScatterDims.resultIdx?
  constructor
  · intro h
    split at h
    · rename_i hc
      have he := Option.some.inj h
      have h0 := congrArg Fin.val (congrFun he 0)
      have h1 := congrArg Fin.val (congrFun he 1)
      have h2 := congrArg Fin.val (congrFun he 2)
      change (d.start j idx 0 + d.window j 0).toNat = n.val at h0
      change (d.start j idx 1 + d.window j 1).toNat = a.val at h1
      change (d.start j idx 2 + d.window j 2).toNat = b.val at h2
      have hc0 := hc 0
      rw [key0] at h0 hc0
      rw [key1] at h1
      rw [key2] at h2
      exact ⟨⟨hc0.1, h0⟩, by simpa using h1, by simpa using h2⟩
    · exact absurd h (by simp)
  · rintro ⟨⟨h0, h1⟩, h2, h3⟩
    have hc : ∀ q : Fin 3, 0 ≤ d.start j idx q + d.window j q ∧
        d.start j idx q + d.window j q < (⟨3, ![N, A, B]⟩ : Shape).size q := by
      intro q
      match q with
      | ⟨0, _⟩ =>
        change 0 ≤ d.start j idx 0 + d.window j 0 ∧ d.start j idx 0 + d.window j 0 < (N : Int)
        rw [key0]; have := n.isLt; omega
      | ⟨1, _⟩ =>
        change 0 ≤ d.start j idx 1 + d.window j 1 ∧ d.start j idx 1 + d.window j 1 < (A : Int)
        rw [key1]; have := a.isLt; omega
      | ⟨2, _⟩ =>
        change 0 ≤ d.start j idx 2 + d.window j 2 ∧ d.start j idx 2 + d.window j 2 < (B : Int)
        rw [key2]; have := b.isLt; omega
    rw [dif_pos hc]
    congr 1
    funext q
    refine Fin.ext ?_
    match q with
    | ⟨0, _⟩ =>
      change (d.start j idx 0 + d.window j 0).toNat = n.val
      rw [key0]; exact h1
    | ⟨1, _⟩ =>
      change (d.start j idx 1 + d.window j 1).toNat = a.val
      rw [key1, ← h2]; simp
    | ⟨2, _⟩ =>
      change (d.start j idx 2 + d.window j 2).toNat = b.val
      rw [key2, ← h3]; simp

/-- Rows that are `A` by `B` blocks. -/
theorem scatterAdd_row3 {N E A B : Nat} (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1)
    (x : FVec Ideal ⟨3, ![N, A, B]⟩ .f32) (idx : IVec ⟨2, ![E, 1]⟩ 32) (u : FVec Ideal ⟨3, ![E, A, B]⟩ .f32)
    (n : Fin N) (a : Fin A) (b : Fin B) :
    Host.scatterAdd d x idx u (ix3 n a b)
      = x (ix3 n a b) + ∑ e ∈ Finset.univ.filter (fun e : Fin E => Lands (idx (ix2 e 0)) n), u (ix3 e a b) := by
  obtain ⟨uw, iw, sd, ivd, wf⟩ := d
  simp only at h1 h2 h3 h4
  subst h1 h2 h3 h4
  show x (ix3 n a b)
    + ∑ k ∈ Finset.univ.filter (fun k => ScatterDims.resultIdx? _ k idx = some (ix3 n a b)), u k = _
  congr 1
  have hk : ∀ k : (⟨3, ![E, A, B]⟩ : Shape).Idx, (k 1).val = a.val ∧ (k 2).val = b.val → ix3 (k 0) a b = k := by
    intro k hk
    funext q
    match q with
    | ⟨0, _⟩ => rfl
    | ⟨1, _⟩ => exact Fin.ext hk.1.symm
    | ⟨2, _⟩ => exact Fin.ext hk.2.symm
  refine Finset.sum_nbij' (fun k => k 0) (fun e => ix3 e a b) ?_ ?_ ?_ ?_ ?_
  · intro k hk'
    exact Finset.mem_filter.mpr
      ⟨Finset.mem_univ _, ((resultIdx3 wf idx k n a b).mp (Finset.mem_filter.mp hk').2).1⟩
  · intro e he
    exact Finset.mem_filter.mpr
      ⟨Finset.mem_univ _, (resultIdx3 wf idx (ix3 e a b) n a b).mpr ⟨(Finset.mem_filter.mp he).2, rfl, rfl⟩⟩
  · intro k hk'
    exact hk k ((resultIdx3 wf idx k n a b).mp (Finset.mem_filter.mp hk').2).2
  · intro e _; rfl
  · intro k hk'
    exact congrArg u (hk k ((resultIdx3 wf idx k n a b).mp (Finset.mem_filter.mp hk').2).2).symm

end Cert.Lib.Row

end
-- ==== Proof.KHostB.lean ====
/-
  The program's two results, as functions of its inputs.

  After the attention kernel the host sums the messages, the head weights and the constant one over the edges that
  land on each node (the scatter words are the source words, unwrapped), the normalising kernel divides, and the
  host regroups the score rows and the normalised rows as 8 heads of 8: the specification's two arrays.
-/
import proofs.«113673_j42554535969392_1_alg».proof.Proof.Gen.KernelIdeal.Frame
import proofs.«113673_j42554535969392_1_alg».proof.Proof.KReg2
import proofs.«113673_j42554535969392_1_alg».proof.Proof.KHostA
import proofs.«113673_j42554535969392_1_alg».proof.Proof.LibRowScatter
import proofs.«113673_j42554535969392_1_alg».proof.Proof.Spec
import Idealize.ShloMosaic.Lib.Pipeline.Value

set_option maxRecDepth 16384

noncomputable section

namespace Cert.KernelIdeal.HostB

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.Row Cert.KernelIdeal.Host0

variable (m : (ℓ : Loc nD τ sig) → Buf (Elt Ideal) ℓ) (ρ : Dev nD → PrngReg)

/-- The last host stretch regroups the score rows as 8 heads of 8. -/
theorem v43_eq (c : Dev nD) :
    (W7 m ρ c (Proc.devRef .tc main_v43) : (⟨3, ![800000, 8, 8]⟩ : Shape).Idx → EReal)
      = shapeCast S800000x8x8 (W6 m ρ c (Proc.devRef .tc main_v30_0) : (⟨2, ![800000, 64]⟩ : Shape).Idx → EReal) shapeCasts_S800000x64_S800000x8x8 := by
  show StableHlo.after hostOps3 (W6 m ρ c) (Proc.devRef .tc main_v43) = _
  after_results
  rfl

/-- Neither the normalising kernel nor the host stretch before it writes the score rows. -/
theorem v30_0_keep (c : Dev nD) :
    W6 m ρ c (Proc.devRef .tc main_v30_0) = W4 m ρ c (Proc.devRef .tc main_v30_0) :=
  (W6_of_ne m ρ c main_v30_0 (by decide)).trans
    (StableHlo.after_of_forall_not_mem (b := Proc.devRef .tc main_v30_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- A row of 64 regrouped as 8 by 8, read at an entry: entry `d` of head `hd` is column `8 * hd + d`. -/
theorem regroup_apply {A : Nat} (x : (⟨2, ![A, 64]⟩ : Shape).Idx → EReal)
    (h : (⟨2, ![A, 64]⟩ : Shape).ShapeCasts ⟨3, ![A, 8, 8]⟩) (p : Fin A) (hd d : Fin 8) :
    shapeCast (⟨3, ![A, 8, 8]⟩ : Shape) x h (ix3 p hd d) = x (ix2 p (Spec.hcol hd d)) := by
  refine shapeCast_apply x h (ix3 p hd d) (ix2 p (Spec.hcol hd d)) ?_
  rw [Shape.rowMajor_val_two, Shape.rowMajor_val_three]
  show p.val * 64 + (8 * hd.val + d.val) = (p.val * 8 + hd.val) * 8 + d.val
  omega

/-- The edge result. -/
theorem eout_eq (c : Dev nD) :
    (W7 m ρ c (Proc.devRef .tc main_v43) : (⟨3, ![800000, 8, 8]⟩ : Shape).Idx → EReal)
      = Spec.eoutArr (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  funext i
  obtain ⟨e, hd, d, rfl⟩ : ∃ (e : Fin 800000) (hd d : Fin 8), i = ix3 e hd d := ⟨i 0, i 1, i 2, eq_ix3 i⟩
  rw [Spec.eoutArr_ix3, v43_eq, v30_0_keep]
  refine (regroup_apply _ _ e hd d).trans ?_
  exact HostA.score_at m ρ c e (Spec.hcol hd d)

/-! ## The node result -/

/-- The message sums: the zero table with the messages added in by the source words. -/
theorem v33_eq (c : Dev nD) :
    (V5 m ρ c main_v33 : (⟨2, ![50000, 64]⟩ : Shape).Idx → EReal)
      = Host.scatterAdd (F := Ideal) scatter_S50000x64_S800000x1_S800000x64_1_0_0_1
          (broadcastInDim S50000x64 ![] bcast_S_S50000x64 (constant (F := Ideal) S_ .f32 0x00000000#32))
          (rawCol (srcW (m ((c : Thread nD τ).loc main_arg0))))
          (W4 m ρ c (Proc.devRef .tc main_v30_1)) := by
  show StableHlo.after hostOps2 (W4 m ρ c) (Proc.devRef .tc main_v33) = _
  after_results
  rw [HostA.src_eq]
  rfl

/-- The head weight sums: the zero table with the head weights added in by the source words. -/
theorem v36_eq (c : Dev nD) :
    (V5 m ρ c main_v36 : (⟨2, ![50000, 8]⟩ : Shape).Idx → EReal)
      = Host.scatterAdd (F := Ideal) scatter_S50000x8_S800000x1_S800000x8_1_0_0_1
          (broadcastInDim S50000x8 ![] bcast_S_S50000x8 (constant (F := Ideal) S_ .f32 0x00000000#32))
          (rawCol (srcW (m ((c : Thread nD τ).loc main_arg0))))
          (W4 m ρ c (Proc.devRef .tc main_v30_2)) := by
  show StableHlo.after hostOps2 (W4 m ρ c) (Proc.devRef .tc main_v36) = _
  after_results
  rw [HostA.src_eq]
  rfl

/-- The edge counts as a column: the zero vector with a one added in per edge by the source words, reshaped. -/
theorem v41_eq (c : Dev nD) :
    (V5 m ρ c main_v41 : (⟨2, ![50000, 1]⟩ : Shape).Idx → EReal)
      = shapeCast S50000x1 (Host.scatterAdd (F := Ideal) scatter_S50000_S800000x1_S800000_n_0_0_1
          (broadcastInDim S50000 ![] bcast_S_S50000 (constant (F := Ideal) S_ .f32 0x00000000#32))
          (rawCol (srcW (m ((c : Thread nD τ).loc main_arg0))))
          (broadcastInDim S800000 ![] bcast_S_S800000 (constant (F := Ideal) S_ .f32 0x3F800000#32))) shapeCasts_S50000_S50000x1 := by
  show StableHlo.after hostOps2 (W4 m ρ c) (Proc.devRef .tc main_v41) = _
  after_results
  rw [HostA.src_eq]
  rfl

/-- Node `n`'s message sum at column `j`. -/
theorem msum_at (c : Dev nD) (n : Fin 50000) (j : Fin 64) :
    Spec.cur2 (V5 m ρ c main_v33 : (⟨2, ![50000, 64]⟩ : Shape).Idx → EReal) n j
      = Spec.segsum (ssK m c) (fun e => Spec.messageC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e j) n := by
  show (V5 m ρ c main_v33 : (⟨2, ![50000, 64]⟩ : Shape).Idx → EReal) (ix2 n j) = _
  rw [v33_eq, scatterAdd_row2 scatter_S50000x64_S800000x1_S800000x64_1_0_0_1 rfl rfl rfl rfl]
  unfold Spec.segsum
  exact congrArg₂ (· + ·) rfl (Finset.sum_congr rfl fun e _ => HostA.message_at m ρ c e j)

/-- Node `n`'s weight sum for head `hd`. -/
theorem wsum_at (c : Dev nD) (n : Fin 50000) (hd : Fin 8) :
    Spec.cur2 (V5 m ρ c main_v36 : (⟨2, ![50000, 8]⟩ : Shape).Idx → EReal) n hd
      = Spec.segsum (ssK m c) (fun e => Spec.attC (gsK m c) (gdK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) e hd) n := by
  show (V5 m ρ c main_v36 : (⟨2, ![50000, 8]⟩ : Shape).Idx → EReal) (ix2 n hd) = _
  rw [v36_eq, scatterAdd_row2 scatter_S50000x8_S800000x1_S800000x8_1_0_0_1 rfl rfl rfl rfl]
  unfold Spec.segsum
  exact congrArg₂ (· + ·) rfl (Finset.sum_congr rfl fun e _ => HostA.att_at m ρ c e hd)

/-- Node `n`'s edge count. -/
theorem cnt_at (c : Dev nD) (n : Fin 50000) :
    Spec.col0 (V5 m ρ c main_v41 : (⟨2, ![50000, 1]⟩ : Shape).Idx → EReal) n
      = Spec.segsum (ssK m c) (fun _ => Spec.fone) n := by
  show (V5 m ρ c main_v41 : (⟨2, ![50000, 1]⟩ : Shape).Idx → EReal) (ix2 n 0) = _
  rw [v41_eq]
  refine (shapeCast_apply _ _ (ix2 n 0) (ix1 n) ?_).trans ?_
  · rw [Shape.rowMajor_val_one, Shape.rowMajor_val_two]
    show n.val = n.val * 1 + 0
    omega
  rw [scatterAdd_row1 scatter_S50000_S800000x1_S800000_n_0_0_1 rfl rfl rfl rfl]
  unfold Spec.segsum
  exact congrArg₂ (· + ·) rfl (Finset.sum_congr rfl fun e _ => rfl)

/-- The host stretch before the normalising kernel does not write the transposed head matrix. -/
theorem cst0_keep (c : Dev nD) :
    W5 m ρ c (Proc.devRef .tc main_cst_0) = W4 m ρ c (Proc.devRef .tc main_cst_0) :=
  (StableHlo.after_of_forall_not_mem (b := Proc.devRef .tc main_cst_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The normalising kernel finds the transposed head matrix. -/
theorem isSelT (c : Dev nD) : Reg2.IsSelT (V5 m ρ) c := fun hd j => by
  show (W5 m ρ c (Proc.devRef .tc main_cst_0) : (⟨2, ![8, 64]⟩ : Shape).Idx → EReal) (ix2 hd j) = _
  rw [cst0_keep]
  exact HostA.selT_at m ρ c hd j

/-- The last host stretch regroups the normalised rows as 8 heads of 8. -/
theorem v44_eq (c : Dev nD) :
    (W7 m ρ c (Proc.devRef .tc main_v44) : (⟨3, ![50000, 8, 8]⟩ : Shape).Idx → EReal)
      = shapeCast S50000x8x8 (W6 m ρ c (Proc.devRef .tc main_v42) : (⟨2, ![50000, 64]⟩ : Shape).Idx → EReal) shapeCasts_S50000x64_S50000x8x8 := by
  show StableHlo.after hostOps3 (W6 m ρ c) (Proc.devRef .tc main_v44) = _
  after_results
  rfl

/-- The normalised rows are the normalising kernel's output array. -/
theorem v42_eq (c : Dev nD) :
    (W6 m ρ c (Proc.devRef .tc main_v42) : (⟨2, ![50000, 64]⟩ : Shape).Idx → EReal)
      = ((dat2 (F := Ideal) (V5 m ρ) c).arrAt 4 cfg2.N : (⟨2, ![50000, 64]⟩ : Shape).Idx → EReal) :=
  W6_arr m ρ c 4

/-- The node result. -/
theorem hout_eq (c : Dev nD) :
    (W7 m ρ c (Proc.devRef .tc main_v44) : (⟨3, ![50000, 8, 8]⟩ : Shape).Idx → EReal)
      = Spec.houtArr (gsK m c) (gdK m c) (ssK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨n, hd, d, rfl⟩ : ∃ (n : Fin 50000) (hd d : Fin 8), i = ix3 n hd d := ⟨i 0, i 1, i 2, eq_ix3 i⟩
  rw [Spec.houtArr_ix3, v44_eq]
  refine (regroup_apply _ _ n hd d).trans ?_
  rw [v42_eq, Reg2.hout_at (V5 m ρ) c (isSelT m ρ c) n (Spec.hcol hd d)]
  unfold Spec.houtC Spec.normalized
  rw [msum_at, wsum_at, cnt_at]

end Cert.KernelIdeal.HostB

end
-- ==== Proof.RefScore.lean ====
/-
  The reference's edge stages, read at an entry.

  The reference forms the three node projections and the edge projection as matrix products plus a bias, regroups
  each 64-wide row as 8 heads of 8, gathers the key rows by source and the query rows by destination, multiplies
  them entry by entry, divides by the word `11863283 / 4194304` and adds the edge projection: at entry `(e, hd, d)`
  that is the specification's score of edge `e` at column `8 * hd + d`, division by the word being multiplication
  by its reciprocal. The sum over `d`, clipped and exponentiated, is the specification's weight of head `hd`.
-/
import proofs.«113673_j42554535969392_1_alg».proof.Proof.Gen.ReferenceIdeal.Read
import proofs.«113673_j42554535969392_1_alg».proof.Proof.LibRowGather
import proofs.«113673_j42554535969392_1_alg».proof.Proof.Spec

set_option maxRecDepth 16384

noncomputable section

namespace Cert.ReferenceIdeal.RefScore

open Idealize.ShloMosaic Idealize.ShloMosaic.TcCoe Idealize.ShloMosaic.ValueIdx
open Idealize.SL.Sem
open Cert.ReferenceIdeal Cert.ReferenceIdeal.Read

variable (x0 : (⟨S2x800000, .i32⟩ : BufTy).Contents (Elt Ideal))
variable (x1 : (⟨S50000x128, .f32⟩ : BufTy).Contents (Elt Ideal)) (x2 : (⟨S800000x64, .f32⟩ : BufTy).Contents (Elt Ideal))
variable (x3 : (⟨S128x64, .f32⟩ : BufTy).Contents (Elt Ideal)) (x4 : (⟨S64, .f32⟩ : BufTy).Contents (Elt Ideal))
variable (x5 : (⟨S128x64, .f32⟩ : BufTy).Contents (Elt Ideal)) (x6 : (⟨S64, .f32⟩ : BufTy).Contents (Elt Ideal))
variable (x7 : (⟨S128x64, .f32⟩ : BufTy).Contents (Elt Ideal)) (x8 : (⟨S64, .f32⟩ : BufTy).Contents (Elt Ideal))
variable (x9 : (⟨S64x64, .f32⟩ : BufTy).Contents (Elt Ideal)) (x10 : (⟨S64, .f32⟩ : BufTy).Contents (Elt Ideal))

/-- The gather words by source and by destination, one per edge. -/
abbrev gsR : Fin 800000 → BitVec 32 := Spec.col0 (val_main_v29 (F := Ideal) x0)
abbrev gdR : Fin 800000 → BitVec 32 := Spec.col0 (val_main_v36 (F := Ideal) x0)

/-! ### Index arithmetic of the value projection -/

/-- Regrouping a 64-wide row as 8 heads of 8: entry `(n, hd, d)` is column `8 * hd + d` of row `n`, since
    `((n * 8 + hd) * 8 + d) = n * 64 + (8 * hd + d)` with `8 * hd + d < 64`. -/
theorem idx14 (n : Fin 50000) (hd d : Fin 8) : idx_main_v14 (ix3 n hd d) = ix2 n (Spec.hcol hd d) :=
  funext fun a => Fin.ext (by
    have hn := n.isLt; have hh := hd.isLt; have hdd := d.isLt
    match a with
    | ⟨0, _⟩ => show ((n.val * 8 + hd.val) * 8 + d.val) / 64 = n.val; omega
    | ⟨1, _⟩ => show ((n.val * 8 + hd.val) * 8 + d.val) % 64 = 8 * hd.val + d.val; omega)

/-- The matrix product at `(n, j)` pairs entry `(n, k)` of the left factor with entry `(k, j)` of the right. -/
theorem lidx10 (n : Fin 50000) (j : Fin 64) (k : Fin 128) : lidx_main_v10 (ix2 n j) k = ix2 n k :=
  funext fun a => Fin.ext (by match a with | ⟨0, _⟩ => rfl | ⟨1, _⟩ => rfl)

theorem ridx10 (n : Fin 50000) (j : Fin 64) (k : Fin 128) : ridx_main_v10 (ix2 n j) k = ix2 k j :=
  funext fun a => Fin.ext (by match a with | ⟨0, _⟩ => rfl | ⟨1, _⟩ => rfl)

/-- The bias row is repeated down the rows: entry `(n, j)` reads entry `j`. -/
theorem idx12 (n : Fin 50000) (j : Fin 64) : idx_main_v12 (ix2 n j) = ix2 (0 : Fin 1) j :=
  funext fun a => Fin.ext (by match a with | ⟨0, _⟩ => rfl | ⟨1, _⟩ => rfl)

theorem idx11 (z : Fin 1) (j : Fin 64) : idx_main_v11 (ix2 z j) = ix1 j :=
  funext fun a => Fin.ext (by match a with | ⟨0, _⟩ => rfl)

/-- The regrouped value projection at node `n`, head `hd`, entry `d`. -/
theorem value_at (n : Fin 50000) (hd d : Fin 8) :
    val_main_v14 (F := Ideal) x1 x7 x8 (ix3 n hd d)
      = Spec.proj (Spec.cur2 x1) (Spec.cur2 x7) (Spec.cur1 x8) n (Spec.hcol hd d) := by
  rw [val_main_v14_apply, idx14, val_main_v13_apply, val_main_v10_apply, val_main_v12_apply, idx12,
    val_main_v11_apply, idx11]
  simp only [lidx10, ridx10, Ideal.addf_def]
  rfl

/-! ### Index arithmetic of the key projection -/

/-- Regrouping a 64-wide row as 8 heads of 8: entry `(n, hd, d)` is column `8 * hd + d` of row `n`, since
    `((n * 8 + hd) * 8 + d) = n * 64 + (8 * hd + d)` with `8 * hd + d < 64`. -/
theorem idx9 (n : Fin 50000) (hd d : Fin 8) : idx_main_v9 (ix3 n hd d) = ix2 n (Spec.hcol hd d) :=
  funext fun a => Fin.ext (by
    have hn := n.isLt; have hh := hd.isLt; have hdd := d.isLt
    match a with
    | ⟨0, _⟩ => show ((n.val * 8 + hd.val) * 8 + d.val) / 64 = n.val; omega
    | ⟨1, _⟩ => show ((n.val * 8 + hd.val) * 8 + d.val) % 64 = 8 * hd.val + d.val; omega)

/-- The matrix product at `(n, j)` pairs entry `(n, k)` of the left factor with entry `(k, j)` of the right. -/
theorem lidx5 (n : Fin 50000) (j : Fin 64) (k : Fin 128) : lidx_main_v5 (ix2 n j) k = ix2 n k :=
  funext fun a => Fin.ext (by match a with | ⟨0, _⟩ => rfl | ⟨1, _⟩ => rfl)

theorem ridx5 (n : Fin 50000) (j : Fin 64) (k : Fin 128) : ridx_main_v5 (ix2 n j) k = ix2 k j :=
  funext fun a => Fin.ext (by match a with | ⟨0, _⟩ => rfl | ⟨1, _⟩ => rfl)

/-- The bias row is repeated down the rows: entry `(n, j)` reads entry `j`. -/
theorem idx7 (n : Fin 50000) (j : Fin 64) : idx_main_v7 (ix2 n j) = ix2 (0 : Fin 1) j :=
  funext fun a => Fin.ext (by match a with | ⟨0, _⟩ => rfl | ⟨1, _⟩ => rfl)

theorem idx6 (z : Fin 1) (j : Fin 64) : idx_main_v6 (ix2 z j) = ix1 j :=
  funext fun a => Fin.ext (by match a with | ⟨0, _⟩ => rfl)

/-- The regrouped key projection at node `n`, head `hd`, entry `d`. -/
theorem key_at (n : Fin 50000) (hd d : Fin 8) :
    val_main_v9 (F := Ideal) x1 x5 x6 (ix3 n hd d)
      = Spec.proj (Spec.cur2 x1) (Spec.cur2 x5) (Spec.cur1 x6) n (Spec.hcol hd d) := by
  rw [val_main_v9_apply, idx9, val_main_v8_apply, val_main_v5_apply, val_main_v7_apply, idx7,
    val_main_v6_apply, idx6]
  simp only [lidx5, ridx5, Ideal.addf_def]
  rfl

/-! ### Index arithmetic of the query projection -/

/-- Regrouping a 64-wide row as 8 heads of 8: entry `(n, hd, d)` is column `8 * hd + d` of row `n`, since
    `((n * 8 + hd) * 8 + d) = n * 64 + (8 * hd + d)` with `8 * hd + d < 64`. -/
theorem idx4 (n : Fin 50000) (hd d : Fin 8) : idx_main_v4 (ix3 n hd d) = ix2 n (Spec.hcol hd d) :=
  funext fun a => Fin.ext (by
    have hn := n.isLt; have hh := hd.isLt; have hdd := d.isLt
    match a with
    | ⟨0, _⟩ => show ((n.val * 8 + hd.val) * 8 + d.val) / 64 = n.val; omega
    | ⟨1, _⟩ => show ((n.val * 8 + hd.val) * 8 + d.val) % 64 = 8 * hd.val + d.val; omega)

/-- The matrix product at `(n, j)` pairs entry `(n, k)` of the left factor with entry `(k, j)` of the right. -/
theorem lidx0 (n : Fin 50000) (j : Fin 64) (k : Fin 128) : lidx_main_v0 (ix2 n j) k = ix2 n k :=
  funext fun a => Fin.ext (by match a with | ⟨0, _⟩ => rfl | ⟨1, _⟩ => rfl)

theorem ridx0 (n : Fin 50000) (j : Fin 64) (k : Fin 128) : ridx_main_v0 (ix2 n j) k = ix2 k j :=
  funext fun a => Fin.ext (by match a with | ⟨0, _⟩ => rfl | ⟨1, _⟩ => rfl)

/-- The bias row is repeated down the rows: entry `(n, j)` reads entry `j`. -/
theorem idx2 (n : Fin 50000) (j : Fin 64) : idx_main_v2 (ix2 n j) = ix2 (0 : Fin 1) j :=
  funext fun a => Fin.ext (by match a with | ⟨0, _⟩ => rfl | ⟨1, _⟩ => rfl)

theorem idx1 (z : Fin 1) (j : Fin 64) : idx_main_v1 (ix2 z j) = ix1 j :=
  funext fun a => Fin.ext (by match a with | ⟨0, _⟩ => rfl)

/-- The regrouped query projection at node `n`, head `hd`, entry `d`. -/
theorem query_at (n : Fin 50000) (hd d : Fin 8) :
    val_main_v4 (F := Ideal) x1 x3 x4 (ix3 n hd d)
      = Spec.proj (Spec.cur2 x1) (Spec.cur2 x3) (Spec.cur1 x4) n (Spec.hcol hd d) := by
  rw [val_main_v4_apply, idx4, val_main_v3_apply, val_main_v0_apply, val_main_v2_apply, idx2,
    val_main_v1_apply, idx1]
  simp only [lidx0, ridx0, Ideal.addf_def]
  rfl

/-! ### Index arithmetic of the edge projection -/

/-- Regrouping a 64-wide row as 8 heads of 8: entry `(n, hd, d)` is column `8 * hd + d` of row `n`, since
    `((n * 8 + hd) * 8 + d) = n * 64 + (8 * hd + d)` with `8 * hd + d < 64`. -/
theorem idx19 (n : Fin 800000) (hd d : Fin 8) : idx_main_v19 (ix3 n hd d) = ix2 n (Spec.hcol hd d) :=
  funext fun a => Fin.ext (by
    have hn := n.isLt; have hh := hd.isLt; have hdd := d.isLt
    match a with
    | ⟨0, _⟩ => show ((n.val * 8 + hd.val) * 8 + d.val) / 64 = n.val; omega
    | ⟨1, _⟩ => show ((n.val * 8 + hd.val) * 8 + d.val) % 64 = 8 * hd.val + d.val; omega)

/-- The matrix product at `(n, j)` pairs entry `(n, k)` of the left factor with entry `(k, j)` of the right. -/
theorem lidx15 (n : Fin 800000) (j : Fin 64) (k : Fin 64) : lidx_main_v15 (ix2 n j) k = ix2 n k :=
  funext fun a => Fin.ext (by match a with | ⟨0, _⟩ => rfl | ⟨1, _⟩ => rfl)

theorem ridx15 (n : Fin 800000) (j : Fin 64) (k : Fin 64) : ridx_main_v15 (ix2 n j) k = ix2 k j :=
  funext fun a => Fin.ext (by match a with | ⟨0, _⟩ => rfl | ⟨1, _⟩ => rfl)

/-- The bias row is repeated down the rows: entry `(n, j)` reads entry `j`. -/
theorem idx17 (n : Fin 800000) (j : Fin 64) : idx_main_v17 (ix2 n j) = ix2 (0 : Fin 1) j :=
  funext fun a => Fin.ext (by match a with | ⟨0, _⟩ => rfl | ⟨1, _⟩ => rfl)

theorem idx16 (z : Fin 1) (j : Fin 64) : idx_main_v16 (ix2 z j) = ix1 j :=
  funext fun a => Fin.ext (by match a with | ⟨0, _⟩ => rfl)

/-- The regrouped edge projection at edge `e`, head `hd`, entry `d`. -/
theorem eproj_at (e : Fin 800000) (hd d : Fin 8) :
    val_main_v19 (F := Ideal) x2 x9 x10 (ix3 e hd d)
      = Spec.proj (Spec.cur2 x2) (Spec.cur2 x9) (Spec.cur1 x10) e (Spec.hcol hd d) := by
  rw [val_main_v19_apply, idx19, val_main_v18_apply, val_main_v15_apply, val_main_v17_apply, idx17,
    val_main_v16_apply, idx16]
  simp only [lidx15, ridx15, Ideal.addf_def]
  rfl

/-! ### The two gathers -/

/-- The key rows gathered by source: row `e` of the result is the key row named by the source word of edge `e`. -/
theorem keyBySource_at (e : Fin 800000) (hd d : Fin 8) :
    val_main_v30 (F := Ideal) x0 x1 x5 x6 (ix3 e hd d)
      = val_main_v9 (F := Ideal) x1 x5 x6 (ix3 (Cert.Lib.Row.rowOf 50000 (by decide) (gsR x0 e)) hd d) := by
  unfold val_main_v30
  exact Cert.Lib.Row.gather_row3 (by decide) gather_S50000x8x8_S800000x1_S800000x8x8_12_0_n_n_0_1_188
    rfl rfl rfl rfl rfl rfl rfl _ _ e hd d

/-- The query rows gathered by destination. -/
theorem queryByDest_at (e : Fin 800000) (hd d : Fin 8) :
    val_main_v37 (F := Ideal) x0 x1 x3 x4 (ix3 e hd d)
      = val_main_v4 (F := Ideal) x1 x3 x4 (ix3 (Cert.Lib.Row.rowOf 50000 (by decide) (gdR x0 e)) hd d) := by
  unfold val_main_v37
  exact Cert.Lib.Row.gather_row3 (by decide) gather_S50000x8x8_S800000x1_S800000x8x8_12_0_n_n_0_1_188
    rfl rfl rfl rfl rfl rfl rfl _ _ e hd d

/-! ### The divisor -/

/-- The divisor's word denotes the real `11863283 / 4194304`. -/
theorem divisor_word : Ideal.ofBits .f32 0x403504F3#32 = ((11863283 / 4194304 : ℝ) : EReal) := by
  simp [Ideal.ofBits, Ideal.ieee, -EReal.coe_mul]; norm_num

/-- Dividing by the divisor's word is multiplying by its reciprocal `4194304 / 11863283`. -/
theorem div_divisor (x : EReal) : Ideal.div x (Ideal.ofBits .f32 0x403504F3#32) = x * Spec.invD := by
  rw [divisor_word, Ideal.div_coe (by norm_num)]
  congr 2
  norm_num

/-- The reference's edge result at `(e, hd, d)` is the specification's score at column `8 * hd + d`. -/
theorem score_at (e : Fin 800000) (hd d : Fin 8) :
    val_main_v41 (F := Ideal) x0 x1 x2 x3 x4 x5 x6 x9 x10 (ix3 e hd d)
      = Spec.scoreC (gsR x0) (gdR x0) x1 x2 x3 x4 x5 x6 x9 x10 e (Spec.hcol hd d) := by
  rw [val_main_v41_apply, val_main_v40_apply, val_main_v38_apply, keyBySource_at, queryByDest_at, key_at, query_at,
    eproj_at, val_main_v39_apply, val_main_cst_apply]
  simp only [Ideal.addf_def, Ideal.hostDivf_def, Ideal.mulf_def, Ideal.ofBits_def]
  rw [div_divisor]
  rfl

/-! ### The head weights -/

theorem idx43 (e : Fin 800000) (hd : Fin 8) (z : Fin 1) : idx_main_v43 (ix3 e hd z) = ix2 e hd :=
  funext fun a => Fin.ext (by match a with | ⟨0, _⟩ => rfl | ⟨1, _⟩ => rfl)

theorem idx42 (e : Fin 800000) (hd k : Fin 8) : idx_main_v42 (ix2 e hd) k = ix3 e hd k :=
  funext fun a => Fin.ext (by match a with | ⟨0, _⟩ => rfl | ⟨1, _⟩ => rfl | ⟨2, _⟩ => rfl)

/-- The reference's head weights at `(e, hd, 0)`. -/
theorem att_at (e : Fin 800000) (hd : Fin 8) :
    val_main_v45 (F := Ideal) x0 x1 x2 x3 x4 x5 x6 x9 x10 (ix3 e hd 0)
      = Spec.attC (gsR x0) (gdR x0) x1 x2 x3 x4 x5 x6 x9 x10 e hd := by
  rw [val_main_v45_apply, val_main_v44_apply, val_main_call0_v4_apply, val_main_call0_v3_apply, val_main_cst_5_apply,
    val_main_call0_v2_apply, val_main_call0_v1_apply, val_main_call0_v0_apply, val_main_cst_4_apply,
    val_main_v43_apply, idx43, val_main_v42_apply, val_main_cst_3_apply]
  simp only [idx42, score_at, Ideal.hostUnary_exp_def, Ideal.minimumf_def, Ideal.maximumf_def, Ideal.ofBits_def,
    Ideal.ofBits_zero_f32, zero_add]
  rfl

/-- The edge result as a whole array. -/
theorem eout_eq :
    val_main_v41 (F := Ideal) x0 x1 x2 x3 x4 x5 x6 x9 x10
      = Spec.eoutArr (gsR x0) (gdR x0) x1 x2 x3 x4 x5 x6 x9 x10 := by
  funext i
  rw [eq_ix3 i]
  exact score_at x0 x1 x2 x3 x4 x5 x6 x9 x10 _ _ _

end Cert.ReferenceIdeal.RefScore

end
-- ==== Proof.RefHout.lean ====
/-
  The reference's node stages, read at an entry.

  The reference gathers the value rows by source, scales each head's eight entries by the head's weight, and sums
  the scaled rows, the weights and the constant one over the edges that land on each node. The node's weight sums
  are divided by its edge count (at least one), the small constant is added, and the message sums are divided by
  the result, each head's eight entries by that head's one value: the specification's node output.
-/
import proofs.«113673_j42554535969392_1_alg».proof.Proof.RefScore
import proofs.«113673_j42554535969392_1_alg».proof.Proof.LibRowGather
import proofs.«113673_j42554535969392_1_alg».proof.Proof.LibRowScatter
import proofs.«113673_j42554535969392_1_alg».proof.Proof.Spec

set_option maxRecDepth 16384

noncomputable section

namespace Cert.ReferenceIdeal.RefHout

open Idealize.ShloMosaic Idealize.ShloMosaic.TcCoe Idealize.ShloMosaic.ValueIdx
open Idealize.SL.Sem
open Cert.ReferenceIdeal Cert.ReferenceIdeal.Read
open Cert.ReferenceIdeal.RefScore

variable (x0 : (⟨S2x800000, .i32⟩ : BufTy).Contents (Elt Ideal))
variable (x1 : (⟨S50000x128, .f32⟩ : BufTy).Contents (Elt Ideal)) (x2 : (⟨S800000x64, .f32⟩ : BufTy).Contents (Elt Ideal))
variable (x3 : (⟨S128x64, .f32⟩ : BufTy).Contents (Elt Ideal)) (x4 : (⟨S64, .f32⟩ : BufTy).Contents (Elt Ideal))
variable (x5 : (⟨S128x64, .f32⟩ : BufTy).Contents (Elt Ideal)) (x6 : (⟨S64, .f32⟩ : BufTy).Contents (Elt Ideal))
variable (x7 : (⟨S128x64, .f32⟩ : BufTy).Contents (Elt Ideal)) (x8 : (⟨S64, .f32⟩ : BufTy).Contents (Elt Ideal))
variable (x9 : (⟨S64x64, .f32⟩ : BufTy).Contents (Elt Ideal)) (x10 : (⟨S64, .f32⟩ : BufTy).Contents (Elt Ideal))

/-- The scatter words by source, one per edge. -/
abbrev ssR : Fin 800000 → BitVec 32 := Spec.col0 (val_main_v56 (F := Ideal) x0)

/-! ## The index words

The three scatters use one and the same array of words, and the gather of the value rows uses the words of the
gather by source. -/

theorem v59_eq : val_main_v59 (F := Ideal) x0 = val_main_v56 (F := Ideal) x0 := rfl

theorem v63_eq : val_main_v63 (F := Ideal) x0 = val_main_v56 (F := Ideal) x0 := rfl

theorem v51_eq : val_main_v51 (F := Ideal) x0 = val_main_v29 (F := Ideal) x0 := rfl

/-! ## The edge messages -/

/-- The message of edge `e` at `(hd, d)`: the value row of the edge's source at column `8 * hd + d` times the
    weight of head `hd`. -/
theorem msg_at (e : Fin 800000) (hd d : Fin 8) :
    val_main_v54 (F := Ideal) x0 x1 x2 x3 x4 x5 x6 x7 x8 x9 x10 (ix3 e hd d)
      = Spec.messageC (gsR x0) (gdR x0) x1 x2 x3 x4 x5 x6 x7 x8 x9 x10 e (Spec.hcol hd d) := by
  have hidx : idx_main_v53 (ix3 e hd d) = ix3 e hd (0 : Fin 1) := by
    funext a
    match a with
    | ⟨0, _⟩ => rfl
    | ⟨1, _⟩ => rfl
    | ⟨2, _⟩ => rfl
  have hg : val_main_v52 (F := Ideal) x0 x1 x7 x8 (ix3 e hd d)
      = val_main_v14 (F := Ideal) x1 x7 x8
          (ix3 (Cert.Lib.Row.rowOf 50000 (by decide) (val_main_v51 (F := Ideal) x0 (ix2 e 0))) hd d) := by
    unfold val_main_v52
    exact Cert.Lib.Row.gather_row3 (by decide) gather_S50000x8x8_S800000x1_S800000x8x8_12_0_n_n_0_1_188
      rfl rfl rfl rfl rfl rfl rfl _ _ e hd d
  rw [val_main_v54_apply, val_main_v53_apply, hidx, att_at, hg, value_at, v51_eq]
  unfold Spec.messageC Spec.message
  rw [Spec.headOf_hcol]
  rfl

/-! ## The three sums over the edges landing on a node -/

/-- The message sums. -/
theorem v57_at (n : Fin 50000) (hd d : Fin 8) :
    val_main_v57 (F := Ideal) x0 x1 x2 x3 x4 x5 x6 x7 x8 x9 x10 (ix3 n hd d)
      = Spec.segsum (ssR x0)
          (fun e => Spec.messageC (gsR x0) (gdR x0) x1 x2 x3 x4 x5 x6 x7 x8 x9 x10 e (Spec.hcol hd d)) n := by
  unfold val_main_v57
  refine (Cert.Lib.Row.scatterAdd_row3 scatter_S50000x8x8_S800000x1_S800000x8x8_12_0_0_1 rfl rfl rfl rfl
    _ _ _ n hd d).trans ?_
  rw [val_main_v55_apply, val_main_cst_8_apply]
  unfold Spec.segsum
  refine congrArg₂ (· + ·) rfl (Finset.sum_congr rfl fun e _ => ?_)
  exact msg_at x0 x1 x2 x3 x4 x5 x6 x7 x8 x9 x10 e hd d

/-- The weight sums. -/
theorem v60_at (n : Fin 50000) (hd : Fin 8) :
    val_main_v60 (F := Ideal) x0 x1 x2 x3 x4 x5 x6 x9 x10 (ix3 n hd (0 : Fin 1))
      = Spec.segsum (ssR x0) (fun e => Spec.attC (gsR x0) (gdR x0) x1 x2 x3 x4 x5 x6 x9 x10 e hd) n := by
  unfold val_main_v60
  refine (Cert.Lib.Row.scatterAdd_row3 scatter_S50000x8x1_S800000x1_S800000x8x1_12_0_0_1 rfl rfl rfl rfl
    _ _ _ n hd 0).trans ?_
  rw [val_main_v58_apply, val_main_cst_9_apply, v59_eq]
  unfold Spec.segsum
  refine congrArg₂ (· + ·) rfl (Finset.sum_congr rfl fun e _ => ?_)
  exact att_at x0 x1 x2 x3 x4 x5 x6 x9 x10 e hd

/-- The edge counts. -/
theorem v64_at (n : Fin 50000) :
    val_main_v64 (F := Ideal) x0 (ix1 n) = Spec.segsum (ssR x0) (fun _ => Spec.fone) n := by
  unfold val_main_v64
  refine (Cert.Lib.Row.scatterAdd_row1 scatter_S50000_S800000x1_S800000_n_0_0_1 rfl rfl rfl rfl
    _ _ _ n).trans ?_
  rw [val_main_v62_apply, val_main_cst_11_apply, v63_eq]
  unfold Spec.segsum
  refine congrArg₂ (· + ·) rfl (Finset.sum_congr rfl fun e _ => ?_)
  rw [val_main_v61_apply, val_main_cst_10_apply]
  rfl

/-! ## The node output -/

/-- The reference's node result at `(n, hd, d)` is the specification's node output at column `8 * hd + d`. -/
theorem hout_at (n : Fin 50000) (hd d : Fin 8) :
    val_main_v73 (F := Ideal) x0 x1 x2 x3 x4 x5 x6 x7 x8 x9 x10 (ix3 n hd d)
      = Spec.houtC (gsR x0) (gdR x0) (ssR x0) x1 x2 x3 x4 x5 x6 x7 x8 x9 x10 n (Spec.hcol hd d) := by
  have h72 : idx_main_v72 (ix3 n hd d) = ix3 n hd (0 : Fin 1) := by
    funext a
    match a with
    | ⟨0, _⟩ => rfl
    | ⟨1, _⟩ => rfl
    | ⟨2, _⟩ => rfl
  have h68 : idx_main_v67 (idx_main_v68 (ix3 n hd (0 : Fin 1))) = ix1 n := by
    funext a
    match a with
    | ⟨0, _⟩ => rfl
  rw [val_main_v73_apply, val_main_v72_apply, h72, val_main_v71_apply, val_main_v69_apply,
    val_main_v70_apply, val_main_cst_13_apply, val_main_v68_apply, val_main_v67_apply, h68,
    val_main_v66_apply, val_main_v65_apply, val_main_cst_12_apply,
    v57_at, v60_at, v64_at]
  unfold Spec.houtC Spec.normalized
  rw [Spec.headOf_hcol]
  rfl

/-- The node result as a whole array. -/
theorem hout_eq :
    val_main_v73 (F := Ideal) x0 x1 x2 x3 x4 x5 x6 x7 x8 x9 x10
      = Spec.houtArr (gsR x0) (gdR x0) (ssR x0) x1 x2 x3 x4 x5 x6 x7 x8 x9 x10 := by
  funext i
  rw [eq_ix3 i]
  exact hout_at x0 x1 x2 x3 x4 x5 x6 x7 x8 x9 x10 _ _ _

end Cert.ReferenceIdeal.RefHout

end
-- ==== Proof.lean ====
/-
  One graph-attention layer on a TPU against its plain array reference, over the extended reals.

  The kernel program runs three kernels among host gathers and scatter-sums; the reference does the same layer with
  array operations only. Both compute, from the edge list and ten float arrays, the per-edge score rows and the
  per-node normalised message rows of the specification (Proof/Spec.lean), regrouped as 8 heads of 8 entries.

  Where the two differ and why they agree at the ideal instance: the kernels multiply bf16-rounded operands (a change
  of float format is the identity there); they scale the key-query product by a constant NAMED as the reciprocal
  `4194304 / 11863283` of the reference's divisor `11863283 / 4194304`, and dividing by a nonzero real is multiplying
  by its reciprocal on every extended real; they sum each head's eight scores, and copy each head's weight to its
  eight columns, by products with 0/1 matrices, whose sums drop the zero terms; they keep 64-wide rows where the
  reference regroups early, and a gather or a scatter-sum of whole rows does not see how a row is grouped. The index
  words given to the gathers and scatters are computed from the edge list by the same operations in both programs.

  The kernel program's run with its results named is the generated frame's launch called again (Proof/KRun.lean);
  what the three kernels leave is Proof/KReg0.lean, KReg1.lean, KReg2.lean; the host stretches between them are
  Proof/KHost0.lean, KHostA.lean, KHostB.lean; the reference is read stage by stage in Proof/RefScore.lean and
  RefHout.lean over its generated run; gathers and scatter-sums of whole rows are read in Proof/LibRowGather.lean
  and LibRowScatter.lean, a matrix product at an entry in Proof/LibDot2.lean.
-/
import proofs.«113673_j42554535969392_1_alg».proof.Defs
import proofs.«113673_j42554535969392_1_alg».proof.Proof.Gen.Kernel
import proofs.«113673_j42554535969392_1_alg».proof.Proof.Gen.Kernel.Frame
import proofs.«113673_j42554535969392_1_alg».proof.Proof.Gen.KernelIdeal
import proofs.«113673_j42554535969392_1_alg».proof.Proof.Gen.KernelIdeal.Frame
import proofs.«113673_j42554535969392_1_alg».proof.Proof.Gen.ReferenceIdeal
import proofs.«113673_j42554535969392_1_alg».proof.Proof.Gen.Pre_finite_inputs
import proofs.«113673_j42554535969392_1_alg».proof.Proof.Gen.ReferenceIdeal.Run
import proofs.«113673_j42554535969392_1_alg».proof.Proof.Gen.ReferenceIdeal.Read
import proofs.«113673_j42554535969392_1_alg».proof.Proof.KRun
import proofs.«113673_j42554535969392_1_alg».proof.Proof.KHostB
import proofs.«113673_j42554535969392_1_alg».proof.Proof.RefScore
import proofs.«113673_j42554535969392_1_alg».proof.Proof.RefHout
import Idealize.ShloMosaic.Adequacy
import Idealize.ShloMosaic.Init

noncomputable section

namespace Cert.Proof

open Idealize.ShloMosaic Idealize.ShloMosaic.TcCoe Idealize.SL.Sem

/-! ## The index words are the same functions of the edge list in both programs -/

section Words
open Cert.KernelIdeal.Host0 Cert.ReferenceIdeal.Read

variable (a0 : (⟨Cert.ReferenceIdeal.S2x800000, .i32⟩ : BufTy).Contents (Elt Ideal))

/-- The gather words by source: negative source words wrapped once, as a column. -/
theorem words_src : Cert.ReferenceIdeal.RefScore.gsR a0 = Spec.col0 (wrapCol (srcW a0)) := rfl
/-- The gather words by destination. -/
theorem words_dst : Cert.ReferenceIdeal.RefScore.gdR a0 = Spec.col0 (wrapCol (dstW a0)) := rfl
/-- The scatter words by source: the source words as a column. -/
theorem words_raw : Cert.ReferenceIdeal.RefHout.ssR a0 = Spec.col0 (rawCol (srcW a0)) := rfl

end Words

/-! ## The claims -/

/-- The kernel program, as printed and idealized, runs and leaves its arguments: the generated frames. -/
theorem frame_k : Cert.frame_Kernel := fun m ρ _ => Cert.Kernel.Gen.frame m ρ
theorem frame_ki : Cert.frame_KernelIdeal := fun m ρ _ => Cert.KernelIdeal.Gen.frame m ρ
/-- The reference runs and leaves its arguments: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the scale on the key-query product is named the reciprocal of the
    reference's divisor, and the table gives the name that value. -/
theorem preserves : Cert.preserves_Kernel_KernelIdeal :=
  IdealRules.named_const.statement Cert.KernelIdeal.κ "inv_sqrt_d" .f32 0x3EB504F3#32 ((4194304 / 11863283 : ℝ) : EReal) rfl

/-- From memories that agree on the arguments both programs end with the specification's two arrays of the
    arguments: the kernel program by its run and the host stretches and kernels read back, the reference by its run
    read stage by stage; the index words are the same functions of the edge list. -/
theorem algebraic : Cert.algebraic_KernelIdeal_ReferenceIdeal := by
  intro m ρ m' ρ' _ hagree
  refine ⟨fun c => Spec.houtArr (Cert.KernelIdeal.Host0.gsK m c) (Cert.KernelIdeal.Host0.gdK m c) (Cert.KernelIdeal.Host0.ssK m c)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Spec.eoutArr (Cert.KernelIdeal.Host0.gsK m c) (Cert.KernelIdeal.Host0.gdK m c)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HostB.hout_eq m ρ c), (h c).2.1.trans (Cert.KernelIdeal.HostB.eout_eq m ρ c), (h c).2.2⟩)
      (Cert.KernelIdeal.Run.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v73_eq m' c, Cert.ReferenceIdeal.RefHout.hout_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2, words_src, words_dst, words_raw]
    · refine (Cert.ReferenceIdeal.Read.val_main_v41_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
      rw [Cert.ReferenceIdeal.RefScore.eout_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.2.2.1, (hagree c).2.2.2.2.2.2.2.2.2.2, words_src, words_dst]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
